-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1000x4x1024 : Shape := ⟨3, ![1000, 4, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1000x4x1024 : S_.BroadcastsInDim S1000x4x1024 (![] : Fin 0 → Fin S1000x4x1024.rank)
  reducesTo_S1000x4x1024_S_d0_1_2 : S1000x4x1024.ReducesTo [0, 1, 2] S_

variable [Facts]

def fn {F : FTy → Type} [FloatOps F] (main_arg0 : FVec F S1024x1024 .f32) (main_arg1 : FVec F S1000x4x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1000x4x1024 .f32 := Host.absf main_arg1
  let main_cst_0 : FVec F S_ .f32 := constant S_ .f32 0x7F800000#32
  let main_v5 : FVec F S1000x4x1024 .f32 := broadcastInDim S1000x4x1024 ![] bcast_S_S1000x4x1024 main_cst_0
  let main_v6 : IVec S1000x4x1024 1 := cmpf .olt main_v4 main_v5
  let main_c_1 : IVec S_ 1 := constantI S_ 1 1#1
  let main_v7 : IVec S_ 1 := (fun x v => Host.reduce IntOp.andi x v reducesTo_S1000x4x1024_S_d0_1_2 h_S_) main_v6 main_c_1
  let main_v8 : IVec S_ 1 := andi main_v3 main_v7
  main_v8
-- ==== Kernel.lean ====
abbrev S1024x1024 : Shape := ⟨2, ![1024, 1024]⟩
abbrev S1000x4x1024 : Shape := ⟨3, ![1000, 4, 1024]⟩
abbrev S_ : Shape := ⟨0, ![]⟩
abbrev S1024 : Shape := ⟨1, ![1024]⟩
abbrev S1024x1 : Shape := ⟨2, ![1024, 1]⟩
abbrev S4x1000x1024 : Shape := ⟨3, ![4, 1000, 1024]⟩
abbrev S4000x1024 : Shape := ⟨2, ![4000, 1024]⟩
abbrev S1000x4 : Shape := ⟨2, ![1000, 4]⟩
abbrev S4x1000 : Shape := ⟨2, ![4, 1000]⟩
abbrev S4000 : Shape := ⟨1, ![4000]⟩
abbrev S4000x1 : Shape := ⟨2, ![4000, 1]⟩
abbrev S1x4000 : Shape := ⟨2, ![1, 4000]⟩
abbrev S4x1024x1024 : Shape := ⟨3, ![4, 1024, 1024]⟩
abbrev S4x1024 : Shape := ⟨2, ![4, 1024]⟩
abbrev S256x1024 : Shape := ⟨2, ![256, 1024]⟩
abbrev S256x1 : Shape := ⟨2, ![256, 1]⟩
abbrev S1x1024x1024 : Shape := ⟨3, ![1, 1024, 1024]⟩
abbrev S1x1024 : Shape := ⟨2, ![1, 1024]⟩
abbrev S1024x1000 : Shape := ⟨2, ![1024, 1000]⟩
abbrev S16x128 : Shape := ⟨2, ![16, 128]⟩
abbrev S400x1024 : Shape := ⟨2, ![400, 1024]⟩
abbrev S400x1 : Shape := ⟨2, ![400, 1]⟩
abbrev S8x128 : Shape := ⟨2, ![8, 128]⟩
abbrev S400x4000 : Shape := ⟨2, ![400, 4000]⟩
abbrev S400 : Shape := ⟨1, ![400]⟩
abbrev S1 : Shape := ⟨1, ![1]⟩
abbrev S1x1 : Shape := ⟨2, ![1, 1]⟩
abbrev S1024x1001 : Shape := ⟨2, ![1024, 1001]⟩

abbrev nBuf : Space → Nat
  | .hbm => 54
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1000x4x1024, .f32⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S4x1000x1024, .f32⟩
  | .hbm, ⟨8, _⟩ => ⟨S4x1000x1024, .bf16⟩
  | .hbm, ⟨9, _⟩ => ⟨S4000x1024, .bf16⟩
  | .hbm, ⟨10, _⟩ => ⟨S1000x4x1024, .f32⟩
  | .hbm, ⟨11, _⟩ => ⟨S_, .f32⟩
  | .hbm, ⟨12, _⟩ => ⟨S1000x4, .f32⟩
  | .hbm, ⟨13, _⟩ => ⟨S4x1000, .f32⟩
  | .hbm, ⟨14, _⟩ => ⟨S4000, .f32⟩
  | .hbm, ⟨15, _⟩ => ⟨S4000x1, .f32⟩
  | .hbm, ⟨16, _⟩ => ⟨S1x4000, .f32⟩
  | .hbm, ⟨17, _⟩ => ⟨S_, .i32⟩
  | .hbm, ⟨18, _⟩ => ⟨S_, .bf16⟩
  | .hbm, ⟨19, _⟩ => ⟨S4x1024x1024, .bf16⟩
  | .hbm, ⟨20, _⟩ => ⟨S_, .i32⟩
  | .hbm, ⟨21, _⟩ => ⟨S_, .f32⟩
  | .hbm, ⟨22, _⟩ => ⟨S4x1024, .f32⟩
  | .hbm, ⟨23, _⟩ => ⟨S1024x1024, .f32⟩
  | .hbm, ⟨24, _⟩ => ⟨S1024x1000, .f32⟩
  | .hbm, ⟨25, _⟩ => ⟨S16x128, .f32⟩
  | .hbm, ⟨26, _⟩ => ⟨S16x128, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1024x1, .f32⟩
  | .hbm, ⟨51, _⟩ => ⟨S1024x1, .f32⟩
  | .hbm, ⟨52, _⟩ => ⟨S1024x1, .f32⟩
  | .hbm, ⟨53, _⟩ => ⟨S1024x1001, .f32⟩
  | .local _ .vmem, ⟨0, _⟩ => ⟨S256x1024, .bf16⟩
  | .local _ .vmem, ⟨1, _⟩ => ⟨S256x1024, .bf16⟩
  | .local _ .vmem, ⟨2, _⟩ => ⟨S256x1, .f32⟩
  | .local _ .vmem, ⟨3, _⟩ => ⟨S256x1, .f32⟩
  | .local _ .vmem, ⟨4, _⟩ => ⟨S4x1024x1024, .bf16⟩
  | .local _ .vmem, ⟨5, _⟩ => ⟨S4x1024, .f32⟩
  | .local _ .vmem, ⟨6, _⟩ => ⟨S256x1024, .f32⟩
  | .local _ .vmem, ⟨7, _⟩ => ⟨S256x1024, .f32⟩
  | .local _ .vmem, ⟨8, _⟩ => ⟨S400x1024, .bf16⟩
  | .local _ .vmem, ⟨9, _⟩ => ⟨S400x1024, .bf16⟩
  | .local _ .vmem, ⟨10, _⟩ => ⟨S400x1, .f32⟩
  | .local _ .vmem, ⟨11, _⟩ => ⟨S400x1, .f32⟩
  | .local _ .vmem, ⟨12, _⟩ => ⟨S4000x1024, .bf16⟩
  | .local _ .vmem, ⟨13, _⟩ => ⟨S1x4000, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_c_1 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S400x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4000x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  reducesTo_S1024x1024_S1024_d1 : S1024x1024.ReducesTo [1] S1024
  h_S_ : 0 < S_.numel
  bcast_S1024_S1024x1_0 : S1024.BroadcastsInDim S1024x1 (![0] : Fin 1 → Fin S1024x1.rank)
  transposes_S1000x4x1024_S4x1000x1024_1_0_2 : S1000x4x1024.Transposes [1, 0, 2] S4x1000x1024
  shapeCasts_S4x1000x1024_S4000x1024 : S4x1000x1024.ShapeCasts S4000x1024
  reducesTo_S1000x4x1024_S1000x4_d2 : S1000x4x1024.ReducesTo [2] S1000x4
  transposes_S1000x4_S4x1000_1_0 : S1000x4.Transposes [1, 0] S4x1000
  shapeCasts_S4x1000_S4000 : S4x1000.ShapeCasts S4000
  shapeCasts_S4000_S4000x1 : S4000.ShapeCasts S4000x1
  shapeCasts_S4000_S1x4000 : S4000.ShapeCasts S1x4000
  pads_S4x1000x1024_S4x1024x1024_000_0240_000 : S4x1000x1024.Pads (![0, 0, 0] : Fin 3 → Nat) ![0, 24, 0] ![0, 0, 0] S4x1024x1024
  pads_S4x1000_S4x1024_000_0240 : S4x1000.Pads (![0, 0] : Fin 2 → Nat) ![0, 24] ![0, 0] S4x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S256x1_S256x1024 : S256x1.Broadcasts S256x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  slices_S1024x1024_S1024x1000_0_0 : S1024x1024.Slices ![0, 0] S1024x1000
  inb_S400x1024_S400x1024_0_0 : ∀ a, (![0, 0] : Fin 2 → Nat) a + S400x1024.size a ≤ S400x1024.size a
  h_S400x1024 : 0 < S400x1024.numel
  shapeCasts_S400x1024_S400x1024 : S400x1024.ShapeCasts S400x1024
  inb_S4000x1024_S4000x1024_0_0 : ∀ a, (![0, 0] : Fin 2 → Nat) a + S4000x1024.size a ≤ S4000x1024.size a
  h_S4000x1024 : 0 < S4000x1024.numel
  shapeCasts_S4000x1024_S4000x1024 : S4000x1024.ShapeCasts S4000x1024
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1x4000_S1x4000_0_0 : ∀ a, (![0, 0] : Fin 2 → Nat) a + S1x4000.size a ≤ S1x4000.size a
  h_S1x4000 : 0 < S1x4000.numel
  shapeCasts_S1x4000_S1x4000 : S1x4000.ShapeCasts S1x4000
  broadcasts_S400x1_S400x4000 : S400x1.Broadcasts S400x4000
  broadcasts_S1x4000_S400x4000 : S1x4000.Broadcasts S400x4000
  iota_S400x4000_d0_w32 : S400x4000.Iotas .tc 32 [0]
  iota_S400x4000_d1_w32 : S400x4000.Iotas .tc 32 [1]
  reduces_S400x4000_S400 : S400x4000.Reduces [1] S400
  shapeCasts_S400_S400x1 : S400.ShapeCasts S400x1
  reduces_S400x1_S1 : S400x1.Reduces [0] S1
  shapeCasts_S1_S1x1 : S1.ShapeCasts S1x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  bcast_S_S1024x1 : S_.BroadcastsInDim S1024x1 (![] : Fin 0 → Fin S1024x1.rank)
  concatenates_S1024x1000_S1024x1_S1024x1001_d1 : Shape.Concatenates [S1024x1000, S1024x1] S1024x1001 1
  dot_S256x1024_S1024x1024_S256x1024_1_1_0_0_n_n_wf : DotDims.WF S256x1024 S1024x1024 S256x1024 [1] [1] [0] [0] [] []
  dot_S400x1024_S4000x1024_S400x4000_1_1_0_0_n_n_wf : DotDims.WF S400x1024 S4000x1024 S400x4000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .bf16 = 32 ∨ (Rect.block (s := S1024x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1024x1.size a
  hwx0_1 : ∀ i : grid0.Coords, EltTy.bits .f32 = 32 ∨ (Rect.block (s := S1024x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x1024x1024.size a
  hwx0_2 : ∀ i : grid0.Coords, EltTy.bits .bf16 = 32 ∨ (Rect.block (s := S4x1024x1024) S4x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x1024.size a
  hwx0_4 : ∀ i : grid0.Coords, EltTy.bits .f32 = 32 ∨ (Rect.block (s := S1024x1024) S256x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1024.size a ≤ S4000x1024.size a
  hwx1_0 : ∀ i : grid1.Coords, EltTy.bits .bf16 = 32 ∨ (Rect.block (s := S4000x1024) S400x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x1.size a ≤ S4000x1.size a
  hwx1_1 : ∀ i : grid1.Coords, EltTy.bits .f32 = 32 ∨ (Rect.block (s := S4000x1) S400x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4000x1024.size a ≤ S4000x1024.size a
  hwx1_2 : ∀ i : grid1.Coords, EltTy.bits .bf16 = 32 ∨ (Rect.block (s := S4000x1024) S4000x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4000.size a ≤ S1x4000.size a
  hwx1_3 : ∀ i : grid1.Coords, EltTy.bits .f32 = 32 ∨ (Rect.block (s := S1x4000) S1x4000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S16x128.size a
  hwx1_4 : ∀ i : grid1.Coords, EltTy.bits .f32 = 32 ∨ (Rect.block (s := S16x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S16x128.size a
  hwx1_5 : ∀ i : grid1.Coords, EltTy.bits .f32 = 32 ∨ (Rect.block (s := S16x128) S8x128.size (cc1_transform_5 i) (hinb1_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S400x1024_S4000x1024_S400x4000_1_1_0_0_n_n : DotDims S400x1024 S4000x1024 S400x4000 where
  lhsContracting := [1]
  rhsContracting := [1]
  lhsNonContracting := [0]
  rhsNonContracting := [0]
  lhsBatch := []
  rhsBatch := []
  wf := dot_S400x1024_S4000x1024_S400x4000_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S400x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4000x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x4000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024x1024 : Shape := ⟨2, ![1024, 1024]⟩
abbrev S1000x4x1024 : Shape := ⟨3, ![1000, 4, 1024]⟩
abbrev S4000x1024 : Shape := ⟨2, ![4000, 1024]⟩
abbrev S_ : Shape := ⟨0, ![]⟩
abbrev S1024 : Shape := ⟨1, ![1024]⟩
abbrev S1024x1 : Shape := ⟨2, ![1024, 1]⟩
abbrev S4000 : Shape := ⟨1, ![4000]⟩
abbrev S1024x4000 : Shape := ⟨2, ![1024, 4000]⟩
abbrev S1x4000 : Shape := ⟨2, ![1, 4000]⟩
abbrev S1024x1000x4 : Shape := ⟨3, ![1024, 1000, 4]⟩
abbrev S1024x1000 : Shape := ⟨2, ![1024, 1000]⟩
abbrev S4000x4000 : Shape := ⟨2, ![4000, 4000]⟩
abbrev S4000x1 : Shape := ⟨2, ![4000, 1]⟩
abbrev S1024x1001 : Shape := ⟨2, ![1024, 1001]⟩

abbrev nBuf : Space → Nat
  | .hbm => 79
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1000x4x1024, .f32⟩
  | .hbm, ⟨2, _⟩ => ⟨S4000x1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S4000x1024, .f32⟩
  | .hbm, ⟨8, _⟩ => ⟨S_, .f32⟩
  | .hbm, ⟨9, _⟩ => ⟨S4000, .f32⟩
  | .hbm, ⟨10, _⟩ => ⟨S1024x4000, .f32⟩
  | .hbm, ⟨11, _⟩ => ⟨S1024x4000, .f32⟩
  | .hbm, ⟨12, _⟩ => ⟨S1x4000, .f32⟩
  | .hbm, ⟨13, _⟩ => ⟨S1024x4000, .f32⟩
  | .hbm, ⟨14, _⟩ => ⟨S1024x4000, .f32⟩
  | .hbm, ⟨15, _⟩ => ⟨S1024x4000, .f32⟩
  | .hbm, ⟨16, _⟩ => ⟨S_, .f32⟩
  | .hbm, ⟨17, _⟩ => ⟨S1024x4000, .f32⟩
  | .hbm, ⟨18, _⟩ => ⟨S1024x4000, .f32⟩
  | .hbm, ⟨19, _⟩ => ⟨S1024x4000, .f32⟩
  | .hbm, ⟨20, _⟩ => ⟨S_, .f32⟩
  | .hbm, ⟨21, _⟩ => ⟨S1024x4000, .f32⟩
  | .hbm, ⟨22, _⟩ => ⟨S1024x4000, .f32⟩
  | .hbm, ⟨23, _⟩ => ⟨S1024x4000, .f32⟩
  | .hbm, ⟨24, _⟩ => ⟨S_, .f32⟩
  | .hbm, ⟨25, _⟩ => ⟨S1024x4000, .f32⟩
  | .hbm, ⟨26, _⟩ => ⟨S1024x4000, .f32⟩
  | .hbm, ⟨27, _⟩ => ⟨S1024x4000, .f32⟩
  | .hbm, ⟨28, _⟩ => ⟨S1024x1000x4, .f32⟩
  | .hbm, ⟨29, _⟩ => ⟨S_, .f32⟩
  | .hbm, ⟨30, _⟩ => ⟨S1024x1000, .f32⟩
  | .hbm, ⟨31, _⟩ => ⟨S1024x4000, .f32⟩
  | .hbm, ⟨32, _⟩ => ⟨S4000x4000, .f32⟩
  | .hbm, ⟨33, _⟩ => ⟨S4000x1, .f32⟩
  | .hbm, ⟨34, _⟩ => ⟨S1x4000, .f32⟩
  | .hbm, ⟨35, _⟩ => ⟨S4000x4000, .f32⟩
  | .hbm, ⟨36, _⟩ => ⟨S4000x4000, .f32⟩
  | .hbm, ⟨37, _⟩ => ⟨S4000x4000, .f32⟩
  | .hbm, ⟨38, _⟩ => ⟨S_, .f32⟩
  | .hbm, ⟨39, _⟩ => ⟨S4000x4000, .f32⟩
  | .hbm, ⟨40, _⟩ => ⟨S4000x4000, .f32⟩
  | .hbm, ⟨41, _⟩ => ⟨S4000x4000, .f32⟩
  | .hbm, ⟨42, _⟩ => ⟨S_, .f32⟩
  | .hbm, ⟨43, _⟩ => ⟨S4000x4000, .f32⟩
  | .hbm, ⟨44, _⟩ => ⟨S4000x4000, .f32⟩
  | .hbm, ⟨45, _⟩ => ⟨S4000x4000, .i32⟩
  | .hbm, ⟨46, _⟩ => ⟨S_, .i32⟩
  | .hbm, ⟨47, _⟩ => ⟨S4000x4000, .i32⟩
  | .hbm, ⟨48, _⟩ => ⟨S4000x4000, .i32⟩
  | .hbm, ⟨49, _⟩ => ⟨S4000x4000, .i32⟩
  | .hbm, ⟨50, _⟩ => ⟨S4000x4000, .i1⟩
  | .hbm, ⟨51, _⟩ => ⟨S_, .f32⟩
  | .hbm, ⟨52, _⟩ => ⟨S4000x4000, .f32⟩
  | .hbm, ⟨53, _⟩ => ⟨S4000x4000, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4000x4000, .f32⟩
  | .hbm, ⟨59, _⟩ => ⟨S4000x4000, .f32⟩
  | .hbm, ⟨60, _⟩ => ⟨S4000x4000, .f32⟩
  | .hbm, ⟨61, _⟩ => ⟨S4000x4000, .i32⟩
  | .hbm, ⟨62, _⟩ => ⟨S_, .i32⟩
  | .hbm, ⟨63, _⟩ => ⟨S4000x4000, .i32⟩
  | .hbm, ⟨64, _⟩ => ⟨S4000x4000, .i32⟩
  | .hbm, ⟨65, _⟩ => ⟨S4000x4000, .i32⟩
  | .hbm, ⟨66, _⟩ => ⟨S4000x4000, .i1⟩
  | .hbm, ⟨67, _⟩ => ⟨S_, .f32⟩
  | .hbm, ⟨68, _⟩ => ⟨S4000x4000, .f32⟩
  | .hbm, ⟨69, _⟩ => ⟨S4000x4000, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1024x1, .f32⟩
  | .hbm, ⟨76, _⟩ => ⟨S1024x1, .f32⟩
  | .hbm, ⟨77, _⟩ => ⟨S1024x1, .f32⟩
  | .hbm, ⟨78, _⟩ => ⟨S1024x1001, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_cst : Ref sig .tc := ⟨.hbm, 51, rfl⟩
abbrev main_call0_v5 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_cst : Ref sig .tc := ⟨.hbm, 67, rfl⟩
abbrev main_call1_v5 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  shapeCasts_S1000x4x1024_S4000x1024 : S1000x4x1024.ShapeCasts S4000x1024
  reducesTo_S1024x1024_S1024_d1 : S1024x1024.ReducesTo [1] S1024
  h_S_ : 0 < S_.numel
  bcast_S1024_S1024x1_0 : S1024.BroadcastsInDim S1024x1 (![0] : Fin 1 → Fin S1024x1.rank)
  reducesTo_S4000x1024_S4000_d1 : S4000x1024.ReducesTo [1] S4000
  transposes_S4000x1024_S1024x4000_1_0 : S4000x1024.Transposes [1, 0] S1024x4000
  bcast_S4000_S1x4000_1 : S4000.BroadcastsInDim S1x4000 (![1] : Fin 1 → Fin S1x4000.rank)
  bcast_S1024x1_S1024x4000_0_1 : S1024x1.BroadcastsInDim S1024x4000 (![0, 1] : Fin 2 → Fin S1024x4000.rank)
  bcast_S1x4000_S1024x4000_0_1 : S1x4000.BroadcastsInDim S1024x4000 (![0, 1] : Fin 2 → Fin S1024x4000.rank)
  bcast_S_S1024x4000 : S_.BroadcastsInDim S1024x4000 (![] : Fin 0 → Fin S1024x4000.rank)
  shapeCasts_S1024x4000_S1024x1000x4 : S1024x4000.ShapeCasts S1024x1000x4
  reducesTo_S1024x1000x4_S1024x1000_d2 : S1024x1000x4.ReducesTo [2] S1024x1000
  bcast_S4000_S4000x1_0 : S4000.BroadcastsInDim S4000x1 (![0] : Fin 1 → Fin S4000x1.rank)
  bcast_S4000x1_S4000x4000_0_1 : S4000x1.BroadcastsInDim S4000x4000 (![0, 1] : Fin 2 → Fin S4000x4000.rank)
  bcast_S1x4000_S4000x4000_0_1 : S1x4000.BroadcastsInDim S4000x4000 (![0, 1] : Fin 2 → Fin S4000x4000.rank)
  bcast_S_S4000x4000 : S_.BroadcastsInDim S4000x4000 (![] : Fin 0 → Fin S4000x4000.rank)
  reducesTo_S4000x4000_S_d0_1 : S4000x4000.ReducesTo [0, 1] S_
  bcast_S_S1024x1 : S_.BroadcastsInDim S1024x1 (![] : Fin 0 → Fin S1024x1.rank)
  concatenates_S1024x1000_S1024x1_S1024x1001_d1 : Shape.Concatenates [S1024x1000, S1024x1] S1024x1001 1
  dot_S1024x1024_S1024x4000_S1024x4000_1_0_0_1_n_n_wf : DotDims.WF S1024x1024 S1024x4000 S1024x4000 [1] [0] [0] [1] [] []
  dot_S4000x1024_S1024x4000_S4000x4000_1_0_0_1_n_n_wf : DotDims.WF S4000x1024 S1024x4000 S4000x4000 [1] [0] [0] [1] [] []

variable [Facts₀]

def dot_S1024x1024_S1024x4000_S1024x4000_1_0_0_1_n_n : DotDims S1024x1024 S1024x4000 S1024x4000 where
  lhsContracting := [1]
  rhsContracting := [0]
  lhsNonContracting := [0]
  rhsNonContracting := [1]
  lhsBatch := []
  rhsBatch := []
  wf := dot_S1024x1024_S1024x4000_S1024x4000_1_0_0_1_n_n_wf
def dot_S4000x1024_S1024x4000_S4000x4000_1_0_0_1_n_n : DotDims S4000x1024 S1024x4000 S4000x4000 where
  lhsContracting := [1]
  rhsContracting := [0]
  lhsNonContracting := [0]
  rhsNonContracting := [1]
  lhsBatch := []
  rhsBatch := []
  wf := dot_S4000x1024_S1024x4000_S4000x4000_1_0_0_1_n_n_wf

class Facts : Prop extends Facts₀ where

variable [Facts]
-- ==== Proof.K.R0.lean ====
import proofs.«411617_j1520418423399_3_alg».proof.Proof.Gen.Kernel.Launch
import proofs.«411617_j1520418423399_3_alg».proof.Proof.Gen.Kernel.Skeleton
import proofs.«411617_j1520418423399_3_alg».proof.Proof.Gen.Kernel.Points
import Idealize.ShloMosaic.Lib.Pipeline.FrameBody
import Idealize.ShloMosaic.Lib.Tactic

-- membership of an index in a rectangle of these extents is looked up once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the distance kernel (pipeline 0), at the entry contents `V`

Per grid point the body reads a block of 256 feature rows (window 0) and their squared norms (window 1), the four
slabs of padded centers (window 2) and of their squared norms (window 3), both resident for the whole grid, and
writes the block's 256 × 1024 affinities (window 4): the maximum over the four slabs of
`exp (-(max (‖f‖² + ‖w‖² - 2 f·w) 0) / 10)`. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: literal rectangles -/

/-- The whole 256 × 1024 block: the feature rows' load, and the result's load and store. -/
abbrev rRows : Rect S256x1024 := Rect.unit (s := S256x1024) ![0, 0] S256x1024.size inb_S256x1024_S256x1024_0_0
/-- The whole 256 × 1 column of the rows' squared norms. -/
abbrev rNorm : Rect S256x1 := Rect.unit (s := S256x1) ![0, 0] S256x1.size inb_S256x1_S256x1_0_0
/-- Slab `k` of the centers, 1 × 1024 × 1024, for `k = 0, 1, 2, 3`. -/
abbrev rSlab0 : Rect S4x1024x1024 := Rect.unit (s := S4x1024x1024) ![0, 0, 0] S1x1024x1024.size inb_S4x1024x1024_S1x1024x1024_0_0_0
abbrev rSlab1 : Rect S4x1024x1024 := Rect.unit (s := S4x1024x1024) ![1, 0, 0] S1x1024x1024.size inb_S4x1024x1024_S1x1024x1024_1_0_0
abbrev rSlab2 : Rect S4x1024x1024 := Rect.unit (s := S4x1024x1024) ![2, 0, 0] S1x1024x1024.size inb_S4x1024x1024_S1x1024x1024_2_0_0
abbrev rSlab3 : Rect S4x1024x1024 := Rect.unit (s := S4x1024x1024) ![3, 0, 0] S1x1024x1024.size inb_S4x1024x1024_S1x1024x1024_3_0_0
/-- Row `k` of the centers' squared norms, 1 × 1024, for `k = 0, 1, 2, 3`. -/
abbrev rCsq0 : Rect S4x1024 := Rect.unit (s := S4x1024) ![0, 0] S1x1024.size inb_S4x1024_S1x1024_0_0
abbrev rCsq1 : Rect S4x1024 := Rect.unit (s := S4x1024) ![1, 0] S1x1024.size inb_S4x1024_S1x1024_1_0
abbrev rCsq2 : Rect S4x1024 := Rect.unit (s := S4x1024) ![2, 0] S1x1024.size inb_S4x1024_S1x1024_2_0
abbrev rCsq3 : Rect S4x1024 := Rect.unit (s := S4x1024) ![3, 0] S1x1024.size inb_S4x1024_S1x1024_3_0

/-! ## What the body leaves in the output window's buffer -/

/-- The stored vector as a function of the four input blocks: the running maximum over the slabs, slab 0 and 1 from
    the first half of the body, slab 2 folded into it and slab 3 in the second, the last maximum at the store. -/
def stored0 (x0 : Vec F S256x1024 .bf16) (x1 : Vec F S256x1 .f32) (x2 : Vec F S4x1024x1024 .bf16) (x3 : Vec F S4x1024 .f32) :
    FVec F S256x1024 .f32 :=
  k0_pay1
    (k0_pay6 (k0_pay2 (View.ld x0 rRows)) (k0_pay3 (View.ld x1 rNorm))
      (k0_pay4 (View.ld x0 rRows) (View.ld x1 rNorm) (View.ld x2 rSlab0) (View.ld x3 rCsq0))
      (k0_pay5 (View.ld x0 rRows) (View.ld x1 rNorm) (View.ld x2 rSlab1) (View.ld x3 rCsq1))
      (View.ld x2 rSlab2) (View.ld x3 rCsq2))
    (k0_pay7 (k0_pay2 (View.ld x0 rRows)) (k0_pay3 (View.ld x1 rNorm)) (View.ld x2 rSlab3) (View.ld x3 rCsq3))

/-- Window 4's staging buffer after the body, from the input windows' blocks: its one store, of the whole block. -/
def out0_4 (x0 : Vec F S256x1024 .bf16) (x1 : Vec F S256x1 .f32) (x2 : Vec F S4x1024x1024 .bf16) (x3 : Vec F S4x1024 .f32) :
    Vec F S256x1024 .f32 :=
  View.canon [⟨rRows, stored0 x0 x1 x2 x3⟩]

/-- The one store is of the whole block, so it covers the buffer. -/
theorem cover0_4 (p : Vec F S256x1024 .f32) (y : S256x1024.Idx) :
    ∃ pc ∈ ([⟨rRows, p⟩] : List (View.Piece (Elt F) S256x1024 .f32)), y ∈ pc.1.set :=
  View.cover_of_tiled [⟨rRows, p⟩] S256x1024.size (by rfl) y

/-! ## Each input's staging buffer holds its block -/

/-- An input window `w`'s current staging buffer holds its block at every point, fetched there or not, for any proof
    data whose array is `V`'s and whose body leaves the block in place: where the window is not fetched its block
    index has not moved (windows 2 and 3 are fetched at the first point only, their index constant), and the
    buffer still holds the previous point's block, which is this point's. No window is cut or idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  by
  have hkeep : ∀ t, (cfg0.win 0).cut (cfg0.grid.coords t) (dat.after 0 t) = dat.blockOf 0 t := by
    intro t; rw [hafter t]; unfold Dat.blockOf iblk0; rw [hA]
  rw [dat.before_in_eq_fetched 0 rfl (fun _ => rfl) (fun _ _ _ => rfl) hkeep t d]
  unfold Dat.fetched Dat.blockOf iblk0; rw [hA]; rfl
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  by
  have hkeep : ∀ t, (cfg0.win 1).cut (cfg0.grid.coords t) (dat.after 1 t) = dat.blockOf 1 t := by
    intro t; rw [hafter t]; unfold Dat.blockOf iblk0; rw [hA]
  rw [dat.before_in_eq_fetched 1 rfl (fun _ => rfl) (fun _ _ _ => rfl) hkeep t d]
  unfold Dat.fetched Dat.blockOf iblk0; rw [hA]; rfl
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  by
  have hkeep : ∀ t, (cfg0.win 2).cut (cfg0.grid.coords t) (dat.after 2 t) = dat.blockOf 2 t := by
    intro t; rw [hafter t]; unfold Dat.blockOf iblk0; rw [hA]
  rw [dat.before_in_eq_fetched 2 rfl (fun _ => rfl) (fun _ _ _ => rfl) hkeep t d]
  unfold Dat.fetched Dat.blockOf iblk0; rw [hA]; rfl
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  by
  have hkeep : ∀ t, (cfg0.win 3).cut (cfg0.grid.coords t) (dat.after 3 t) = dat.blockOf 3 t := by
    intro t; rw [hafter t]; unfold Dat.blockOf iblk0; rw [hA]
  rw [dat.before_in_eq_fetched 3 rfl (fun _ => rfl) (fun _ _ _ => rfl) hkeep t d]
  unfold Dat.fetched Dat.blockOf iblk0; rw [hA]; rfl

/-! ## The body's triple -/

set_option maxHeartbeats 1000000 in
/-- The kernel body on whole staging memrefs, the inputs' at read contents `x0 … x3` and the output's at anything,
    runs to the continuation holding the inputs' as they were and the output's at `out0_4` of the inputs': both
    halves of the body only load, the output buffer is then loaded whole (whatever it holds; the value is not used)
    and stored whole. -/
theorem sound_kernel0 (c : Dev nD) (E : Set ℕ) (i : grid0.Coords)
    (arg1 : Memref sig .tc .vmem S256x1024 .bf16) (harg1 : arg1.IsWhole) (arg2 : Memref sig .tc .vmem S256x1 .f32) (harg2 : arg2.IsWhole)
    (arg3 : Memref sig .tc .vmem S4x1024x1024 .bf16) (harg3 : arg3.IsWhole) (arg4 : Memref sig .tc .vmem S4x1024 .f32) (harg4 : arg4.IsWhole)
    (arg5 : Memref sig .tc .vmem S256x1024 .f32) (harg5 : arg5.IsWhole)
    (x0 : Vec F S256x1024 .bf16) (x1 : Vec F S256x1 .f32) (x2 : Vec F S4x1024x1024 .bf16) (x3 : Vec F S4x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__distance_kernel i arg1 harg1 arg2 harg2 arg3 harg3 arg4 harg4 arg5 harg5) K := by
  simp only [cc0__distance_kernel_eq_skeleton]; unfold cc0__distance_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and the output's at `out0_4` of the four input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's dues, and the five current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rewrite [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1's body obligation. The kernel runs on a grid of 2 × 5 points in row-major order. At each point it loads its
  four input blocks whole and computes two 1×1 partial sums from them and the point's coordinates; at the first of a
  core's five points (coordinate 1 equal to 0) it first fills both (8,128) output blocks with zeros; then it adds each
  partial sum, broadcast, to the output block it reads back. Each output block's index depends on the core alone, so the
  block stays in its staging buffer over the core's five points and is written back after the fifth.

  Hence what an output's staging buffer holds after the body at point n is a recursion on n: at n ≡ 0 (mod 5) the
  partial sum at n added to zeros, else the partial sum at n added to what the buffer held after n − 1. This module
  states that recursion (`acc1_4`, `acc1_5`) with its two case equations, the proof data built on it (`dat1`), what
  every window's staging buffer holds before the body at each point, the body's triple in each of the two cases, and
  from these the body obligation at every point.
-/
import proofs.«411617_j1520418423399_3_alg».proof.Proof.Gen.Kernel.Launch
import proofs.«411617_j1520418423399_3_alg».proof.Proof.Gen.Kernel.Skeleton
import proofs.«411617_j1520418423399_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first partial sum at point `t`: a function of the four input blocks there. -/
abbrev s1_4 (c : Dev nD) (t : Fin cfg1.N) : FVec F S1x1 .f32 :=
  k1_pay7 (grid1.coords t) (iblk1 V c 0 t) (iblk1 V c 2 t) (iblk1 V c 1 t) (iblk1 V c 3 t)

/-- The second partial sum at point `t`. -/
abbrev s1_5 (c : Dev nD) (t : Fin cfg1.N) : FVec F S1x1 .f32 :=
  k1_pay8 (grid1.coords t) (iblk1 V c 0 t) (iblk1 V c 2 t) (iblk1 V c 1 t) (iblk1 V c 3 t)

/-- What output window 4's staging buffer holds after the body at point `n`. -/
def acc1_4 (c : Dev nD) : (n : ℕ) → (h : n < cfg1.N) → Vec F S8x128 .f32
  | 0, h => k1_pay3 (s1_4 V c ⟨0, h⟩) (k1_pay1 (F := F))
  | n + 1, h =>
    if (n + 1) % 5 = 0 then k1_pay3 (s1_4 V c ⟨n + 1, h⟩) (k1_pay1 (F := F))
    else k1_pay3 (s1_4 V c ⟨n + 1, h⟩) (acc1_4 c n (Nat.lt_of_succ_lt h))

/-- What output window 5's staging buffer holds after the body at point `n`. -/
def acc1_5 (c : Dev nD) : (n : ℕ) → (h : n < cfg1.N) → Vec F S8x128 .f32
  | 0, h => k1_pay4 (s1_5 V c ⟨0, h⟩) (k1_pay2 (F := F))
  | n + 1, h =>
    if (n + 1) % 5 = 0 then k1_pay4 (s1_5 V c ⟨n + 1, h⟩) (k1_pay2 (F := F))
    else k1_pay4 (s1_5 V c ⟨n + 1, h⟩) (acc1_5 c n (Nat.lt_of_succ_lt h))

/-- At the first point of a core's five the first output holds the point's partial sum added to zeros. -/
theorem acc1_4_reset (c : Dev nD) (n : ℕ) (h : n < cfg1.N) (h0 : n % 5 = 0) :
    acc1_4 V c n h = k1_pay3 (k1_pay7 (grid1.coords ⟨n, h⟩) (iblk1 V c 0 ⟨n, h⟩) (iblk1 V c 2 ⟨n, h⟩) (iblk1 V c 1 ⟨n, h⟩) (iblk1 V c 3 ⟨n, h⟩)) (k1_pay1 (F := F)) := by
  cases n with
  | zero => rfl
  | succ n => exact (if_pos h0).trans rfl

/-- At a later point it holds the point's partial sum added to what the point before left. -/
theorem acc1_4_step (c : Dev nD) (n : ℕ) (h : n < cfg1.N) (h0 : n % 5 ≠ 0) :
    acc1_4 V c n h = k1_pay3 (k1_pay7 (grid1.coords ⟨n, h⟩) (iblk1 V c 0 ⟨n, h⟩) (iblk1 V c 2 ⟨n, h⟩) (iblk1 V c 1 ⟨n, h⟩) (iblk1 V c 3 ⟨n, h⟩)) (acc1_4 V c (n - 1) (by omega)) := by
  cases n with
  | zero => exact absurd (Nat.zero_mod _) h0
  | succ n => exact (if_neg h0).trans rfl

/-- The same two equations for the second output. -/
theorem acc1_5_reset (c : Dev nD) (n : ℕ) (h : n < cfg1.N) (h0 : n % 5 = 0) :
    acc1_5 V c n h = k1_pay4 (k1_pay8 (grid1.coords ⟨n, h⟩) (iblk1 V c 0 ⟨n, h⟩) (iblk1 V c 2 ⟨n, h⟩) (iblk1 V c 1 ⟨n, h⟩) (iblk1 V c 3 ⟨n, h⟩)) (k1_pay2 (F := F)) := by
  cases n with
  | zero => rfl
  | succ n => exact (if_pos h0).trans rfl

theorem acc1_5_step (c : Dev nD) (n : ℕ) (h : n < cfg1.N) (h0 : n % 5 ≠ 0) :
    acc1_5 V c n h = k1_pay4 (k1_pay8 (grid1.coords ⟨n, h⟩) (iblk1 V c 0 ⟨n, h⟩) (iblk1 V c 2 ⟨n, h⟩) (iblk1 V c 1 ⟨n, h⟩) (iblk1 V c 3 ⟨n, h⟩)) (acc1_5 V c (n - 1) (by omega)) := by
  cases n with
  | zero => exact absurd (Nat.zero_mod _) h0
  | succ n => exact (if_neg h0).trans rfl

/-! ## The pipeline's proof data -/

/-- The proof data of pipeline 1 on core `c`: the arrays as the region finds them (`V`); after the body at point `t` each
    input's buffer at its block and each output's at its running sum; the class's invariant (the scoped rest and the
    generator register, untouched); nothing owed; the two windows on the one shared array at the shares `q0`, `q2`, every
    other window's array at the full share. -/
def dat1 (c : Dev nD) (q0 q2 : PosShare TreeShare) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1_4 V c t.val t.isLt
    | ⟨5, _⟩ => acc1_5 V c t.val t.isLt
  Φ _ := Pipeline.ΦA spec1 c
  q := fun w => match w with
    | ⟨0, _⟩ => q0
    | ⟨1, _⟩ => fullShare
    | ⟨2, _⟩ => q2
    | ⟨3, _⟩ => fullShare
    | ⟨4, _⟩ => fullShare
    | ⟨5, _⟩ => fullShare
  owed _ := 0

/-- The proof data's arrays are the region-entry contents. -/
theorem A_eq1 (c : Dev nD) (q0 q2 : PosShare TreeShare) (w : Fin cfg1.W) : (dat1 V c q0 q2).A w = V c (Pipeline.arrRef spec1 w) := by
  dsimp only [dat1]

/-- What the body leaves, window by window. -/
theorem after1_0 (c : Dev nD) (q0 q2 : PosShare TreeShare) (t : Fin cfg1.N) : (dat1 V c q0 q2).after 0 t = iblk1 V c 0 t := by dsimp only [dat1]
theorem after1_1 (c : Dev nD) (q0 q2 : PosShare TreeShare) (t : Fin cfg1.N) : (dat1 V c q0 q2).after 1 t = iblk1 V c 1 t := by dsimp only [dat1]
theorem after1_2 (c : Dev nD) (q0 q2 : PosShare TreeShare) (t : Fin cfg1.N) : (dat1 V c q0 q2).after 2 t = iblk1 V c 2 t := by dsimp only [dat1]
theorem after1_3 (c : Dev nD) (q0 q2 : PosShare TreeShare) (t : Fin cfg1.N) : (dat1 V c q0 q2).after 3 t = iblk1 V c 3 t := by dsimp only [dat1]
theorem after1_4 (c : Dev nD) (q0 q2 : PosShare TreeShare) (t : Fin cfg1.N) : (dat1 V c q0 q2).after 4 t = acc1_4 V c t.val t.isLt := by dsimp only [dat1]
theorem after1_5 (c : Dev nD) (q0 q2 : PosShare TreeShare) (t : Fin cfg1.N) : (dat1 V c q0 q2).after 5 t = acc1_5 V c t.val t.isLt := by dsimp only [dat1]

/-- Each input's current staging buffer holds its block at every point, fetched there or not: where it is not fetched
    its block index has not moved since the point before, and the body left the block in place. -/
theorem before1_0 (c : Dev nD) (q0 q2 : PosShare TreeShare) (t : Fin cfg1.N) (d) : (dat1 V c q0 q2).before 0 t d = iblk1 V c 0 t :=
  ((dat1 V c q0 q2).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (q0 q2 : PosShare TreeShare) (t : Fin cfg1.N) (d) : (dat1 V c q0 q2).before 1 t d = iblk1 V c 1 t :=
  ((dat1 V c q0 q2).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (q0 q2 : PosShare TreeShare) (t : Fin cfg1.N) (d) : (dat1 V c q0 q2).before 2 t d = iblk1 V c 2 t :=
  ((dat1 V c q0 q2).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (q0 q2 : PosShare TreeShare) (t : Fin cfg1.N) (d) : (dat1 V c q0 q2).before 3 t d = iblk1 V c 3 t :=
  ((dat1 V c q0 q2).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- An output's staging buffer at the first point of a core's five holds anything: it is the first point of all, or
    the block was written back at the point before (the block index moves with the core). -/
theorem before1_4_reset (c : Dev nD) (q0 q2 : PosShare TreeShare) (t : Fin cfg1.N) (h0 : t.val % 5 = 0) (d) :
    (dat1 V c q0 q2).before 4 t d = d := by
  have hN : t.val < 10 := lt_of_lt_of_eq t.isLt (show cfg1.N = 10 from N_1)
  refine Dat.before_out_reset _ 4 rfl t ?_ d
  by_cases ht : t.val = 0
  · exact .inl ht
  · exact .inr ⟨ht, (flush1_4 _).mpr (by dsimp only; omega)⟩
/-- At a later point of the five it holds what the body left at the point before: no write-back between. -/
theorem before1_4_kept (c : Dev nD) (q0 q2 : PosShare TreeShare) (t : Fin cfg1.N) (h0 : t.val % 5 ≠ 0) (d) :
    (dat1 V c q0 q2).before 4 t d = acc1_4 V c (t.val - 1) (Nat.lt_of_le_of_lt (Nat.sub_le _ _) t.isLt) := by
  have hN : t.val < 10 := lt_of_lt_of_eq t.isLt (show cfg1.N = 10 from N_1)
  rw [Dat.before_out_kept _ 4 rfl t (by omega)
    (Bool.eq_false_iff.mpr fun h => by have := (flush1_4 _).mp h; dsimp only at this; omega)
    (fun _ => rfl) (fun _ _ => rfl)]
  dsimp only [dat1]
/-- The same two facts for the second output. -/
theorem before1_5_reset (c : Dev nD) (q0 q2 : PosShare TreeShare) (t : Fin cfg1.N) (h0 : t.val % 5 = 0) (d) :
    (dat1 V c q0 q2).before 5 t d = d := by
  have hN : t.val < 10 := lt_of_lt_of_eq t.isLt (show cfg1.N = 10 from N_1)
  refine Dat.before_out_reset _ 5 rfl t ?_ d
  by_cases ht : t.val = 0
  · exact .inl ht
  · exact .inr ⟨ht, (flush1_5 _).mpr (by dsimp only; omega)⟩
theorem before1_5_kept (c : Dev nD) (q0 q2 : PosShare TreeShare) (t : Fin cfg1.N) (h0 : t.val % 5 ≠ 0) (d) :
    (dat1 V c q0 q2).before 5 t d = acc1_5 V c (t.val - 1) (Nat.lt_of_le_of_lt (Nat.sub_le _ _) t.isLt) := by
  have hN : t.val < 10 := lt_of_lt_of_eq t.isLt (show cfg1.N = 10 from N_1)
  rw [Dat.before_out_kept _ 5 rfl t (by omega)
    (Bool.eq_false_iff.mpr fun h => by have := (flush1_5 _).mp h; dsimp only at this; omega)
    (fun _ => rfl) (fun _ _ => rfl)]
  dsimp only [dat1]

/-- Output window 4's staging buffer before the body, in one statement: anything at the first point of a core's five
    (the first point of all, or the point after a write-back), else what the body left at the point before. -/
theorem before1_4 (c : Dev nD) (q0 q2 : PosShare TreeShare) (t : Fin cfg1.N) (d) :
    (dat1 V c q0 q2).before 4 t d
      = if t.val % 5 = 0 then d else acc1_4 V c (t.val - 1) (Nat.lt_of_le_of_lt (Nat.sub_le _ _) t.isLt) := by
  by_cases h0 : t.val % 5 = 0
  · rw [if_pos h0]; exact before1_4_reset V c q0 q2 t h0 d
  · rw [if_neg h0]; exact before1_4_kept V c q0 q2 t h0 d

/-- Output window 5's staging buffer before the body, in one statement: anything at the first point of a core's five
    (the first point of all, or the point after a write-back), else what the body left at the point before. -/
theorem before1_5 (c : Dev nD) (q0 q2 : PosShare TreeShare) (t : Fin cfg1.N) (d) :
    (dat1 V c q0 q2).before 5 t d
      = if t.val % 5 = 0 then d else acc1_5 V c (t.val - 1) (Nat.lt_of_le_of_lt (Nat.sub_le _ _) t.isLt) := by
  by_cases h0 : t.val % 5 = 0
  · rw [if_pos h0]; exact before1_5_reset V c q0 q2 t h0 d
  · rw [if_neg h0]; exact before1_5_kept V c q0 q2 t h0 d

/-! ## The body's branch condition -/

/-- The condition of the body's conditional, as a chain over the grid coordinates. -/
abbrev cond1 (i : grid1.Coords) : Prop :=
  (Scalar.cmpi .ne (Scalar.extui (Scalar.cmpi .eq (BitVec.ofNat 32 (i 1).val) 0#32)) 0#32) = 1#1

/-- It holds exactly at the first point of each core's five. -/
theorem hcond1 : ∀ t : Fin cfg1.N, cond1 (grid1.coords t) ↔ t.val % 5 = 0 :=
  (by decide +kernel : ∀ t : Fin grid1.N, cond1 (grid1.coords t) ↔ t.val % 5 = 0)

/-- The zero offsets of a rank-2 whole-buffer rectangle. -/
theorem zoff1 : (![0, 0] : Fin 2 → ℕ) = fun _ => 0 := by
  funext a; match a with
  | ⟨0, _⟩ => rfl
  | ⟨1, _⟩ => rfl

/-! ## The body's triple, case by case -/

set_option maxHeartbeats 1000000 in
/-- At a point where the condition holds: both outputs are zeroed, then each is read back and the point's partial sum
    added; the outputs' buffers may hold anything before. -/
theorem sound_kernel1_reset (c : Dev nD) (E : Set ℕ) (i : grid1.Coords)
    (a0 : Memref sig .tc .vmem S400x1024 .bf16) (h0 : a0.IsWhole) (a1 : Memref sig .tc .vmem S400x1 .f32) (h1 : a1.IsWhole)
    (a2 : Memref sig .tc .vmem S4000x1024 .bf16) (h2 : a2.IsWhole) (a3 : Memref sig .tc .vmem S1x4000 .f32) (h3 : a3.IsWhole)
    (a4 : Memref sig .tc .vmem S8x128 .f32) (h4 : a4.IsWhole) (a5 : Memref sig .tc .vmem S8x128 .f32) (h5 : a5.IsWhole)
    (hc : cond1 i)
    (x0 : Vec F S400x1024 .bf16) (x1 : Vec F S400x1 .f32) (x2 : Vec F S4000x1024 .bf16) (x3 : Vec F S1x4000 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k1_pay3 (k1_pay7 i x0 x2 x1 x3) (k1_pay1 (F := F)))
            ∗ owns (c : Thread nD τ) a5 fullShare (k1_pay4 (k1_pay8 i x0 x2 x1 x3) (k1_pay2 (F := F)))) -∗ K ⟨⟩))
      ⊢ wp frame (wpE (defs₀ (F := F)) Variants.none c none) E (cc1__reg_kernel i a0 h0 a1 h1 a2 h2 a3 h3 a4 h4 a5 h5) K := by
  simp only [cc1__reg_kernel_eq_skeleton]; unfold cc1__reg_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (fun y => ⟨_, List.Mem.head _, View.mem_set_unit_zero (S := S8x128) zoff1 inb_S8x128_S8x128_0_0 y⟩)).trans ?_
    rw [View.canon_cons_unit_zero (S := S8x128) zoff1]
    sl_unfold_run_names
    rw [View.readCov_unit_zero (S := S8x128) _ zoff1]
    simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]
  iexists _; isplitr
  swap; · iexact H5
  ipureintro
  refine (View.read_writes_eq_canon _ _ _ (fun y => ⟨_, List.Mem.head _, View.mem_set_unit_zero (S := S8x128) zoff1 inb_S8x128_S8x128_0_0 y⟩)).trans ?_
  rw [View.canon_cons_unit_zero (S := S8x128) zoff1]
  sl_unfold_run_names
  rw [View.readCov_unit_zero (S := S8x128) _ zoff1]
  simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]

set_option maxHeartbeats 1000000 in
/-- At a point where the condition fails: each output is read back as the point before left it (`y4`, `y5`) and the
    point's partial sum added. -/
theorem sound_kernel1_step (c : Dev nD) (E : Set ℕ) (i : grid1.Coords)
    (a0 : Memref sig .tc .vmem S400x1024 .bf16) (h0 : a0.IsWhole) (a1 : Memref sig .tc .vmem S400x1 .f32) (h1 : a1.IsWhole)
    (a2 : Memref sig .tc .vmem S4000x1024 .bf16) (h2 : a2.IsWhole) (a3 : Memref sig .tc .vmem S1x4000 .f32) (h3 : a3.IsWhole)
    (a4 : Memref sig .tc .vmem S8x128 .f32) (h4 : a4.IsWhole) (a5 : Memref sig .tc .vmem S8x128 .f32) (h5 : a5.IsWhole)
    (hc : ¬cond1 i)
    (x0 : Vec F S400x1024 .bf16) (x1 : Vec F S400x1 .f32) (x2 : Vec F S4000x1024 .bf16) (x3 : Vec F S1x4000 .f32)
    (y4 y5 : Vec F S8x128 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare y4 ∗ owns (c : Thread nD τ) a5 fullShare y5
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k1_pay3 (k1_pay7 i x0 x2 x1 x3) y4)
            ∗ owns (c : Thread nD τ) a5 fullShare (k1_pay4 (k1_pay8 i x0 x2 x1 x3) y5)) -∗ K ⟨⟩))
      ⊢ wp frame (wpE (defs₀ (F := F)) Variants.none c none) E (cc1__reg_kernel i a0 h0 a1 h1 a2 h2 a3 h3 a4 h4 a5 h5) K := by
  simp only [cc1__reg_kernel_eq_skeleton]; unfold cc1__reg_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (fun y => ⟨_, List.Mem.head _, View.mem_set_unit_zero (S := S8x128) zoff1 inb_S8x128_S8x128_0_0 y⟩)).trans ?_
    rw [View.canon_cons_unit_zero (S := S8x128) zoff1]
    sl_unfold_run_names
    simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]
  iexists _; isplitr
  swap; · iexact H5
  ipureintro
  refine (View.read_writes_eq_canon _ _ _ (fun y => ⟨_, List.Mem.head _, View.mem_set_unit_zero (S := S8x128) zoff1 inb_S8x128_S8x128_0_0 y⟩)).trans ?_
  rw [View.canon_cons_unit_zero (S := S8x128) zoff1]
  sl_unfold_run_names
  simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]

/-! ## The partial sums at a point of the grid -/

theorem acc1_4_at_reset (c : Dev nD) (t : Fin cfg1.N) (h0 : t.val % 5 = 0) :
    acc1_4 V c t.val t.isLt = k1_pay3 (s1_4 V c t) (k1_pay1 (F := F)) := acc1_4_reset V c t.val t.isLt h0
theorem acc1_5_at_reset (c : Dev nD) (t : Fin cfg1.N) (h0 : t.val % 5 = 0) :
    acc1_5 V c t.val t.isLt = k1_pay4 (s1_5 V c t) (k1_pay2 (F := F)) := acc1_5_reset V c t.val t.isLt h0
theorem acc1_4_at_step (c : Dev nD) (t : Fin cfg1.N) (h0 : t.val % 5 ≠ 0) :
    acc1_4 V c t.val t.isLt = k1_pay3 (s1_4 V c t) (acc1_4 V c (t.val - 1) (Nat.lt_of_le_of_lt (Nat.sub_le _ _) t.isLt)) :=
  acc1_4_step V c t.val t.isLt h0
theorem acc1_5_at_step (c : Dev nD) (t : Fin cfg1.N) (h0 : t.val % 5 ≠ 0) :
    acc1_5 V c t.val t.isLt = k1_pay4 (s1_5 V c t) (acc1_5 V c (t.val - 1) (Nat.lt_of_le_of_lt (Nat.sub_le _ _) t.isLt)) :=
  acc1_5_step V c t.val t.isLt h0

/-! ## The body obligation, at a generic point -/

/-- What the body is called with at point `t`, the windows one by one, -/
def bodyPre1 (c : Dev nD) (q0 q2 : PosShare TreeShare) (t : Fin cfg1.N) : sProp 𝕄 :=
  iprop((dat1 V c q0 q2).Φ t.castSucc ∗ (dat1 V c q0 q2).owesAt () t.castSucc
    ∗ (∃ d, owns (c : Thread nD τ) (st1_0 t) fullShare ((dat1 V c q0 q2).before 0 t d))
    ∗ (∃ d, owns (c : Thread nD τ) (st1_1 t) fullShare ((dat1 V c q0 q2).before 1 t d))
    ∗ (∃ d, owns (c : Thread nD τ) (st1_2 t) fullShare ((dat1 V c q0 q2).before 2 t d))
    ∗ (∃ d, owns (c : Thread nD τ) (st1_3 t) fullShare ((dat1 V c q0 q2).before 3 t d))
    ∗ (∃ d, owns (c : Thread nD τ) (st1_4 t) fullShare ((dat1 V c q0 q2).before 4 t d))
    ∗ (∃ d, owns (c : Thread nD τ) (st1_5 t) fullShare ((dat1 V c q0 q2).before 5 t d)))

/-- and what it returns. -/
def bodyPost1 (c : Dev nD) (q0 q2 : PosShare TreeShare) (t : Fin cfg1.N) : sProp 𝕄 :=
  iprop((dat1 V c q0 q2).Φ t.succ ∗ (dat1 V c q0 q2).owesAt () t.succ
    ∗ owns (c : Thread nD τ) (st1_0 t) fullShare ((dat1 V c q0 q2).after 0 t)
    ∗ owns (c : Thread nD τ) (st1_1 t) fullShare ((dat1 V c q0 q2).after 1 t)
    ∗ owns (c : Thread nD τ) (st1_2 t) fullShare ((dat1 V c q0 q2).after 2 t)
    ∗ owns (c : Thread nD τ) (st1_3 t) fullShare ((dat1 V c q0 q2).after 3 t)
    ∗ owns (c : Thread nD τ) (st1_4 t) fullShare ((dat1 V c q0 q2).after 4 t)
    ∗ owns (c : Thread nD τ) (st1_5 t) fullShare ((dat1 V c q0 q2).after 5 t))

set_option maxHeartbeats 800000 in
/-- The body at any point: the inputs' buffers hold their blocks; the closed form of the condition says which case the
    point is in; where the condition fails each output's buffer holds what the point before left; the invariant and the
    core's dues pass through unread. -/
theorem sound_body1 (c : Dev nD) (q0 q2 : PosShare TreeShare) (t : Fin cfg1.N) :
    bodyPre1 V c q0 q2 t ⊢ wp frame (wpE (defs₀ (F := F)) Variants.none c none) Set.univ (bodyAt1 t) (fun _ => bodyPost1 V c q0 q2 t) := by
  unfold bodyPre1 bodyPost1 bodyAt1
  simp only [before1_0, before1_1, before1_2, before1_3]
  rw [show (dat1 V c q0 q2).Φ t.succ = (dat1 V c q0 q2).Φ t.castSucc from rfl,
    show (dat1 V c q0 q2).owesAt () t.succ = (dat1 V c q0 q2).owesAt () t.castSucc from rfl,
    after1_0, after1_1, after1_2, after1_3, after1_4, after1_5]
  by_cases h0 : t.val % 5 = 0
  · rw [acc1_4_at_reset V c t h0, acc1_5_at_reset V c t h0]
    iintro ⟨HΦ, Ho, ⟨%d0, H0⟩, ⟨%d1, H1⟩, ⟨%d2, H2⟩, ⟨%d3, H3⟩, ⟨%d4, H4⟩, ⟨%d5, H5⟩⟩
    iapply (sound_kernel1_reset c Set.univ (grid1.coords t) _ _ _ _ _ _ _ _ _ _ _ _ ((hcond1 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_at_step V c t h0, acc1_5_at_step V c t h0]
    simp only [before1_4_kept V c q0 q2 t h0, before1_5_kept V c q0 q2 t h0]
    iintro ⟨HΦ, Ho, ⟨%d0, H0⟩, ⟨%d1, H1⟩, ⟨%d2, H2⟩, ⟨%d3, H3⟩, ⟨%d4, H4⟩, ⟨%d5, H5⟩⟩
    iapply (sound_kernel1_step c Set.univ (grid1.coords t) _ _ _ _ _ _ _ _ _ _ _ _ (fun h => h0 ((hcond1 t).mp h))
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) (q0 q2 : PosShare TreeShare) :
    BodyObligation (dat1 (F := F) V c q0 q2) (defs₀ (F := F)) Variants.none () Set.univ := fun t => by
  rw [bigSep_W1, bigSep_W1]
  exact sound_body1 V c q0 q2 t

end Cert.Kernel.Hand

end
-- ==== Proof.K.Shared1.lean ====
/- The second TensorCore region's arrays when two of its windows are blocks of ONE array.

   Windows 0 and 2 of the second pipeline both read the array `main_v6`; windows 1 and 3 read `main_v11` and
   `main_v12`; windows 4 and 5 are the outputs `main_v17_0` and `main_v17_1`. A core's unscoped buffers hold each
   buffer ONCE, whole and at the full share, so the six windows' arrays cannot all be carved out of them at the full
   share. The full share is the composite of two complementary positive shares `qL` and `qR`; window 0 holds
   `main_v6` at `qL`, window 2 holds it at `qR`, every other window holds its own array at the full share. At the
   region's entry the points-to of `main_v6` splits along the share; at its exit the two halves, which carry the same
   contents, join again. -/
import proofs.«411617_j1520418423399_3_alg».proof.Proof.Gen.Kernel.Launch

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.SL.RA.PCS
open Idealize.ShloMosaic.Pipeline (Dat)

variable {F : FTy → Type} [FloatOps F]

local notation "𝕄" => MT nD τ sig Unit (Elt F) ℕ (UR sig nD τ) ℕ

/-! ## Two complementary shares -/

/-- The full share is the composite of two positive shares: its left and right halves in the tree of shares. -/
theorem exists_halves : ∃ q₁ q₂ : PosShare TreeShare, fullShare ∈ q₁ ·? q₂ :=
  ⟨fullShare.left, fullShare.right, PosShare.mem_left_op_right fullShare⟩

/-- The share window 0 holds of the common array. -/
def qL : PosShare TreeShare := exists_halves.choose
/-- The share window 2 holds of the common array. -/
def qR : PosShare TreeShare := exists_halves.choose_spec.choose
/-- Together they are the full share. -/
theorem qLR : fullShare ∈ qL ·? qR := exists_halves.choose_spec.choose_spec

/-! ## The buffers behind the windows, and the windows' arrays, one by one -/

/-- The DISTINCT buffers behind the six windows are five: the image of the windows under "the buffer of window `w`"
    is `{main_v6, main_v11, main_v12, main_v17_0, main_v17_1}`, the first named by windows 0 and 2. Each is held
    whole at the full share. -/
theorem arrBufs1_eq (c : Dev nD) (V : (b : Ref sig .tc) → Buf (Elt F) ((c.tc : Thread nD τ).loc b)) :
    (Pipeline.arrBufs spec1 c V : sProp 𝕄)
      = iprop((((c.tc : Thread nD τ).loc main_v6) ↦{fullShare} V main_v6) ∗ (((c.tc : Thread nD τ).loc main_v11) ↦{fullShare} V main_v11)
          ∗ (((c.tc : Thread nD τ).loc main_v12) ↦{fullShare} V main_v12) ∗ (((c.tc : Thread nD τ).loc main_v17_0) ↦{fullShare} V main_v17_0)
          ∗ (((c.tc : Thread nD τ).loc main_v17_1) ↦{fullShare} V main_v17_1)) := by
  unfold Pipeline.arrBufs
  exact bigSep_eq_bigSepL_of_eq [main_v6, main_v11, main_v12, main_v17_0, main_v17_1] (by decide) (by decide) _

/-- An input window's array is held at the share the proof data names for it. -/
theorem share_in {c : Dev nD} (dat : Dat τ (Elt F) Unit ℕ (UR sig nD τ) ℕ cfg1 c) (w : Fin cfg1.W) (h : (cfg1.win w).isOut = false) :
    dat.share w = dat.q w := by
  unfold Dat.share; exact if_neg (by rw [h]; exact Bool.false_ne_true)

/-- An output window's array is held at the full share. -/
theorem share_out {c : Dev nD} (dat : Dat τ (Elt F) Unit ℕ (UR sig nD τ) ℕ cfg1 c) (w : Fin cfg1.W) (h : (cfg1.win w).isOut = true) :
    dat.share w = fullShare := by
  unfold Dat.share; exact if_pos h

/-- One window's summand of the pipeline's arrays: the window's array is a whole buffer, so its element set is
    all of the buffer, and the summand is the points-to of the whole buffer at the window's share. -/
theorem win_eq (c : Dev nD) (dat : Dat τ (Elt F) Unit ℕ (UR sig nD τ) ℕ cfg1 c) (w : Fin cfg1.W) (q : PosShare TreeShare)
    (hq : dat.share w = q) (G : Buf (Elt F) ((cfg1.win w).arr.view.loc (c.tc : Thread nD τ))) :
    (((cfg1.win w).arr.view.loc (c.tc : Thread nD τ)) ↦[(cfg1.win w).arr.view.set]{dat.share w} G : sProp 𝕄)
      = (((c.tc : Thread nD τ).loc (Pipeline.arrRef spec1 w)) ↦{q} G) := by
  rw [(Gen.arr_whole1 w).set_eq_univ, hq]

/-- The pipeline's arrays at contents read off a valuation `V` of the core's buffers, window by window: `main_v6`
    at `qL` (window 0) and again at `qR` (window 2), every other array at the full share. -/
theorem arrays1_eq (c : Dev nD) (dat : Dat τ (Elt F) Unit ℕ (UR sig nD τ) ℕ cfg1 c) (hq0 : dat.q 0 = qL) (hq2 : dat.q 2 = qR)
    (hq1 : dat.q 1 = fullShare) (hq3 : dat.q 3 = fullShare)
    (V : (b : Ref sig .tc) → Buf (Elt F) ((c.tc : Thread nD τ).loc b))
    (G : (w : Fin cfg1.W) → Buf (Elt F) ((cfg1.win w).arr.view.loc (c.tc : Thread nD τ))) (hG : ∀ w, G w = V (Pipeline.arrRef spec1 w)) :
    (dat.arrays G : sProp 𝕄)
      = iprop((((c.tc : Thread nD τ).loc main_v6) ↦{qL} V main_v6) ∗ (((c.tc : Thread nD τ).loc main_v11) ↦{fullShare} V main_v11)
          ∗ (((c.tc : Thread nD τ).loc main_v6) ↦{qR} V main_v6) ∗ (((c.tc : Thread nD τ).loc main_v12) ↦{fullShare} V main_v12)
          ∗ (((c.tc : Thread nD τ).loc main_v17_0) ↦{fullShare} V main_v17_0) ∗ (((c.tc : Thread nD τ).loc main_v17_1) ↦{fullShare} V main_v17_1)) := by
  unfold Dat.arrays
  rw [Gen.bigSep_W1,
    win_eq c dat 0 qL ((share_in dat 0 rfl).trans hq0), win_eq c dat 1 fullShare ((share_in dat 1 rfl).trans hq1),
    win_eq c dat 2 qR ((share_in dat 2 rfl).trans hq2), win_eq c dat 3 fullShare ((share_in dat 3 rfl).trans hq3),
    win_eq c dat 4 fullShare (share_out dat 4 rfl), win_eq c dat 5 fullShare (share_out dat 5 rfl),
    hG 0, hG 1, hG 2, hG 3, hG 4, hG 5]

/-! ## Entry and exit -/

/-- ENTRY, the arrays' part: a core's unscoped buffers at contents `V` are the second pipeline's arrays at the proof
    data's entry contents — those being read off `V` (`hA`) — and the unscoped rest. The buffer `main_v6`, held
    once at the full share, is dealt to windows 0 and 2 along `fullShare ∈ qL ·? qR`. -/
theorem entry1 (c : Dev nD) (dat : Dat τ (Elt F) Unit ℕ (UR sig nD τ) ℕ cfg1 c) (hq0 : dat.q 0 = qL) (hq2 : dat.q 2 = qR)
    (hq1 : dat.q 1 = fullShare) (hq3 : dat.q 3 = fullShare)
    (V : (b : Ref sig .tc) → Buf (Elt F) ((c.tc : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  have hsplit : (unscopedBufs c V : sProp 𝕄) = iprop((Pipeline.arrBufs spec1 c V : sProp 𝕄) ∗ Pipeline.unscopedRest spec1 c V) :=
    Pipeline.unscopedBufs_split₀ (P := Fin 2) cfgs 1 Gen.winFacts₀1.arr_unscoped c V
  have hsh : (((c.tc : Thread nD τ).loc main_v6) ↦{fullShare} V main_v6 : sProp 𝕄)
      ⊣⊢ iprop((((c.tc : Thread nD τ).loc main_v6) ↦{qL} V main_v6) ∗ ((c.tc : Thread nD τ).loc main_v6) ↦{qR} V main_v6) := pointsTo_share qLR
  rw [hsplit, arrBufs1_eq c V, arrays1_eq c dat hq0 hq2 hq1 hq3 V (dat.arrAt · 0) hA]
  iintro ⟨⟨H6, H11, H12, H170, H171⟩, Hrest⟩
  ihave H := hsh.1 $$ H6
  icases H with ⟨HL, HR⟩
  isplitr [Hrest]
  · isplitl [HL]; · iexact HL
    isplitl [H11]; · iexact H11
    isplitl [HR]; · iexact HR
    isplitl [H12]; · iexact H12
    isplitl [H170]; · iexact H170
    iexact H171
  iexact Hrest

/-- EXIT, the arrays' part: the second pipeline's arrays at contents `Fv` and the unscoped rest at `V` are the core's
    unscoped buffers at any valuation `V'` that has the arrays at `Fv` (`hF`) and agrees with `V` off them
    (`hrest`). Windows 0 and 2 hold `main_v6` at the same contents `V' main_v6`, so their two shares compose to
    the full share of the one buffer. -/
theorem exit1 (c : Dev nD) (dat : Dat τ (Elt F) Unit ℕ (UR sig nD τ) ℕ cfg1 c) (hq0 : dat.q 0 = qL) (hq2 : dat.q 2 = qR)
    (hq1 : dat.q 1 = fullShare) (hq3 : dat.q 3 = fullShare)
    (V V' : (b : Ref sig .tc) → Buf (Elt F) ((c.tc : Thread nD τ).loc b))
    (Fv : (w : Fin cfg1.W) → Buf (Elt F) ((cfg1.win w).arr.view.loc (c.tc : Thread nD τ)))
    (hF : ∀ w, Fv w = V' (Pipeline.arrRef spec1 w))
    (hrest : ∀ b, b ∉ Finset.univ.image (Pipeline.arrRef spec1) → V' b = V b) :
    iprop(dat.arrays Fv ∗ Pipeline.unscopedRest spec1 c V) ⊢ (unscopedBufs c V' : sProp 𝕄) := by
  have hsplit : (unscopedBufs c V' : sProp 𝕄) = iprop((Pipeline.arrBufs spec1 c V' : sProp 𝕄) ∗ Pipeline.unscopedRest spec1 c V') :=
    Pipeline.unscopedBufs_split₀ (P := Fin 2) cfgs 1 Gen.winFacts₀1.arr_unscoped c V'
  have hoff : (Pipeline.unscopedRest spec1 c V : sProp 𝕄) = Pipeline.unscopedRest spec1 c V' := by
    unfold Pipeline.unscopedRest
    exact bigSep_congr fun b hb => by rw [hrest b (Finset.mem_sdiff.mp hb).2]
  have hsh : (((c.tc : Thread nD τ).loc main_v6) ↦{fullShare} V' main_v6 : sProp 𝕄)
      ⊣⊢ iprop((((c.tc : Thread nD τ).loc main_v6) ↦{qL} V' main_v6) ∗ ((c.tc : Thread nD τ).loc main_v6) ↦{qR} V' main_v6) := pointsTo_share qLR
  rw [hsplit, arrBufs1_eq c V', arrays1_eq c dat hq0 hq2 hq1 hq3 V' Fv hF, hoff]
  iintro ⟨⟨HL, H11, HR, H12, H170, H171⟩, Hrest⟩
  isplitr [Hrest]
  · isplitl [HL HR]
    · iapply hsh.2
      isplitl [HL]; · iexact HL
      iexact HR
    isplitl [H11]; · iexact H11
    isplitl [H12]; · iexact H12
    isplitl [H170]; · iexact H170
    iexact H171
  iexact Hrest

end Cert.Kernel.Hand

end
-- ==== Proof.K.Run.lean ====
/-
  The program's run, stretch by stretch. The entry point is: sixteen host operations and two paddings (squared
  norms of the features and of the centres, the centres re-laid slot-major and padded to 1024 columns), the first
  kernel (the affinities, 1024 × 1024 with 24 padding columns), a slice to 1000 columns, the second kernel (the
  two triangle sums, each as two partial sums, one per half of the centre rows), and twenty-seven host
  operations that turn the partial sums into the regularisation scalar and join it to the affinities as a last
  column. Between two stretches every buffer of the program holds a known array: the launch contents pushed
  through the host operations so far, with each kernel's output arrays replaced by what its write-backs leave.
  The run theorem says that every execution ends with every buffer at the last of these arrays; the frame (the two
  arguments end as launched) and the value of the result are read off it.
-/
import proofs.«411617_j1520418423399_3_alg».proof.Proof.Gen.Kernel.Launch
import proofs.«411617_j1520418423399_3_alg».proof.Proof.Gen.Kernel.Skeleton
import proofs.«411617_j1520418423399_3_alg».proof.Proof.Gen.Kernel.Points
import proofs.«411617_j1520418423399_3_alg».proof.Proof.Gen.Kernel.Regions
import proofs.«411617_j1520418423399_3_alg».proof.Proof.K.R0
import proofs.«411617_j1520418423399_3_alg».proof.Proof.K.R1
import proofs.«411617_j1520418423399_3_alg».proof.Proof.K.Shared1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the stretches -/

/-- What the first kernel finds: the launch contents after the host operations before it. -/
abbrev E0 (c : Dev nD) (b : Ref sig .tc) : Buf (Elt F) ((c : Thread nD τ).loc b) := V4 m c b

/-- After the first kernel: its output array at what its write-backs leave, every other buffer as it was. -/
def X5 (c : Dev nD) : Valuation τ sig (Elt F) :=
  Function.update (V4 m c) main_v15 ((dat0 (E0 m) c).arrAt 4 cfg0.N)

/-- After the slice between the kernels. -/
abbrev X6 (c : Dev nD) : Valuation τ sig (Elt F) := StableHlo.after hostOps1 (X5 m c)

/-- What the second kernel finds. -/
abbrev E1 (c : Dev nD) (b : Ref sig .tc) : Buf (Elt F) ((c : Thread nD τ).loc b) := X6 m c b

/-- After the second kernel: its two output arrays at what its write-backs leave. -/
def X7 (c : Dev nD) : Valuation τ sig (Elt F) :=
  Function.update (Function.update (X6 m c) main_v17_0 ((dat1 (E1 m) c qL qR).arrAt 4 cfg1.N)) main_v17_1
    ((dat1 (E1 m) c qL qR).arrAt 5 cfg1.N)

/-- At the end. -/
abbrev X8 (c : Dev nD) : Valuation τ sig (Elt F) := StableHlo.after hostOps2 (X7 m c)

theorem X5_out (c : Dev nD) : X5 m c main_v15 = (dat0 (E0 m) c).arrAt 4 cfg0.N := by
  unfold X5; exact Function.update_self ..
theorem X5_of (c : Dev nD) (r : Ref sig .tc) (h : r ≠ main_v15) : X5 m c r = V4 m c r := by
  unfold X5; exact Function.update_of_ne (StableHlo.devRef_ne_of_ne h) ..
theorem X7_out1 (c : Dev nD) : X7 m c main_v17_1 = (dat1 (E1 m) c qL qR).arrAt 5 cfg1.N := by
  unfold X7; exact Function.update_self ..
theorem X7_out0 (c : Dev nD) : X7 m c main_v17_0 = (dat1 (E1 m) c qL qR).arrAt 4 cfg1.N := by
  unfold X7
  rw [Function.update_of_ne (StableHlo.devRef_ne_of_ne (by decide : (main_v17_0 : Ref sig .tc) ≠ main_v17_1))]
  exact Function.update_self ..
theorem X7_of (c : Dev nD) (r : Ref sig .tc) (h0 : r ≠ main_v17_0) (h1 : r ≠ main_v17_1) : X7 m c r = X6 m c r := by
  unfold X7
  rw [Function.update_of_ne (StableHlo.devRef_ne_of_ne h1), Function.update_of_ne (StableHlo.devRef_ne_of_ne h0)]

/-- No stretch writes an argument: it reaches the end as launched. -/
theorem X8_main_arg0 (c : Dev nD) : X8 m c main_arg0 = m ((c : Thread nD τ).loc main_arg0) :=
  (StableHlo.after_of_writes_sub hostOps2 _ hostOps2_writes (by decide)).trans <|
    (X7_of m c main_arg0 (by decide) (by decide)).trans <|
    (StableHlo.after_of_writes_sub hostOps1 _ hostOps1_writes (by decide)).trans <|
    (X5_of m c main_arg0 (by decide)).trans <|
    (V4_of m c main_arg0 (by decide)).trans <| (V3_of m c main_arg0 (by decide)).trans <|
    (V2_of m c main_arg0 (by decide)).trans <| (V1_of m c main_arg0 (by decide)).trans rfl
theorem X8_main_arg1 (c : Dev nD) : X8 m c main_arg1 = m ((c : Thread nD τ).loc main_arg1) :=
  (StableHlo.after_of_writes_sub hostOps2 _ hostOps2_writes (by decide)).trans <|
    (X7_of m c main_arg1 (by decide) (by decide)).trans <|
    (StableHlo.after_of_writes_sub hostOps1 _ hostOps1_writes (by decide)).trans <|
    (X5_of m c main_arg1 (by decide)).trans <|
    (V4_of m c main_arg1 (by decide)).trans <| (V3_of m c main_arg1 (by decide)).trans <|
    (V2_of m c main_arg1 (by decide)).trans <| (V1_of m c main_arg1 (by decide)).trans rfl

/-! ## The kernels' data, and what rides along -/

/-- Both kernels' proof data, each at the arrays its kernel finds. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c qL qR

abbrev 𝒱₀ : Variants := Variants.none
abbrev L : GSem nD τ sig → Finset Unit := fun _ => ∅
abbrev lv : GSem nD τ sig → Unit → ℕ := fun _ _ => 0

/-- Beside the buffers: the core's generator register at some state, and the core owing nothing. -/
abbrev R (c : Dev nD) : sProp 𝕄 := iprop((∃ r, prngReg c r) ∗ ∃ W, owes (c : Thread nD τ) (0 : CellTallies nD τ sig Unit) W)

/-- A stretch of host operations from the arrays `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (X8 m c) ∗ ∃ r, prngReg c r)

/-! ## The first kernel's arrays at its exit -/

set_option backward.isDefEq.respectTransparency.types false in
theorem hF0 (c : Dev nD) (w : Fin cfg0.W) : (dat0 (E0 m) c).arrAt w cfg0.N = X5 m c (Pipeline.arrRef spec0 w) := by
  match w with
  | ⟨0, _⟩ => exact ((dat0 (E0 m) c).arrAt_in 0 rfl _).trans (X5_of m c (Pipeline.arrRef spec0 0) (by decide)).symm
  | ⟨1, _⟩ => exact ((dat0 (E0 m) c).arrAt_in 1 rfl _).trans (X5_of m c (Pipeline.arrRef spec0 1) (by decide)).symm
  | ⟨2, _⟩ => exact ((dat0 (E0 m) c).arrAt_in 2 rfl _).trans (X5_of m c (Pipeline.arrRef spec0 2) (by decide)).symm
  | ⟨3, _⟩ => exact ((dat0 (E0 m) c).arrAt_in 3 rfl _).trans (X5_of m c (Pipeline.arrRef spec0 3) (by decide)).symm
  | ⟨4, _⟩ => exact (X5_out m c).symm

theorem hrest0 (c : Dev nD) : ∀ b, b ∉ Finset.univ.image (Pipeline.arrRef spec0) → (fun b => X5 m c b) b = E0 m c b :=
  fun b hb => X5_of m c b fun e => hb (Finset.mem_image.mpr ⟨4, Finset.mem_univ _, e.symm⟩)

/-! ## The second kernel's arrays at its exit -/

set_option backward.isDefEq.respectTransparency.types false in
theorem hF1 (c : Dev nD) (w : Fin cfg1.W) : (dat1 (E1 m) c qL qR).arrAt w cfg1.N = X7 m c (Pipeline.arrRef spec1 w) := by
  match w with
  | ⟨0, _⟩ => exact ((dat1 (E1 m) c qL qR).arrAt_in 0 rfl _).trans (X7_of m c (Pipeline.arrRef spec1 0) (by decide) (by decide)).symm
  | ⟨1, _⟩ => exact ((dat1 (E1 m) c qL qR).arrAt_in 1 rfl _).trans (X7_of m c (Pipeline.arrRef spec1 1) (by decide) (by decide)).symm
  | ⟨2, _⟩ => exact ((dat1 (E1 m) c qL qR).arrAt_in 2 rfl _).trans (X7_of m c (Pipeline.arrRef spec1 2) (by decide) (by decide)).symm
  | ⟨3, _⟩ => exact ((dat1 (E1 m) c qL qR).arrAt_in 3 rfl _).trans (X7_of m c (Pipeline.arrRef spec1 3) (by decide) (by decide)).symm
  | ⟨4, _⟩ => exact (X7_out0 m c).symm
  | ⟨5, _⟩ => exact (X7_out1 m c).symm

theorem hrest1 (c : Dev nD) : ∀ b, b ∉ Finset.univ.image (Pipeline.arrRef spec1) → (fun b => X7 m c b) b = E1 m c b :=
  fun b hb => X7_of m c b (fun e => hb (Finset.mem_image.mpr ⟨4, Finset.mem_univ _, e.symm⟩))
    (fun e => hb (Finset.mem_image.mpr ⟨5, Finset.mem_univ _, e.symm⟩))

/-! ## The kernels as segments -/

set_option backward.isDefEq.respectTransparency.types false in
/-- The first kernel: entered with every buffer at the arrays after the host operations before it, left with its output
    array replaced by what its write-backs leave. Its arrays are split out of the buffers and put back; the generator
    register goes into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => X5 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered with every buffer at the arrays after the slice, left with its two output arrays replaced by
    what its write-backs leave. Two of its input windows are blocks of one array, which they hold at complementary
    shares; otherwise as the first. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c qL qR).loose
  hwaits := Pipeline.hwaits_of_owed_zero _ _ _ _ L lv 1 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := entry1 (F := F) c (pdats m 1 c) rfl rfl rfl rfl (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) c (pdats m 1 c) rfl rfl rfl rfl (E1 m c) (fun b => X7 m c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole run -/

/-- The eight stretches in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m),
    .host (hseg hostOps1 hostOps1_sub hostOps1_fresh (X5 m)),
    .region (reg1 m),
    .host (hseg hostOps2 hostOps2_sub hostOps2_fresh (X7 m)) ]

set_option backward.isDefEq.respectTransparency.types false in
/-- Every weakly fair execution from any memory with zero counters terminates, nothing faulting, and every buffer of
    the program ends at the last array of the chain. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (StableHlo.after hostOps2 (X7 m c)) ∗ R c) : sProp 𝕄) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (X8_main_arg0 m c),
     (h c _ (mem_uc main_arg1 (by decide))).trans (X8_main_arg1 m c)⟩) (run_main m ρ)

/-- The run with the result array named and the arguments unchanged. -/
theorem run_value : θ_run defs (onTc (τ := τ) (main (F := F))) ⟨m, fun _ => 0, ρ⟩ (fun r => ∀ c : Dev nD,
      r.2.mem ((c.tc : Thread nD τ).loc main_v39) = X8 m c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v39 (by decide)),
     (h c _ (mem_uc main_arg0 (by decide))).trans (X8_main_arg0 m c),
     (h c _ (mem_uc main_arg1 (by decide))).trans (X8_main_arg1 m c)⟩) (run_main m ρ)

end Cert.Kernel.Hand

end
-- ==== Proof.KI.R0.lean ====
import proofs.«411617_j1520418423399_3_alg».proof.Proof.Gen.KernelIdeal.Launch
import proofs.«411617_j1520418423399_3_alg».proof.Proof.Gen.KernelIdeal.Skeleton
import proofs.«411617_j1520418423399_3_alg».proof.Proof.Gen.KernelIdeal.Points
import Idealize.ShloMosaic.Lib.Pipeline.FrameBody
import Idealize.ShloMosaic.Lib.Tactic

-- membership of an index in a rectangle of these extents is looked up once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the distance kernel (pipeline 0), at the entry contents `V`

Per grid point the body reads a block of 256 feature rows (window 0) and their squared norms (window 1), the four
slabs of padded centers (window 2) and of their squared norms (window 3), both resident for the whole grid, and
writes the block's 256 × 1024 affinities (window 4): the maximum over the four slabs of
`exp (-(max (‖f‖² + ‖w‖² - 2 f·w) 0) / 10)`. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: literal rectangles -/

/-- The whole 256 × 1024 block: the feature rows' load, and the result's load and store. -/
abbrev rRows : Rect S256x1024 := Rect.unit (s := S256x1024) ![0, 0] S256x1024.size inb_S256x1024_S256x1024_0_0
/-- The whole 256 × 1 column of the rows' squared norms. -/
abbrev rNorm : Rect S256x1 := Rect.unit (s := S256x1) ![0, 0] S256x1.size inb_S256x1_S256x1_0_0
/-- Slab `k` of the centers, 1 × 1024 × 1024, for `k = 0, 1, 2, 3`. -/
abbrev rSlab0 : Rect S4x1024x1024 := Rect.unit (s := S4x1024x1024) ![0, 0, 0] S1x1024x1024.size inb_S4x1024x1024_S1x1024x1024_0_0_0
abbrev rSlab1 : Rect S4x1024x1024 := Rect.unit (s := S4x1024x1024) ![1, 0, 0] S1x1024x1024.size inb_S4x1024x1024_S1x1024x1024_1_0_0
abbrev rSlab2 : Rect S4x1024x1024 := Rect.unit (s := S4x1024x1024) ![2, 0, 0] S1x1024x1024.size inb_S4x1024x1024_S1x1024x1024_2_0_0
abbrev rSlab3 : Rect S4x1024x1024 := Rect.unit (s := S4x1024x1024) ![3, 0, 0] S1x1024x1024.size inb_S4x1024x1024_S1x1024x1024_3_0_0
/-- Row `k` of the centers' squared norms, 1 × 1024, for `k = 0, 1, 2, 3`. -/
abbrev rCsq0 : Rect S4x1024 := Rect.unit (s := S4x1024) ![0, 0] S1x1024.size inb_S4x1024_S1x1024_0_0
abbrev rCsq1 : Rect S4x1024 := Rect.unit (s := S4x1024) ![1, 0] S1x1024.size inb_S4x1024_S1x1024_1_0
abbrev rCsq2 : Rect S4x1024 := Rect.unit (s := S4x1024) ![2, 0] S1x1024.size inb_S4x1024_S1x1024_2_0
abbrev rCsq3 : Rect S4x1024 := Rect.unit (s := S4x1024) ![3, 0] S1x1024.size inb_S4x1024_S1x1024_3_0

/-! ## What the body leaves in the output window's buffer -/

/-- The stored vector as a function of the four input blocks: the running maximum over the slabs, slab 0 and 1 from
    the first half of the body, slab 2 folded into it and slab 3 in the second, the last maximum at the store. -/
def stored0 (x0 : Vec F S256x1024 .bf16) (x1 : Vec F S256x1 .f32) (x2 : Vec F S4x1024x1024 .bf16) (x3 : Vec F S4x1024 .f32) :
    FVec F S256x1024 .f32 :=
  k0_pay1
    (k0_pay6 (k0_pay2 (View.ld x0 rRows)) (k0_pay3 (View.ld x1 rNorm))
      (k0_pay4 (View.ld x0 rRows) (View.ld x1 rNorm) (View.ld x2 rSlab0) (View.ld x3 rCsq0))
      (k0_pay5 (View.ld x0 rRows) (View.ld x1 rNorm) (View.ld x2 rSlab1) (View.ld x3 rCsq1))
      (View.ld x2 rSlab2) (View.ld x3 rCsq2))
    (k0_pay7 (k0_pay2 (View.ld x0 rRows)) (k0_pay3 (View.ld x1 rNorm)) (View.ld x2 rSlab3) (View.ld x3 rCsq3))

/-- Window 4's staging buffer after the body, from the input windows' blocks: its one store, of the whole block. -/
def out0_4 (x0 : Vec F S256x1024 .bf16) (x1 : Vec F S256x1 .f32) (x2 : Vec F S4x1024x1024 .bf16) (x3 : Vec F S4x1024 .f32) :
    Vec F S256x1024 .f32 :=
  View.canon [⟨rRows, stored0 x0 x1 x2 x3⟩]

/-- The one store is of the whole block, so it covers the buffer. -/
theorem cover0_4 (p : Vec F S256x1024 .f32) (y : S256x1024.Idx) :
    ∃ pc ∈ ([⟨rRows, p⟩] : List (View.Piece (Elt F) S256x1024 .f32)), y ∈ pc.1.set :=
  View.cover_of_tiled [⟨rRows, p⟩] S256x1024.size (by rfl) y

/-! ## Each input's staging buffer holds its block -/

/-- An input window `w`'s current staging buffer holds its block at every point, fetched there or not, for any proof
    data whose array is `V`'s and whose body leaves the block in place: where the window is not fetched its block
    index has not moved (windows 2 and 3 are fetched at the first point only, their index constant), and the
    buffer still holds the previous point's block, which is this point's. No window is cut or idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  by
  have hkeep : ∀ t, (cfg0.win 0).cut (cfg0.grid.coords t) (dat.after 0 t) = dat.blockOf 0 t := by
    intro t; rw [hafter t]; unfold Dat.blockOf iblk0; rw [hA]
  rw [dat.before_in_eq_fetched 0 rfl (fun _ => rfl) (fun _ _ _ => rfl) hkeep t d]
  unfold Dat.fetched Dat.blockOf iblk0; rw [hA]; rfl
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  by
  have hkeep : ∀ t, (cfg0.win 1).cut (cfg0.grid.coords t) (dat.after 1 t) = dat.blockOf 1 t := by
    intro t; rw [hafter t]; unfold Dat.blockOf iblk0; rw [hA]
  rw [dat.before_in_eq_fetched 1 rfl (fun _ => rfl) (fun _ _ _ => rfl) hkeep t d]
  unfold Dat.fetched Dat.blockOf iblk0; rw [hA]; rfl
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  by
  have hkeep : ∀ t, (cfg0.win 2).cut (cfg0.grid.coords t) (dat.after 2 t) = dat.blockOf 2 t := by
    intro t; rw [hafter t]; unfold Dat.blockOf iblk0; rw [hA]
  rw [dat.before_in_eq_fetched 2 rfl (fun _ => rfl) (fun _ _ _ => rfl) hkeep t d]
  unfold Dat.fetched Dat.blockOf iblk0; rw [hA]; rfl
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  by
  have hkeep : ∀ t, (cfg0.win 3).cut (cfg0.grid.coords t) (dat.after 3 t) = dat.blockOf 3 t := by
    intro t; rw [hafter t]; unfold Dat.blockOf iblk0; rw [hA]
  rw [dat.before_in_eq_fetched 3 rfl (fun _ => rfl) (fun _ _ _ => rfl) hkeep t d]
  unfold Dat.fetched Dat.blockOf iblk0; rw [hA]; rfl

/-! ## The body's triple -/

set_option maxHeartbeats 1000000 in
/-- The kernel body on whole staging memrefs, the inputs' at read contents `x0 … x3` and the output's at anything,
    runs to the continuation holding the inputs' as they were and the output's at `out0_4` of the inputs': both
    halves of the body only load, the output buffer is then loaded whole (whatever it holds; the value is not used)
    and stored whole. -/
theorem sound_kernel0 (c : Dev nD) (E : Set ℕ) (i : grid0.Coords)
    (arg1 : Memref sig .tc .vmem S256x1024 .bf16) (harg1 : arg1.IsWhole) (arg2 : Memref sig .tc .vmem S256x1 .f32) (harg2 : arg2.IsWhole)
    (arg3 : Memref sig .tc .vmem S4x1024x1024 .bf16) (harg3 : arg3.IsWhole) (arg4 : Memref sig .tc .vmem S4x1024 .f32) (harg4 : arg4.IsWhole)
    (arg5 : Memref sig .tc .vmem S256x1024 .f32) (harg5 : arg5.IsWhole)
    (x0 : Vec F S256x1024 .bf16) (x1 : Vec F S256x1 .f32) (x2 : Vec F S4x1024x1024 .bf16) (x3 : Vec F S4x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__distance_kernel i arg1 harg1 arg2 harg2 arg3 harg3 arg4 harg4 arg5 harg5) K := by
  simp only [cc0__distance_kernel_eq_skeleton]; unfold cc0__distance_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and the output's at `out0_4` of the four input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's dues, and the five current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rewrite [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1's body obligation. The kernel runs on a grid of 2 × 5 points in row-major order. At each point it loads its
  four input blocks whole and computes two 1×1 partial sums from them and the point's coordinates; at the first of a
  core's five points (coordinate 1 equal to 0) it first fills both (8,128) output blocks with zeros; then it adds each
  partial sum, broadcast, to the output block it reads back. Each output block's index depends on the core alone, so the
  block stays in its staging buffer over the core's five points and is written back after the fifth.

  Hence what an output's staging buffer holds after the body at point n is a recursion on n: at n ≡ 0 (mod 5) the
  partial sum at n added to zeros, else the partial sum at n added to what the buffer held after n − 1. This module
  states that recursion (`acc1_4`, `acc1_5`) with its two case equations, the proof data built on it (`dat1`), what
  every window's staging buffer holds before the body at each point, the body's triple in each of the two cases, and
  from these the body obligation at every point.
-/
import proofs.«411617_j1520418423399_3_alg».proof.Proof.Gen.KernelIdeal.Launch
import proofs.«411617_j1520418423399_3_alg».proof.Proof.Gen.KernelIdeal.Skeleton
import proofs.«411617_j1520418423399_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first partial sum at point `t`: a function of the four input blocks there. -/
abbrev s1_4 (c : Dev nD) (t : Fin cfg1.N) : FVec F S1x1 .f32 :=
  k1_pay7 (grid1.coords t) (iblk1 V c 0 t) (iblk1 V c 2 t) (iblk1 V c 1 t) (iblk1 V c 3 t)

/-- The second partial sum at point `t`. -/
abbrev s1_5 (c : Dev nD) (t : Fin cfg1.N) : FVec F S1x1 .f32 :=
  k1_pay8 (grid1.coords t) (iblk1 V c 0 t) (iblk1 V c 2 t) (iblk1 V c 1 t) (iblk1 V c 3 t)

/-- What output window 4's staging buffer holds after the body at point `n`. -/
def acc1_4 (c : Dev nD) : (n : ℕ) → (h : n < cfg1.N) → Vec F S8x128 .f32
  | 0, h => k1_pay3 (s1_4 V c ⟨0, h⟩) (k1_pay1 (F := F))
  | n + 1, h =>
    if (n + 1) % 5 = 0 then k1_pay3 (s1_4 V c ⟨n + 1, h⟩) (k1_pay1 (F := F))
    else k1_pay3 (s1_4 V c ⟨n + 1, h⟩) (acc1_4 c n (Nat.lt_of_succ_lt h))

/-- What output window 5's staging buffer holds after the body at point `n`. -/
def acc1_5 (c : Dev nD) : (n : ℕ) → (h : n < cfg1.N) → Vec F S8x128 .f32
  | 0, h => k1_pay4 (s1_5 V c ⟨0, h⟩) (k1_pay2 (F := F))
  | n + 1, h =>
    if (n + 1) % 5 = 0 then k1_pay4 (s1_5 V c ⟨n + 1, h⟩) (k1_pay2 (F := F))
    else k1_pay4 (s1_5 V c ⟨n + 1, h⟩) (acc1_5 c n (Nat.lt_of_succ_lt h))

/-- At the first point of a core's five the first output holds the point's partial sum added to zeros. -/
theorem acc1_4_reset (c : Dev nD) (n : ℕ) (h : n < cfg1.N) (h0 : n % 5 = 0) :
    acc1_4 V c n h = k1_pay3 (k1_pay7 (grid1.coords ⟨n, h⟩) (iblk1 V c 0 ⟨n, h⟩) (iblk1 V c 2 ⟨n, h⟩) (iblk1 V c 1 ⟨n, h⟩) (iblk1 V c 3 ⟨n, h⟩)) (k1_pay1 (F := F)) := by
  cases n with
  | zero => rfl
  | succ n => exact (if_pos h0).trans rfl

/-- At a later point it holds the point's partial sum added to what the point before left. -/
theorem acc1_4_step (c : Dev nD) (n : ℕ) (h : n < cfg1.N) (h0 : n % 5 ≠ 0) :
    acc1_4 V c n h = k1_pay3 (k1_pay7 (grid1.coords ⟨n, h⟩) (iblk1 V c 0 ⟨n, h⟩) (iblk1 V c 2 ⟨n, h⟩) (iblk1 V c 1 ⟨n, h⟩) (iblk1 V c 3 ⟨n, h⟩)) (acc1_4 V c (n - 1) (by omega)) := by
  cases n with
  | zero => exact absurd (Nat.zero_mod _) h0
  | succ n => exact (if_neg h0).trans rfl

/-- The same two equations for the second output. -/
theorem acc1_5_reset (c : Dev nD) (n : ℕ) (h : n < cfg1.N) (h0 : n % 5 = 0) :
    acc1_5 V c n h = k1_pay4 (k1_pay8 (grid1.coords ⟨n, h⟩) (iblk1 V c 0 ⟨n, h⟩) (iblk1 V c 2 ⟨n, h⟩) (iblk1 V c 1 ⟨n, h⟩) (iblk1 V c 3 ⟨n, h⟩)) (k1_pay2 (F := F)) := by
  cases n with
  | zero => rfl
  | succ n => exact (if_pos h0).trans rfl

theorem acc1_5_step (c : Dev nD) (n : ℕ) (h : n < cfg1.N) (h0 : n % 5 ≠ 0) :
    acc1_5 V c n h = k1_pay4 (k1_pay8 (grid1.coords ⟨n, h⟩) (iblk1 V c 0 ⟨n, h⟩) (iblk1 V c 2 ⟨n, h⟩) (iblk1 V c 1 ⟨n, h⟩) (iblk1 V c 3 ⟨n, h⟩)) (acc1_5 V c (n - 1) (by omega)) := by
  cases n with
  | zero => exact absurd (Nat.zero_mod _) h0
  | succ n => exact (if_neg h0).trans rfl

/-! ## The pipeline's proof data -/

/-- The proof data of pipeline 1 on core `c`: the arrays as the region finds them (`V`); after the body at point `t` each
    input's buffer at its block and each output's at its running sum; the class's invariant (the scoped rest and the
    generator register, untouched); nothing owed; the two windows on the one shared array at the shares `q0`, `q2`, every
    other window's array at the full share. -/
def dat1 (c : Dev nD) (q0 q2 : PosShare TreeShare) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1_4 V c t.val t.isLt
    | ⟨5, _⟩ => acc1_5 V c t.val t.isLt
  Φ _ := Pipeline.ΦA spec1 c
  q := fun w => match w with
    | ⟨0, _⟩ => q0
    | ⟨1, _⟩ => fullShare
    | ⟨2, _⟩ => q2
    | ⟨3, _⟩ => fullShare
    | ⟨4, _⟩ => fullShare
    | ⟨5, _⟩ => fullShare
  owed _ := 0

/-- The proof data's arrays are the region-entry contents. -/
theorem A_eq1 (c : Dev nD) (q0 q2 : PosShare TreeShare) (w : Fin cfg1.W) : (dat1 V c q0 q2).A w = V c (Pipeline.arrRef spec1 w) := by
  dsimp only [dat1]

/-- What the body leaves, window by window. -/
theorem after1_0 (c : Dev nD) (q0 q2 : PosShare TreeShare) (t : Fin cfg1.N) : (dat1 V c q0 q2).after 0 t = iblk1 V c 0 t := by dsimp only [dat1]
theorem after1_1 (c : Dev nD) (q0 q2 : PosShare TreeShare) (t : Fin cfg1.N) : (dat1 V c q0 q2).after 1 t = iblk1 V c 1 t := by dsimp only [dat1]
theorem after1_2 (c : Dev nD) (q0 q2 : PosShare TreeShare) (t : Fin cfg1.N) : (dat1 V c q0 q2).after 2 t = iblk1 V c 2 t := by dsimp only [dat1]
theorem after1_3 (c : Dev nD) (q0 q2 : PosShare TreeShare) (t : Fin cfg1.N) : (dat1 V c q0 q2).after 3 t = iblk1 V c 3 t := by dsimp only [dat1]
theorem after1_4 (c : Dev nD) (q0 q2 : PosShare TreeShare) (t : Fin cfg1.N) : (dat1 V c q0 q2).after 4 t = acc1_4 V c t.val t.isLt := by dsimp only [dat1]
theorem after1_5 (c : Dev nD) (q0 q2 : PosShare TreeShare) (t : Fin cfg1.N) : (dat1 V c q0 q2).after 5 t = acc1_5 V c t.val t.isLt := by dsimp only [dat1]

/-- Each input's current staging buffer holds its block at every point, fetched there or not: where it is not fetched
    its block index has not moved since the point before, and the body left the block in place. -/
theorem before1_0 (c : Dev nD) (q0 q2 : PosShare TreeShare) (t : Fin cfg1.N) (d) : (dat1 V c q0 q2).before 0 t d = iblk1 V c 0 t :=
  ((dat1 V c q0 q2).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (q0 q2 : PosShare TreeShare) (t : Fin cfg1.N) (d) : (dat1 V c q0 q2).before 1 t d = iblk1 V c 1 t :=
  ((dat1 V c q0 q2).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (q0 q2 : PosShare TreeShare) (t : Fin cfg1.N) (d) : (dat1 V c q0 q2).before 2 t d = iblk1 V c 2 t :=
  ((dat1 V c q0 q2).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (q0 q2 : PosShare TreeShare) (t : Fin cfg1.N) (d) : (dat1 V c q0 q2).before 3 t d = iblk1 V c 3 t :=
  ((dat1 V c q0 q2).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- An output's staging buffer at the first point of a core's five holds anything: it is the first point of all, or
    the block was written back at the point before (the block index moves with the core). -/
theorem before1_4_reset (c : Dev nD) (q0 q2 : PosShare TreeShare) (t : Fin cfg1.N) (h0 : t.val % 5 = 0) (d) :
    (dat1 V c q0 q2).before 4 t d = d := by
  have hN : t.val < 10 := lt_of_lt_of_eq t.isLt (show cfg1.N = 10 from N_1)
  refine Dat.before_out_reset _ 4 rfl t ?_ d
  by_cases ht : t.val = 0
  · exact .inl ht
  · exact .inr ⟨ht, (flush1_4 _).mpr (by dsimp only; omega)⟩
/-- At a later point of the five it holds what the body left at the point before: no write-back between. -/
theorem before1_4_kept (c : Dev nD) (q0 q2 : PosShare TreeShare) (t : Fin cfg1.N) (h0 : t.val % 5 ≠ 0) (d) :
    (dat1 V c q0 q2).before 4 t d = acc1_4 V c (t.val - 1) (Nat.lt_of_le_of_lt (Nat.sub_le _ _) t.isLt) := by
  have hN : t.val < 10 := lt_of_lt_of_eq t.isLt (show cfg1.N = 10 from N_1)
  rw [Dat.before_out_kept _ 4 rfl t (by omega)
    (Bool.eq_false_iff.mpr fun h => by have := (flush1_4 _).mp h; dsimp only at this; omega)
    (fun _ => rfl) (fun _ _ => rfl)]
  dsimp only [dat1]
/-- The same two facts for the second output. -/
theorem before1_5_reset (c : Dev nD) (q0 q2 : PosShare TreeShare) (t : Fin cfg1.N) (h0 : t.val % 5 = 0) (d) :
    (dat1 V c q0 q2).before 5 t d = d := by
  have hN : t.val < 10 := lt_of_lt_of_eq t.isLt (show cfg1.N = 10 from N_1)
  refine Dat.before_out_reset _ 5 rfl t ?_ d
  by_cases ht : t.val = 0
  · exact .inl ht
  · exact .inr ⟨ht, (flush1_5 _).mpr (by dsimp only; omega)⟩
theorem before1_5_kept (c : Dev nD) (q0 q2 : PosShare TreeShare) (t : Fin cfg1.N) (h0 : t.val % 5 ≠ 0) (d) :
    (dat1 V c q0 q2).before 5 t d = acc1_5 V c (t.val - 1) (Nat.lt_of_le_of_lt (Nat.sub_le _ _) t.isLt) := by
  have hN : t.val < 10 := lt_of_lt_of_eq t.isLt (show cfg1.N = 10 from N_1)
  rw [Dat.before_out_kept _ 5 rfl t (by omega)
    (Bool.eq_false_iff.mpr fun h => by have := (flush1_5 _).mp h; dsimp only at this; omega)
    (fun _ => rfl) (fun _ _ => rfl)]
  dsimp only [dat1]

/-- Output window 4's staging buffer before the body, in one statement: anything at the first point of a core's five
    (the first point of all, or the point after a write-back), else what the body left at the point before. -/
theorem before1_4 (c : Dev nD) (q0 q2 : PosShare TreeShare) (t : Fin cfg1.N) (d) :
    (dat1 V c q0 q2).before 4 t d
      = if t.val % 5 = 0 then d else acc1_4 V c (t.val - 1) (Nat.lt_of_le_of_lt (Nat.sub_le _ _) t.isLt) := by
  by_cases h0 : t.val % 5 = 0
  · rw [if_pos h0]; exact before1_4_reset V c q0 q2 t h0 d
  · rw [if_neg h0]; exact before1_4_kept V c q0 q2 t h0 d

/-- Output window 5's staging buffer before the body, in one statement: anything at the first point of a core's five
    (the first point of all, or the point after a write-back), else what the body left at the point before. -/
theorem before1_5 (c : Dev nD) (q0 q2 : PosShare TreeShare) (t : Fin cfg1.N) (d) :
    (dat1 V c q0 q2).before 5 t d
      = if t.val % 5 = 0 then d else acc1_5 V c (t.val - 1) (Nat.lt_of_le_of_lt (Nat.sub_le _ _) t.isLt) := by
  by_cases h0 : t.val % 5 = 0
  · rw [if_pos h0]; exact before1_5_reset V c q0 q2 t h0 d
  · rw [if_neg h0]; exact before1_5_kept V c q0 q2 t h0 d

/-! ## The body's branch condition -/

/-- The condition of the body's conditional, as a chain over the grid coordinates. -/
abbrev cond1 (i : grid1.Coords) : Prop :=
  (Scalar.cmpi .ne (Scalar.extui (Scalar.cmpi .eq (BitVec.ofNat 32 (i 1).val) 0#32)) 0#32) = 1#1

/-- It holds exactly at the first point of each core's five. -/
theorem hcond1 : ∀ t : Fin cfg1.N, cond1 (grid1.coords t) ↔ t.val % 5 = 0 :=
  (by decide +kernel : ∀ t : Fin grid1.N, cond1 (grid1.coords t) ↔ t.val % 5 = 0)

/-- The zero offsets of a rank-2 whole-buffer rectangle. -/
theorem zoff1 : (![0, 0] : Fin 2 → ℕ) = fun _ => 0 := by
  funext a; match a with
  | ⟨0, _⟩ => rfl
  | ⟨1, _⟩ => rfl

/-! ## The body's triple, case by case -/

set_option maxHeartbeats 1000000 in
/-- At a point where the condition holds: both outputs are zeroed, then each is read back and the point's partial sum
    added; the outputs' buffers may hold anything before. -/
theorem sound_kernel1_reset (c : Dev nD) (E : Set ℕ) (i : grid1.Coords)
    (a0 : Memref sig .tc .vmem S400x1024 .bf16) (h0 : a0.IsWhole) (a1 : Memref sig .tc .vmem S400x1 .f32) (h1 : a1.IsWhole)
    (a2 : Memref sig .tc .vmem S4000x1024 .bf16) (h2 : a2.IsWhole) (a3 : Memref sig .tc .vmem S1x4000 .f32) (h3 : a3.IsWhole)
    (a4 : Memref sig .tc .vmem S8x128 .f32) (h4 : a4.IsWhole) (a5 : Memref sig .tc .vmem S8x128 .f32) (h5 : a5.IsWhole)
    (hc : cond1 i)
    (x0 : Vec F S400x1024 .bf16) (x1 : Vec F S400x1 .f32) (x2 : Vec F S4000x1024 .bf16) (x3 : Vec F S1x4000 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k1_pay3 (k1_pay7 i x0 x2 x1 x3) (k1_pay1 (F := F)))
            ∗ owns (c : Thread nD τ) a5 fullShare (k1_pay4 (k1_pay8 i x0 x2 x1 x3) (k1_pay2 (F := F)))) -∗ K ⟨⟩))
      ⊢ wp frame (wpE (defs₀ (F := F)) Variants.none c none) E (cc1__reg_kernel i a0 h0 a1 h1 a2 h2 a3 h3 a4 h4 a5 h5) K := by
  simp only [cc1__reg_kernel_eq_skeleton]; unfold cc1__reg_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (fun y => ⟨_, List.Mem.head _, View.mem_set_unit_zero (S := S8x128) zoff1 inb_S8x128_S8x128_0_0 y⟩)).trans ?_
    rw [View.canon_cons_unit_zero (S := S8x128) zoff1]
    sl_unfold_run_names
    rw [View.readCov_unit_zero (S := S8x128) _ zoff1]
    simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]
  iexists _; isplitr
  swap; · iexact H5
  ipureintro
  refine (View.read_writes_eq_canon _ _ _ (fun y => ⟨_, List.Mem.head _, View.mem_set_unit_zero (S := S8x128) zoff1 inb_S8x128_S8x128_0_0 y⟩)).trans ?_
  rw [View.canon_cons_unit_zero (S := S8x128) zoff1]
  sl_unfold_run_names
  rw [View.readCov_unit_zero (S := S8x128) _ zoff1]
  simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]

set_option maxHeartbeats 1000000 in
/-- At a point where the condition fails: each output is read back as the point before left it (`y4`, `y5`) and the
    point's partial sum added. -/
theorem sound_kernel1_step (c : Dev nD) (E : Set ℕ) (i : grid1.Coords)
    (a0 : Memref sig .tc .vmem S400x1024 .bf16) (h0 : a0.IsWhole) (a1 : Memref sig .tc .vmem S400x1 .f32) (h1 : a1.IsWhole)
    (a2 : Memref sig .tc .vmem S4000x1024 .bf16) (h2 : a2.IsWhole) (a3 : Memref sig .tc .vmem S1x4000 .f32) (h3 : a3.IsWhole)
    (a4 : Memref sig .tc .vmem S8x128 .f32) (h4 : a4.IsWhole) (a5 : Memref sig .tc .vmem S8x128 .f32) (h5 : a5.IsWhole)
    (hc : ¬cond1 i)
    (x0 : Vec F S400x1024 .bf16) (x1 : Vec F S400x1 .f32) (x2 : Vec F S4000x1024 .bf16) (x3 : Vec F S1x4000 .f32)
    (y4 y5 : Vec F S8x128 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare y4 ∗ owns (c : Thread nD τ) a5 fullShare y5
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k1_pay3 (k1_pay7 i x0 x2 x1 x3) y4)
            ∗ owns (c : Thread nD τ) a5 fullShare (k1_pay4 (k1_pay8 i x0 x2 x1 x3) y5)) -∗ K ⟨⟩))
      ⊢ wp frame (wpE (defs₀ (F := F)) Variants.none c none) E (cc1__reg_kernel i a0 h0 a1 h1 a2 h2 a3 h3 a4 h4 a5 h5) K := by
  simp only [cc1__reg_kernel_eq_skeleton]; unfold cc1__reg_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (fun y => ⟨_, List.Mem.head _, View.mem_set_unit_zero (S := S8x128) zoff1 inb_S8x128_S8x128_0_0 y⟩)).trans ?_
    rw [View.canon_cons_unit_zero (S := S8x128) zoff1]
    sl_unfold_run_names
    simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]
  iexists _; isplitr
  swap; · iexact H5
  ipureintro
  refine (View.read_writes_eq_canon _ _ _ (fun y => ⟨_, List.Mem.head _, View.mem_set_unit_zero (S := S8x128) zoff1 inb_S8x128_S8x128_0_0 y⟩)).trans ?_
  rw [View.canon_cons_unit_zero (S := S8x128) zoff1]
  sl_unfold_run_names
  simp only [View.readAt_eq_ld, View.ld_unit_zero (S := S400x1024) zoff1, View.ld_unit_zero (S := S4000x1024) zoff1,
      View.ld_unit_zero (S := S400x1) zoff1, View.ld_unit_zero (S := S1x4000) zoff1, View.ld_unit_zero (S := S8x128) zoff1]

/-! ## The partial sums at a point of the grid -/

theorem acc1_4_at_reset (c : Dev nD) (t : Fin cfg1.N) (h0 : t.val % 5 = 0) :
    acc1_4 V c t.val t.isLt = k1_pay3 (s1_4 V c t) (k1_pay1 (F := F)) := acc1_4_reset V c t.val t.isLt h0
theorem acc1_5_at_reset (c : Dev nD) (t : Fin cfg1.N) (h0 : t.val % 5 = 0) :
    acc1_5 V c t.val t.isLt = k1_pay4 (s1_5 V c t) (k1_pay2 (F := F)) := acc1_5_reset V c t.val t.isLt h0
theorem acc1_4_at_step (c : Dev nD) (t : Fin cfg1.N) (h0 : t.val % 5 ≠ 0) :
    acc1_4 V c t.val t.isLt = k1_pay3 (s1_4 V c t) (acc1_4 V c (t.val - 1) (Nat.lt_of_le_of_lt (Nat.sub_le _ _) t.isLt)) :=
  acc1_4_step V c t.val t.isLt h0
theorem acc1_5_at_step (c : Dev nD) (t : Fin cfg1.N) (h0 : t.val % 5 ≠ 0) :
    acc1_5 V c t.val t.isLt = k1_pay4 (s1_5 V c t) (acc1_5 V c (t.val - 1) (Nat.lt_of_le_of_lt (Nat.sub_le _ _) t.isLt)) :=
  acc1_5_step V c t.val t.isLt h0

/-! ## The body obligation, at a generic point -/

/-- What the body is called with at point `t`, the windows one by one, -/
def bodyPre1 (c : Dev nD) (q0 q2 : PosShare TreeShare) (t : Fin cfg1.N) : sProp 𝕄 :=
  iprop((dat1 V c q0 q2).Φ t.castSucc ∗ (dat1 V c q0 q2).owesAt () t.castSucc
    ∗ (∃ d, owns (c : Thread nD τ) (st1_0 t) fullShare ((dat1 V c q0 q2).before 0 t d))
    ∗ (∃ d, owns (c : Thread nD τ) (st1_1 t) fullShare ((dat1 V c q0 q2).before 1 t d))
    ∗ (∃ d, owns (c : Thread nD τ) (st1_2 t) fullShare ((dat1 V c q0 q2).before 2 t d))
    ∗ (∃ d, owns (c : Thread nD τ) (st1_3 t) fullShare ((dat1 V c q0 q2).before 3 t d))
    ∗ (∃ d, owns (c : Thread nD τ) (st1_4 t) fullShare ((dat1 V c q0 q2).before 4 t d))
    ∗ (∃ d, owns (c : Thread nD τ) (st1_5 t) fullShare ((dat1 V c q0 q2).before 5 t d)))

/-- and what it returns. -/
def bodyPost1 (c : Dev nD) (q0 q2 : PosShare TreeShare) (t : Fin cfg1.N) : sProp 𝕄 :=
  iprop((dat1 V c q0 q2).Φ t.succ ∗ (dat1 V c q0 q2).owesAt () t.succ
    ∗ owns (c : Thread nD τ) (st1_0 t) fullShare ((dat1 V c q0 q2).after 0 t)
    ∗ owns (c : Thread nD τ) (st1_1 t) fullShare ((dat1 V c q0 q2).after 1 t)
    ∗ owns (c : Thread nD τ) (st1_2 t) fullShare ((dat1 V c q0 q2).after 2 t)
    ∗ owns (c : Thread nD τ) (st1_3 t) fullShare ((dat1 V c q0 q2).after 3 t)
    ∗ owns (c : Thread nD τ) (st1_4 t) fullShare ((dat1 V c q0 q2).after 4 t)
    ∗ owns (c : Thread nD τ) (st1_5 t) fullShare ((dat1 V c q0 q2).after 5 t))

set_option maxHeartbeats 800000 in
/-- The body at any point: the inputs' buffers hold their blocks; the closed form of the condition says which case the
    point is in; where the condition fails each output's buffer holds what the point before left; the invariant and the
    core's dues pass through unread. -/
theorem sound_body1 (c : Dev nD) (q0 q2 : PosShare TreeShare) (t : Fin cfg1.N) :
    bodyPre1 V c q0 q2 t ⊢ wp frame (wpE (defs₀ (F := F)) Variants.none c none) Set.univ (bodyAt1 t) (fun _ => bodyPost1 V c q0 q2 t) := by
  unfold bodyPre1 bodyPost1 bodyAt1
  simp only [before1_0, before1_1, before1_2, before1_3]
  rw [show (dat1 V c q0 q2).Φ t.succ = (dat1 V c q0 q2).Φ t.castSucc from rfl,
    show (dat1 V c q0 q2).owesAt () t.succ = (dat1 V c q0 q2).owesAt () t.castSucc from rfl,
    after1_0, after1_1, after1_2, after1_3, after1_4, after1_5]
  by_cases h0 : t.val % 5 = 0
  · rw [acc1_4_at_reset V c t h0, acc1_5_at_reset V c t h0]
    iintro ⟨HΦ, Ho, ⟨%d0, H0⟩, ⟨%d1, H1⟩, ⟨%d2, H2⟩, ⟨%d3, H3⟩, ⟨%d4, H4⟩, ⟨%d5, H5⟩⟩
    iapply (sound_kernel1_reset c Set.univ (grid1.coords t) _ _ _ _ _ _ _ _ _ _ _ _ ((hcond1 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_at_step V c t h0, acc1_5_at_step V c t h0]
    simp only [before1_4_kept V c q0 q2 t h0, before1_5_kept V c q0 q2 t h0]
    iintro ⟨HΦ, Ho, ⟨%d0, H0⟩, ⟨%d1, H1⟩, ⟨%d2, H2⟩, ⟨%d3, H3⟩, ⟨%d4, H4⟩, ⟨%d5, H5⟩⟩
    iapply (sound_kernel1_step c Set.univ (grid1.coords t) _ _ _ _ _ _ _ _ _ _ _ _ (fun h => h0 ((hcond1 t).mp h))
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) (q0 q2 : PosShare TreeShare) :
    BodyObligation (dat1 (F := F) V c q0 q2) (defs₀ (F := F)) Variants.none () Set.univ := fun t => by
  rw [bigSep_W1, bigSep_W1]
  exact sound_body1 V c q0 q2 t

end Cert.KernelIdeal.Hand

end
-- ==== Proof.KI.Shared1.lean ====
/- The second TensorCore region's arrays when two of its windows are blocks of ONE array.

   Windows 0 and 2 of the second pipeline both read the array `main_v6`; windows 1 and 3 read `main_v11` and
   `main_v12`; windows 4 and 5 are the outputs `main_v17_0` and `main_v17_1`. A core's unscoped buffers hold each
   buffer ONCE, whole and at the full share, so the six windows' arrays cannot all be carved out of them at the full
   share. The full share is the composite of two complementary positive shares `qL` and `qR`; window 0 holds
   `main_v6` at `qL`, window 2 holds it at `qR`, every other window holds its own array at the full share. At the
   region's entry the points-to of `main_v6` splits along the share; at its exit the two halves, which carry the same
   contents, join again. -/
import proofs.«411617_j1520418423399_3_alg».proof.Proof.Gen.KernelIdeal.Launch

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.SL.RA.PCS
open Idealize.ShloMosaic.Pipeline (Dat)

variable {F : FTy → Type} [FloatOps F]

local notation "𝕄" => MT nD τ sig Unit (Elt F) ℕ (UR sig nD τ) ℕ

/-! ## Two complementary shares -/

/-- The full share is the composite of two positive shares: its left and right halves in the tree of shares. -/
theorem exists_halves : ∃ q₁ q₂ : PosShare TreeShare, fullShare ∈ q₁ ·? q₂ :=
  ⟨fullShare.left, fullShare.right, PosShare.mem_left_op_right fullShare⟩

/-- The share window 0 holds of the common array. -/
def qL : PosShare TreeShare := exists_halves.choose
/-- The share window 2 holds of the common array. -/
def qR : PosShare TreeShare := exists_halves.choose_spec.choose
/-- Together they are the full share. -/
theorem qLR : fullShare ∈ qL ·? qR := exists_halves.choose_spec.choose_spec

/-! ## The buffers behind the windows, and the windows' arrays, one by one -/

/-- The DISTINCT buffers behind the six windows are five: the image of the windows under "the buffer of window `w`"
    is `{main_v6, main_v11, main_v12, main_v17_0, main_v17_1}`, the first named by windows 0 and 2. Each is held
    whole at the full share. -/
theorem arrBufs1_eq (c : Dev nD) (V : (b : Ref sig .tc) → Buf (Elt F) ((c.tc : Thread nD τ).loc b)) :
    (Pipeline.arrBufs spec1 c V : sProp 𝕄)
      = iprop((((c.tc : Thread nD τ).loc main_v6) ↦{fullShare} V main_v6) ∗ (((c.tc : Thread nD τ).loc main_v11) ↦{fullShare} V main_v11)
          ∗ (((c.tc : Thread nD τ).loc main_v12) ↦{fullShare} V main_v12) ∗ (((c.tc : Thread nD τ).loc main_v17_0) ↦{fullShare} V main_v17_0)
          ∗ (((c.tc : Thread nD τ).loc main_v17_1) ↦{fullShare} V main_v17_1)) := by
  unfold Pipeline.arrBufs
  exact bigSep_eq_bigSepL_of_eq [main_v6, main_v11, main_v12, main_v17_0, main_v17_1] (by decide) (by decide) _

/-- An input window's array is held at the share the proof data names for it. -/
theorem share_in {c : Dev nD} (dat : Dat τ (Elt F) Unit ℕ (UR sig nD τ) ℕ cfg1 c) (w : Fin cfg1.W) (h : (cfg1.win w).isOut = false) :
    dat.share w = dat.q w := by
  unfold Dat.share; exact if_neg (by rw [h]; exact Bool.false_ne_true)

/-- An output window's array is held at the full share. -/
theorem share_out {c : Dev nD} (dat : Dat τ (Elt F) Unit ℕ (UR sig nD τ) ℕ cfg1 c) (w : Fin cfg1.W) (h : (cfg1.win w).isOut = true) :
    dat.share w = fullShare := by
  unfold Dat.share; exact if_pos h

/-- One window's summand of the pipeline's arrays: the window's array is a whole buffer, so its element set is
    all of the buffer, and the summand is the points-to of the whole buffer at the window's share. -/
theorem win_eq (c : Dev nD) (dat : Dat τ (Elt F) Unit ℕ (UR sig nD τ) ℕ cfg1 c) (w : Fin cfg1.W) (q : PosShare TreeShare)
    (hq : dat.share w = q) (G : Buf (Elt F) ((cfg1.win w).arr.view.loc (c.tc : Thread nD τ))) :
    (((cfg1.win w).arr.view.loc (c.tc : Thread nD τ)) ↦[(cfg1.win w).arr.view.set]{dat.share w} G : sProp 𝕄)
      = (((c.tc : Thread nD τ).loc (Pipeline.arrRef spec1 w)) ↦{q} G) := by
  rw [(Gen.arr_whole1 w).set_eq_univ, hq]

/-- The pipeline's arrays at contents read off a valuation `V` of the core's buffers, window by window: `main_v6`
    at `qL` (window 0) and again at `qR` (window 2), every other array at the full share. -/
theorem arrays1_eq (c : Dev nD) (dat : Dat τ (Elt F) Unit ℕ (UR sig nD τ) ℕ cfg1 c) (hq0 : dat.q 0 = qL) (hq2 : dat.q 2 = qR)
    (hq1 : dat.q 1 = fullShare) (hq3 : dat.q 3 = fullShare)
    (V : (b : Ref sig .tc) → Buf (Elt F) ((c.tc : Thread nD τ).loc b))
    (G : (w : Fin cfg1.W) → Buf (Elt F) ((cfg1.win w).arr.view.loc (c.tc : Thread nD τ))) (hG : ∀ w, G w = V (Pipeline.arrRef spec1 w)) :
    (dat.arrays G : sProp 𝕄)
      = iprop((((c.tc : Thread nD τ).loc main_v6) ↦{qL} V main_v6) ∗ (((c.tc : Thread nD τ).loc main_v11) ↦{fullShare} V main_v11)
          ∗ (((c.tc : Thread nD τ).loc main_v6) ↦{qR} V main_v6) ∗ (((c.tc : Thread nD τ).loc main_v12) ↦{fullShare} V main_v12)
          ∗ (((c.tc : Thread nD τ).loc main_v17_0) ↦{fullShare} V main_v17_0) ∗ (((c.tc : Thread nD τ).loc main_v17_1) ↦{fullShare} V main_v17_1)) := by
  unfold Dat.arrays
  rw [Gen.bigSep_W1,
    win_eq c dat 0 qL ((share_in dat 0 rfl).trans hq0), win_eq c dat 1 fullShare ((share_in dat 1 rfl).trans hq1),
    win_eq c dat 2 qR ((share_in dat 2 rfl).trans hq2), win_eq c dat 3 fullShare ((share_in dat 3 rfl).trans hq3),
    win_eq c dat 4 fullShare (share_out dat 4 rfl), win_eq c dat 5 fullShare (share_out dat 5 rfl),
    hG 0, hG 1, hG 2, hG 3, hG 4, hG 5]

/-! ## Entry and exit -/

/-- ENTRY, the arrays' part: a core's unscoped buffers at contents `V` are the second pipeline's arrays at the proof
    data's entry contents — those being read off `V` (`hA`) — and the unscoped rest. The buffer `main_v6`, held
    once at the full share, is dealt to windows 0 and 2 along `fullShare ∈ qL ·? qR`. -/
theorem entry1 (c : Dev nD) (dat : Dat τ (Elt F) Unit ℕ (UR sig nD τ) ℕ cfg1 c) (hq0 : dat.q 0 = qL) (hq2 : dat.q 2 = qR)
    (hq1 : dat.q 1 = fullShare) (hq3 : dat.q 3 = fullShare)
    (V : (b : Ref sig .tc) → Buf (Elt F) ((c.tc : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  have hsplit : (unscopedBufs c V : sProp 𝕄) = iprop((Pipeline.arrBufs spec1 c V : sProp 𝕄) ∗ Pipeline.unscopedRest spec1 c V) :=
    Pipeline.unscopedBufs_split₀ (P := Fin 2) cfgs 1 Gen.winFacts₀1.arr_unscoped c V
  have hsh : (((c.tc : Thread nD τ).loc main_v6) ↦{fullShare} V main_v6 : sProp 𝕄)
      ⊣⊢ iprop((((c.tc : Thread nD τ).loc main_v6) ↦{qL} V main_v6) ∗ ((c.tc : Thread nD τ).loc main_v6) ↦{qR} V main_v6) := pointsTo_share qLR
  rw [hsplit, arrBufs1_eq c V, arrays1_eq c dat hq0 hq2 hq1 hq3 V (dat.arrAt · 0) hA]
  iintro ⟨⟨H6, H11, H12, H170, H171⟩, Hrest⟩
  ihave H := hsh.1 $$ H6
  icases H with ⟨HL, HR⟩
  isplitr [Hrest]
  · isplitl [HL]; · iexact HL
    isplitl [H11]; · iexact H11
    isplitl [HR]; · iexact HR
    isplitl [H12]; · iexact H12
    isplitl [H170]; · iexact H170
    iexact H171
  iexact Hrest

/-- EXIT, the arrays' part: the second pipeline's arrays at contents `Fv` and the unscoped rest at `V` are the core's
    unscoped buffers at any valuation `V'` that has the arrays at `Fv` (`hF`) and agrees with `V` off them
    (`hrest`). Windows 0 and 2 hold `main_v6` at the same contents `V' main_v6`, so their two shares compose to
    the full share of the one buffer. -/
theorem exit1 (c : Dev nD) (dat : Dat τ (Elt F) Unit ℕ (UR sig nD τ) ℕ cfg1 c) (hq0 : dat.q 0 = qL) (hq2 : dat.q 2 = qR)
    (hq1 : dat.q 1 = fullShare) (hq3 : dat.q 3 = fullShare)
    (V V' : (b : Ref sig .tc) → Buf (Elt F) ((c.tc : Thread nD τ).loc b))
    (Fv : (w : Fin cfg1.W) → Buf (Elt F) ((cfg1.win w).arr.view.loc (c.tc : Thread nD τ)))
    (hF : ∀ w, Fv w = V' (Pipeline.arrRef spec1 w))
    (hrest : ∀ b, b ∉ Finset.univ.image (Pipeline.arrRef spec1) → V' b = V b) :
    iprop(dat.arrays Fv ∗ Pipeline.unscopedRest spec1 c V) ⊢ (unscopedBufs c V' : sProp 𝕄) := by
  have hsplit : (unscopedBufs c V' : sProp 𝕄) = iprop((Pipeline.arrBufs spec1 c V' : sProp 𝕄) ∗ Pipeline.unscopedRest spec1 c V') :=
    Pipeline.unscopedBufs_split₀ (P := Fin 2) cfgs 1 Gen.winFacts₀1.arr_unscoped c V'
  have hoff : (Pipeline.unscopedRest spec1 c V : sProp 𝕄) = Pipeline.unscopedRest spec1 c V' := by
    unfold Pipeline.unscopedRest
    exact bigSep_congr fun b hb => by rw [hrest b (Finset.mem_sdiff.mp hb).2]
  have hsh : (((c.tc : Thread nD τ).loc main_v6) ↦{fullShare} V' main_v6 : sProp 𝕄)
      ⊣⊢ iprop((((c.tc : Thread nD τ).loc main_v6) ↦{qL} V' main_v6) ∗ ((c.tc : Thread nD τ).loc main_v6) ↦{qR} V' main_v6) := pointsTo_share qLR
  rw [hsplit, arrBufs1_eq c V', arrays1_eq c dat hq0 hq2 hq1 hq3 V' Fv hF, hoff]
  iintro ⟨⟨HL, H11, HR, H12, H170, H171⟩, Hrest⟩
  isplitr [Hrest]
  · isplitl [HL HR]
    · iapply hsh.2
      isplitl [HL]; · iexact HL
      iexact HR
    isplitl [H11]; · iexact H11
    isplitl [H12]; · iexact H12
    isplitl [H170]; · iexact H170
    iexact H171
  iexact Hrest

end Cert.KernelIdeal.Hand

end
-- ==== Proof.KI.Run.lean ====
/-
  The program's run, stretch by stretch. The entry point is: sixteen host operations and two paddings (squared
  norms of the features and of the centres, the centres re-laid slot-major and padded to 1024 columns), the first
  kernel (the affinities, 1024 × 1024 with 24 padding columns), a slice to 1000 columns, the second kernel (the
  two triangle sums, each as two partial sums, one per half of the centre rows), and twenty-seven host
  operations that turn the partial sums into the regularisation scalar and join it to the affinities as a last
  column. Between two stretches every buffer of the program holds a known array: the launch contents pushed
  through the host operations so far, with each kernel's output arrays replaced by what its write-backs leave.
  The run theorem says that every execution ends with every buffer at the last of these arrays; the frame (the two
  arguments end as launched) and the value of the result are read off it.
-/
import proofs.«411617_j1520418423399_3_alg».proof.Proof.Gen.KernelIdeal.Launch
import proofs.«411617_j1520418423399_3_alg».proof.Proof.Gen.KernelIdeal.Skeleton
import proofs.«411617_j1520418423399_3_alg».proof.Proof.Gen.KernelIdeal.Points
import proofs.«411617_j1520418423399_3_alg».proof.Proof.Gen.KernelIdeal.Regions
import proofs.«411617_j1520418423399_3_alg».proof.Proof.KI.R0
import proofs.«411617_j1520418423399_3_alg».proof.Proof.KI.R1
import proofs.«411617_j1520418423399_3_alg».proof.Proof.KI.Shared1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the stretches -/

/-- What the first kernel finds: the launch contents after the host operations before it. -/
abbrev E0 (c : Dev nD) (b : Ref sig .tc) : Buf (Elt F) ((c : Thread nD τ).loc b) := V4 m c b

/-- After the first kernel: its output array at what its write-backs leave, every other buffer as it was. -/
def X5 (c : Dev nD) : Valuation τ sig (Elt F) :=
  Function.update (V4 m c) main_v15 ((dat0 (E0 m) c).arrAt 4 cfg0.N)

/-- After the slice between the kernels. -/
abbrev X6 (c : Dev nD) : Valuation τ sig (Elt F) := StableHlo.after hostOps1 (X5 m c)

/-- What the second kernel finds. -/
abbrev E1 (c : Dev nD) (b : Ref sig .tc) : Buf (Elt F) ((c : Thread nD τ).loc b) := X6 m c b

/-- After the second kernel: its two output arrays at what its write-backs leave. -/
def X7 (c : Dev nD) : Valuation τ sig (Elt F) :=
  Function.update (Function.update (X6 m c) main_v17_0 ((dat1 (E1 m) c qL qR).arrAt 4 cfg1.N)) main_v17_1
    ((dat1 (E1 m) c qL qR).arrAt 5 cfg1.N)

/-- At the end. -/
abbrev X8 (c : Dev nD) : Valuation τ sig (Elt F) := StableHlo.after hostOps2 (X7 m c)

theorem X5_out (c : Dev nD) : X5 m c main_v15 = (dat0 (E0 m) c).arrAt 4 cfg0.N := by
  unfold X5; exact Function.update_self ..
theorem X5_of (c : Dev nD) (r : Ref sig .tc) (h : r ≠ main_v15) : X5 m c r = V4 m c r := by
  unfold X5; exact Function.update_of_ne (StableHlo.devRef_ne_of_ne h) ..
theorem X7_out1 (c : Dev nD) : X7 m c main_v17_1 = (dat1 (E1 m) c qL qR).arrAt 5 cfg1.N := by
  unfold X7; exact Function.update_self ..
theorem X7_out0 (c : Dev nD) : X7 m c main_v17_0 = (dat1 (E1 m) c qL qR).arrAt 4 cfg1.N := by
  unfold X7
  rw [Function.update_of_ne (StableHlo.devRef_ne_of_ne (by decide : (main_v17_0 : Ref sig .tc) ≠ main_v17_1))]
  exact Function.update_self ..
theorem X7_of (c : Dev nD) (r : Ref sig .tc) (h0 : r ≠ main_v17_0) (h1 : r ≠ main_v17_1) : X7 m c r = X6 m c r := by
  unfold X7
  rw [Function.update_of_ne (StableHlo.devRef_ne_of_ne h1), Function.update_of_ne (StableHlo.devRef_ne_of_ne h0)]

/-- No stretch writes an argument: it reaches the end as launched. -/
theorem X8_main_arg0 (c : Dev nD) : X8 m c main_arg0 = m ((c : Thread nD τ).loc main_arg0) :=
  (StableHlo.after_of_writes_sub hostOps2 _ hostOps2_writes (by decide)).trans <|
    (X7_of m c main_arg0 (by decide) (by decide)).trans <|
    (StableHlo.after_of_writes_sub hostOps1 _ hostOps1_writes (by decide)).trans <|
    (X5_of m c main_arg0 (by decide)).trans <|
    (V4_of m c main_arg0 (by decide)).trans <| (V3_of m c main_arg0 (by decide)).trans <|
    (V2_of m c main_arg0 (by decide)).trans <| (V1_of m c main_arg0 (by decide)).trans rfl
theorem X8_main_arg1 (c : Dev nD) : X8 m c main_arg1 = m ((c : Thread nD τ).loc main_arg1) :=
  (StableHlo.after_of_writes_sub hostOps2 _ hostOps2_writes (by decide)).trans <|
    (X7_of m c main_arg1 (by decide) (by decide)).trans <|
    (StableHlo.after_of_writes_sub hostOps1 _ hostOps1_writes (by decide)).trans <|
    (X5_of m c main_arg1 (by decide)).trans <|
    (V4_of m c main_arg1 (by decide)).trans <| (V3_of m c main_arg1 (by decide)).trans <|
    (V2_of m c main_arg1 (by decide)).trans <| (V1_of m c main_arg1 (by decide)).trans rfl

/-! ## The kernels' data, and what rides along -/

/-- Both kernels' proof data, each at the arrays its kernel finds. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c qL qR

abbrev 𝒱₀ : Variants := Variants.none
abbrev L : GSem nD τ sig → Finset Unit := fun _ => ∅
abbrev lv : GSem nD τ sig → Unit → ℕ := fun _ _ => 0

/-- Beside the buffers: the core's generator register at some state, and the core owing nothing. -/
abbrev R (c : Dev nD) : sProp 𝕄 := iprop((∃ r, prngReg c r) ∗ ∃ W, owes (c : Thread nD τ) (0 : CellTallies nD τ sig Unit) W)

/-- A stretch of host operations from the arrays `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (X8 m c) ∗ ∃ r, prngReg c r)

/-! ## The first kernel's arrays at its exit -/

set_option backward.isDefEq.respectTransparency.types false in
theorem hF0 (c : Dev nD) (w : Fin cfg0.W) : (dat0 (E0 m) c).arrAt w cfg0.N = X5 m c (Pipeline.arrRef spec0 w) := by
  match w with
  | ⟨0, _⟩ => exact ((dat0 (E0 m) c).arrAt_in 0 rfl _).trans (X5_of m c (Pipeline.arrRef spec0 0) (by decide)).symm
  | ⟨1, _⟩ => exact ((dat0 (E0 m) c).arrAt_in 1 rfl _).trans (X5_of m c (Pipeline.arrRef spec0 1) (by decide)).symm
  | ⟨2, _⟩ => exact ((dat0 (E0 m) c).arrAt_in 2 rfl _).trans (X5_of m c (Pipeline.arrRef spec0 2) (by decide)).symm
  | ⟨3, _⟩ => exact ((dat0 (E0 m) c).arrAt_in 3 rfl _).trans (X5_of m c (Pipeline.arrRef spec0 3) (by decide)).symm
  | ⟨4, _⟩ => exact (X5_out m c).symm

theorem hrest0 (c : Dev nD) : ∀ b, b ∉ Finset.univ.image (Pipeline.arrRef spec0) → (fun b => X5 m c b) b = E0 m c b :=
  fun b hb => X5_of m c b fun e => hb (Finset.mem_image.mpr ⟨4, Finset.mem_univ _, e.symm⟩)

/-! ## The second kernel's arrays at its exit -/

set_option backward.isDefEq.respectTransparency.types false in
theorem hF1 (c : Dev nD) (w : Fin cfg1.W) : (dat1 (E1 m) c qL qR).arrAt w cfg1.N = X7 m c (Pipeline.arrRef spec1 w) := by
  match w with
  | ⟨0, _⟩ => exact ((dat1 (E1 m) c qL qR).arrAt_in 0 rfl _).trans (X7_of m c (Pipeline.arrRef spec1 0) (by decide) (by decide)).symm
  | ⟨1, _⟩ => exact ((dat1 (E1 m) c qL qR).arrAt_in 1 rfl _).trans (X7_of m c (Pipeline.arrRef spec1 1) (by decide) (by decide)).symm
  | ⟨2, _⟩ => exact ((dat1 (E1 m) c qL qR).arrAt_in 2 rfl _).trans (X7_of m c (Pipeline.arrRef spec1 2) (by decide) (by decide)).symm
  | ⟨3, _⟩ => exact ((dat1 (E1 m) c qL qR).arrAt_in 3 rfl _).trans (X7_of m c (Pipeline.arrRef spec1 3) (by decide) (by decide)).symm
  | ⟨4, _⟩ => exact (X7_out0 m c).symm
  | ⟨5, _⟩ => exact (X7_out1 m c).symm

theorem hrest1 (c : Dev nD) : ∀ b, b ∉ Finset.univ.image (Pipeline.arrRef spec1) → (fun b => X7 m c b) b = E1 m c b :=
  fun b hb => X7_of m c b (fun e => hb (Finset.mem_image.mpr ⟨4, Finset.mem_univ _, e.symm⟩))
    (fun e => hb (Finset.mem_image.mpr ⟨5, Finset.mem_univ _, e.symm⟩))

/-! ## The kernels as segments -/

set_option backward.isDefEq.respectTransparency.types false in
/-- The first kernel: entered with every buffer at the arrays after the host operations before it, left with its output
    array replaced by what its write-backs leave. Its arrays are split out of the buffers and put back; the generator
    register goes into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => X5 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered with every buffer at the arrays after the slice, left with its two output arrays replaced by
    what its write-backs leave. Two of its input windows are blocks of one array, which they hold at complementary
    shares; otherwise as the first. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c qL qR).loose
  hwaits := Pipeline.hwaits_of_owed_zero _ _ _ _ L lv 1 fun _ _ => rfl
  pre c := iprop(StableHlo.held (c : Thread nD τ) (Pipeline.ucRefs τ sig) (X6 m c) ∗ R c)
  post c := iprop(StableHlo.held (c : Thread nD τ) (Pipeline.ucRefs τ sig) (X7 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := entry1 (F := F) c (pdats m 1 c) rfl rfl rfl rfl (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) c (pdats m 1 c) rfl rfl rfl rfl (E1 m c) (fun b => X7 m c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole run -/

/-- The eight stretches in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m),
    .host (hseg hostOps1 hostOps1_sub hostOps1_fresh (X5 m)),
    .region (reg1 m),
    .host (hseg hostOps2 hostOps2_sub hostOps2_fresh (X7 m)) ]

set_option backward.isDefEq.respectTransparency.types false in
/-- Every weakly fair execution from any memory with zero counters terminates, nothing faulting, and every buffer of
    the program ends at the last array of the chain. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (StableHlo.after hostOps2 (X7 m c)) ∗ R c) : sProp 𝕄) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (X8_main_arg0 m c),
     (h c _ (mem_uc main_arg1 (by decide))).trans (X8_main_arg1 m c)⟩) (run_main m ρ)

/-- The run with the result array named and the arguments unchanged. -/
theorem run_value : θ_run defs (onTc (τ := τ) (main (F := F))) ⟨m, fun _ => 0, ρ⟩ (fun r => ∀ c : Dev nD,
      r.2.mem ((c.tc : Thread nD τ).loc main_v39) = X8 m c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v39 (by decide)),
     (h c _ (mem_uc main_arg0 (by decide))).trans (X8_main_arg0 m c),
     (h c _ (mem_uc main_arg1 (by decide))).trans (X8_main_arg1 m c)⟩) (run_main m ρ)

end Cert.KernelIdeal.Hand

end
-- ==== Proof.Spec.lean ====
/-
  What the two programs compute, as functions of the two input arrays read as extended reals.

  Inputs: the features `f[b, d]` (1024 × 1024) and the cluster centres `w[c, k, d]` (1000 × 4 × 1024).
  Squared distances by the expansion |x − y|² = |x|² + |y|² − 2 x·y, clamped at 0 from below:
    `dn b c k = max (|f_b|² + |w_ck|² − 2 f_b·w_ck) 0`,   `wn p q = max (|w_p|² + |w_q|² − 2 w_p·w_q) 0`.
  The first 1000 columns of the result hold `max_k exp (−dn b c k / 10)`; the last column holds a scalar, the same in
  every row: with `T g = ∑_{i ≤ j} g i j` the sum over the upper triangle (diagonal included) of a 4000 × 4000
  table, `μ = δ · T wn` and the scalar is `δ · T ((wn − μ)²)`. The two programs number the 4000 centre rows
  differently (centre-major `4 c + k` against slot-major `1000 k + c`), and one of them expands the square:
  `δ · (T wn² − 2 μ · T wn + μ² · n)` with `n` the number of pairs `i ≤ j`.
-/
import Idealize.ShloMosaic.PureOps.Ideal
import Idealize.ShloMosaic.Lib.ValueIdx

noncomputable section

namespace Cert.Spec

open Idealize.ShloMosaic Idealize.ShloMosaic.ValueIdx

/-- The features, the centres, the result: arrays of extended reals over literal shapes. -/
abbrev AF : Type := (⟨2, ![1024, 1024]⟩ : Shape).Idx → EReal
abbrev AW : Type := (⟨3, ![1000, 4, 1024]⟩ : Shape).Idx → EReal
abbrev AO : Type := (⟨2, ![1024, 1001]⟩ : Shape).Idx → EReal

/-- The float literals both programs carry, as the extended reals their words denote. -/
def two : EReal := Ideal.ofBits .f32 0x40000000#32
def ten : EReal := Ideal.ofBits .f32 0x41200000#32
def one : EReal := Ideal.ofBits .f32 0x3F800000#32
/-- δ, the word of 2 / (4000² − 4000) rounded to binary32. -/
def delta : EReal := Ideal.ofBits .f32 0x34064055#32
/-- n = 4000 · 4001 / 2 = 8002000, the number of pairs i ≤ j. -/
def npairs : EReal := Ideal.ofBits .f32 0x4AF433A0#32

variable (f : AF) (w : AW)

/-- |f_b|². -/
def fsq (b : Fin 1024) : EReal := ∑ d : Fin 1024, f (ix2 b d) * f (ix2 b d)
/-- |w_ck|². -/
def wsq (c : Fin 1000) (k : Fin 4) : EReal := ∑ d : Fin 1024, w (ix3 c k d) * w (ix3 c k d)
/-- f_b · w_ck. -/
def fw (b : Fin 1024) (c : Fin 1000) (k : Fin 4) : EReal := ∑ d : Fin 1024, f (ix2 b d) * w (ix3 c k d)
/-- The clamped squared distance of feature row b to centre (c, k). -/
def dn (b : Fin 1024) (c : Fin 1000) (k : Fin 4) : EReal := max (fsq f b + wsq w c k - two * fw f w b c k) 0
/-- exp (−dn / 10). -/
def dk (b : Fin 1024) (c : Fin 1000) (k : Fin 4) : EReal := Ideal.exp (Ideal.div (-(dn f w b c k)) ten)
/-- The affinity of row b to cluster c: the largest over the four slots. -/
def dist (b : Fin 1024) (c : Fin 1000) : EReal := max (max (max (dk f w b c 0) (dk f w b c 1)) (dk f w b c 2)) (dk f w b c 3)

/-- A centre row: cluster and slot. -/
abbrev Row : Type := Fin 1000 × Fin 4
/-- w_p · w_q. -/
def ww (p q : Row) : EReal := ∑ d : Fin 1024, w (ix3 p.1 p.2 d) * w (ix3 q.1 q.2 d)
/-- The clamped squared distance between two centre rows. -/
def wn (p q : Row) : EReal := max (wsq w p.1 p.2 + wsq w q.1 q.2 - two * ww w p q) 0

/-- Slot-major numbering of the centre rows: i = 1000 k + c. -/
def rowK (i : Fin 4000) : Row := (⟨i.val % 1000, Nat.mod_lt _ (by norm_num)⟩, ⟨i.val / 1000, by have := i.isLt; omega⟩)
/-- Centre-major numbering of the centre rows: i = 4 c + k. -/
def rowR (i : Fin 4000) : Row := (⟨i.val / 4, by have := i.isLt; omega⟩, ⟨i.val % 4, Nat.mod_lt _ (by norm_num)⟩)

/-- The sum of a 4000 × 4000 table over its upper triangle, the diagonal included. -/
def triSum (g : Fin 4000 → Fin 4000 → EReal) : EReal := ∑ i : Fin 4000, ∑ j : Fin 4000, if i ≤ j then g i j else 0

/-- Slot-major side: the triangle sums of wn and of wn², the mean, and the expanded scalar. -/
def S1K : EReal := triSum fun i j => wn w (rowK i) (rowK j)
def S2K : EReal := triSum fun i j => wn w (rowK i) (rowK j) * wn w (rowK i) (rowK j)
def muK : EReal := delta * S1K w
def rwK : EReal := delta * (S2K w - two * muK w * S1K w + muK w * muK w * npairs)

/-- Centre-major side: the triangle sum of wn, the mean, and the scalar as a sum of squared deviations. -/
def S1R : EReal := triSum fun i j => wn w (rowR i) (rowR j)
def muR : EReal := delta * S1R w
def rwR : EReal := delta * triSum fun i j => (wn w (rowR i) (rowR j) - muR w) * (wn w (rowR i) (rowR j) - muR w)

/-- The result with the expanded scalar (slot-major numbering). -/
def GK : AO := fun j => if h : (j 1).val < 1000 then dist f w (j 0) ⟨(j 1).val, h⟩ else one * rwK w
/-- The result with the scalar as a sum of squared deviations (centre-major numbering). -/
def GR : AO := fun j => if h : (j 1).val < 1000 then dist f w (j 0) ⟨(j 1).val, h⟩ else one * rwR w

/-- Every entry is a real number. -/
def Finite2 (f : AF) : Prop := ∀ i, ∃ r : ℝ, f i = (r : EReal)
def Finite3 (w : AW) : Prop := ∀ i, ∃ r : ℝ, w i = (r : EReal)

end Cert.Spec

end
-- ==== Proof.Consts.lean ====
/-
  The float literals of the specification, read as extended reals.

  A binary32 word has a sign bit, an exponent field E of 8 bits (bias 127) and a fraction field T of 23 bits. With
  0 < E < 255 it denotes the normal number ±(2^23 + T) · 2^(E − 150), a real; E = 255 with T = 0 denotes ±∞; the
  all-zero word denotes 0. Each statement below evaluates one word this way, once, so that the rest of the proof
  reads the literals as the numbers they are and never opens the decoding again.
-/
import Idealize.ShloMosaic.PureOps.Ideal
import Idealize.ShloMosaic.PureOps.Ideal.Laws
import proofs.«411617_j1520418423399_3_alg».proof.Proof.Spec

noncomputable section

namespace Cert.Spec

open Idealize.ShloMosaic

/-- 0x40000000: sign +, E = 128, T = 0, so 2^23 · 2^(128 − 150) = 2^23 / 2^22 = 2. -/
theorem two_eq : two = ((2 : ℝ) : EReal) := by
  unfold two
  simp [Ideal.ofBits, Ideal.ieee, -EReal.coe_mul]
  norm_num

/-- 0x4AF433A0: sign +, E = 149, T = 0x7433A0 = 7615392, so (8388608 + 7615392) · 2^(149 − 150) = 16004000 / 2
    = 8002000, the number of pairs i ≤ j among 4000 rows; it is a binary32 number exactly. -/
theorem npairs_eq : npairs = ((8002000 : ℝ) : EReal) := by
  unfold npairs
  simp [Ideal.ofBits, Ideal.ieee, -EReal.coe_mul]
  norm_num

/-- 0x34064055: sign +, E = 104, T = 0x064055. As 0 < 104 < 255 the word is a normal number, hence a real:
    (2^23 + T) · 2^(104 − 150). Its value is not needed, only that it is finite. -/
theorem delta_real : ∃ r : ℝ, delta = (r : EReal) := by
  unfold delta
  simp [Ideal.ofBits, Ideal.ieee, -EReal.coe_mul]

/-- 0x3F800000: sign +, E = 127, T = 0, so 2^23 · 2^(127 − 150) = 2^23 / 2^23 = 1. -/
theorem one_eq : one = ((1 : ℝ) : EReal) := by
  unfold one
  simp [Ideal.ofBits, Ideal.ieee, -EReal.coe_mul]
  norm_num

/-- 0x41200000: sign +, E = 130, T = 0x200000. As 0 < 130 < 255 the word is a normal number, hence a real
    (it is (2^23 + 2^21) · 2^(130 − 150) = 10). Only its finiteness is stated. -/
theorem ten_real : ∃ r : ℝ, ten = (r : EReal) := by
  unfold ten
  simp [Ideal.ofBits, Ideal.ieee, -EReal.coe_mul]

/-- The all-zero word: E = 0 and T = 0, the subnormal 0 · 2^(−149) = 0. -/
theorem zero_eq : Ideal.ofBits .f32 0x00000000#32 = (0 : EReal) := Ideal.ofBits_zero_f32

/-- 0xFF800000: sign −, E = 255, T = 0: the negative infinity, the bottom of the extended reals. -/
theorem ninf_eq : Ideal.ofBits .f32 0xFF800000#32 = (⊥ : EReal) := by
  simp [Ideal.ofBits, Ideal.ieee]

end Cert.Spec

end
-- ==== Proof.LibConcatCols.lean ====
/-
  A two-piece concatenation along the column axis, read at an index.

  A matrix of `m` rows and `n + 1` columns made by putting one extra column `b` to the right of an `m × n` matrix
  `a` holds, at row `r` and column `j`, the entry `a r j` when `j < n` and the entry `b r 0` in the last column.
  Stated for any element type and any proof of the shapes' side condition, first for arbitrary extents and then at
  the extents 1024 × 1000 and 1024 × 1 the two programs of this certificate end with.
-/
import Idealize.ShloMosaic.Lib.Pipeline.Value
import Idealize.ShloMosaic.Lib.ValueIdx

namespace Cert.Lib

open Idealize.ShloMosaic Idealize.ShloMosaic.ValueIdx

/-- Columns `0 … n − 1` of `[a | b]` are `a`'s, column `n` is `b`'s only column: for every row `r` and column `j`,
    `[a | b] r j = a r j` if `j < n`, and `b r 0` otherwise. -/
theorem concatenate_cols_apply {α : Type} {m n : Nat} (a : (⟨2, ![m, n]⟩ : Shape).Idx → α) (b : (⟨2, ![m, 1]⟩ : Shape).Idx → α)
    (h : Shape.Concatenates [(⟨2, ![m, n]⟩ : Shape), (⟨2, ![m, 1]⟩ : Shape)] (⟨2, ![m, n + 1]⟩ : Shape) 1)
    (r : Fin m) (j : Fin (n + 1)) :
    concatenate (⟨2, ![m, n + 1]⟩ : Shape) 1 [⟨(⟨2, ![m, n]⟩ : Shape), a⟩, ⟨(⟨2, ![m, 1]⟩ : Shape), b⟩] h (ix2 r j)
      = if hj : j.val < n then a (ix2 r ⟨j.val, hj⟩) else b (ix2 r 0) := by
  by_cases hj : j.val < n
  · -- the column lies in the first piece: same row, same column
    rw [dif_pos hj]
    exact concatenate_pair_apply_left (1 : Fin 2) a b h (ix2 r j) rfl (ix2 r ⟨j.val, hj⟩) (fun c =>
      match c with
      | ⟨0, _⟩ => rfl
      | ⟨1, _⟩ => rfl)
  · -- the column is the last one: same row, column `n − n = 0` of the second piece
    rw [dif_neg hj]
    have hjn : j.val = n := by have := j.isLt; omega
    exact concatenate_pair_apply_right (1 : Fin 2) a b h (ix2 r j) rfl rfl (ix2 r 0) (fun c hc =>
      match c, hc with
      | ⟨0, _⟩, _ => rfl
      | ⟨1, _⟩, hc => absurd rfl hc) (by
        show (0 : Nat) + n = j.val
        omega)

/-- The same at the extents 1024 × 1000 and 1024 × 1: the result's first 1000 columns are `a`'s, its last column is `b`'s. -/
theorem concatenate_1024x1000_1024x1_apply {α : Type} (a : (⟨2, ![1024, 1000]⟩ : Shape).Idx → α) (b : (⟨2, ![1024, 1]⟩ : Shape).Idx → α)
    (h : Shape.Concatenates [(⟨2, ![1024, 1000]⟩ : Shape), (⟨2, ![1024, 1]⟩ : Shape)] (⟨2, ![1024, 1001]⟩ : Shape) 1)
    (r : Fin 1024) (j : Fin 1001) :
    concatenate (⟨2, ![1024, 1001]⟩ : Shape) 1 [⟨(⟨2, ![1024, 1000]⟩ : Shape), a⟩, ⟨(⟨2, ![1024, 1]⟩ : Shape), b⟩] h (ix2 r j)
      = if hj : j.val < 1000 then a (ix2 r ⟨j.val, hj⟩) else b (ix2 r 0) :=
  concatenate_cols_apply (m := 1024) (n := 1000) a b h r j

end Cert.Lib
-- ==== Proof.KI.HostGlue.lean ====
/-
  The host operations around the two kernel regions, read entry by entry at the extended reals.

  Before the first region the program prepares, from the features `f[b, d]` (1024 × 1024) and the centres
  `w[c, k, d]` (1000 × 4 × 1024): the features themselves (a change of number format, the identity here); the column of
  squared norms `|f_b|² = 0 + ∑_d f[b, d]²`; the centres with the first two axes exchanged, `(k, c, d) ↦ w[c, k, d]`,
  once padded from 1000 to 1024 rows on the middle axis and once read as 4000 rows, row `i = 1000 k + c`; and the
  centres' squared norms `|w_ck|² = 0 + ∑_d w[c, k, d]²` laid out slot-major three ways: a 4 × 1024 table (padded), a
  column of 4000 and a row of 4000. Between the regions the first 1000 columns of the first region's result are cut
  out. After the second region, two tiles each carry two partial sums at entries (0, 0) and (8, 0); with `s₁`, `s₂` the
  two pair sums and `μ = δ s₁`, the scalar `1 · (δ · (s₂ − 2 μ s₁ + μ μ n))` is placed in a last column to the right of
  those 1000 columns.

  Each statement below reads one of these arrays at an index given by its coordinates. The layout operations are read by
  naming the operand's index and checking the coordinates' arithmetic; the sums are the host's sum along one axis
  from the initial value 0; a buffer that a stretch of operations does not write keeps its contents.
-/
import proofs.«411617_j1520418423399_3_alg».proof.Proof.Spec
import proofs.«411617_j1520418423399_3_alg».proof.Proof.Consts
import proofs.«411617_j1520418423399_3_alg».proof.Proof.LibConcatCols
import proofs.«411617_j1520418423399_3_alg».proof.Proof.Gen.KernelIdeal.Regions
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.KernelIdeal.HandV

open Cert.KernelIdeal Cert.KernelIdeal.Gen
open Idealize.ShloMosaic Idealize.ShloMosaic.TcCoe Idealize.SL.Sem Idealize.ShloMosaic.StableHlo
open Idealize.ShloMosaic.ValueIdx

/-! ## The host operations of the prologue, each read at an index, for arbitrary arrays of the program's shapes -/

section AtIndex
variable {α : Type}

/-- The host sum over the columns of the squares of a 1024 × 1024 matrix, from the initial value 0: at row `b` it is
    `∑ d, x b d * x b d`. -/
theorem rowSumSq_apply (x : FVec Ideal S1024x1024 .f32) (b : Fin 1024) :
    (Host.reduceAdd (F := Ideal) (mulf x x) (constant (F := Ideal) S_ .f32 0x00000000#32) reducesTo_S1024x1024_S1024_d1 h_S_
        : S1024.Idx → EReal) (ix1 b)
      = ∑ d : Fin 1024, x (ix2 b d) * x (ix2 b d) := by
  rw [hostReduceAdd_apply, Ideal.hostReduceAdd_single reducesTo_S1024x1024_S1024_d1 (by decide), constant_apply,
    Cert.Spec.zero_eq, zero_add]
  refine Finset.sum_congr rfl fun d _ => ?_
  rw [mulf_apply]
  have e : (Shape.Reduces.lift (s := S1024x1024) (t := S1024) (a := 1) (by decide) (ix1 b) d : S1024x1024.Idx) = ix2 b d :=
    funext fun a => Fin.ext (by match a with | ⟨0, _⟩ => rfl | ⟨1, _⟩ => rfl)
  rw [e]
  rfl

/-- The host sum over the last axis of the squares of a 1000 × 4 × 1024 array, from the initial value 0: at `(p, k)` it
    is `∑ d, x p k d * x p k d`. -/
theorem lastSumSq_apply (x : FVec Ideal S1000x4x1024 .f32) (p : Fin 1000) (k : Fin 4) :
    (Host.reduceAdd (F := Ideal) (mulf x x) (constant (F := Ideal) S_ .f32 0x00000000#32) reducesTo_S1000x4x1024_S1000x4_d2 h_S_
        : S1000x4.Idx → EReal) (ix2 p k)
      = ∑ d : Fin 1024, x (ix3 p k d) * x (ix3 p k d) := by
  rw [hostReduceAdd_apply, Ideal.hostReduceAdd_single reducesTo_S1000x4x1024_S1000x4_d2 (by decide), constant_apply,
    Cert.Spec.zero_eq, zero_add]
  refine Finset.sum_congr rfl fun d _ => ?_
  rw [mulf_apply]
  have e : (Shape.Reduces.lift (s := S1000x4x1024) (t := S1000x4) (a := 2) (by decide) (ix2 p k) d : S1000x4x1024.Idx) = ix3 p k d :=
    funext fun a => Fin.ext (by match a with | ⟨0, _⟩ => rfl | ⟨1, _⟩ => rfl | ⟨2, _⟩ => rfl)
  rw [e]
  rfl

/-- A vector of 1024 entries laid out as a column: entry `(b, 0)` is entry `b`. -/
theorem column_apply (y : S1024.Idx → α) (b : Fin 1024) :
    broadcastInDim S1024x1 ![0] bcast_S1024_S1024x1_0 y (ix2 b 0) = y (ix1 b) :=
  broadcastInDim_apply _ bcast_S1024_S1024x1_0 y (ix2 b 0) (ix1 b) (fun a => match a with
    | ⟨0, _⟩ => by show b.val = if (1024 : Nat) = 1 then 0 else b.val; rw [if_neg (by decide)])

/-- The centres with the first two axes exchanged: entry `(k, p, d)` is entry `(p, k, d)` of the operand. -/
theorem swap01_apply (x : S1000x4x1024.Idx → α) (k : Fin 4) (p : Fin 1000) (d : Fin 1024) :
    transpose S4x1000x1024 [1, 0, 2] x transposes_S1000x4x1024_S4x1000x1024_1_0_2 (ix3 k p d) = x (ix3 p k d) :=
  transpose_apply _ x transposes_S1000x4x1024_S4x1000x1024_1_0_2 (ix3 k p d) (ix3 p k d) fun b => match b with
    | ⟨0, _⟩ => rfl | ⟨1, _⟩ => rfl | ⟨2, _⟩ => rfl

/-- A 4 × 1000 × 1024 array read as 4000 rows of 1024: row `i` is slot `i / 1000`, centre `i % 1000`. -/
theorem rows4000_apply (x : S4x1000x1024.Idx → α) (i : Fin 4000) (d : Fin 1024) :
    shapeCast S4000x1024 x shapeCasts_S4x1000x1024_S4000x1024 (ix2 i d)
      = x (ix3 (⟨i.val / 1000, by have := i.isLt; omega⟩ : Fin 4) (⟨i.val % 1000, Nat.mod_lt _ (by norm_num)⟩ : Fin 1000) d) :=
  shapeCast_apply x shapeCasts_S4x1000x1024_S4000x1024 _ _ (by
    rw [Shape.rowMajor_val_three, Shape.rowMajor_val_two]
    show (i.val / 1000 * 1000 + i.val % 1000) * 1024 + d.val = i.val * 1024 + d.val
    have := Nat.div_add_mod i.val 1000
    omega)

/-- A 4 × 1000 table read as a vector of 4000: entry `i` is entry `(i / 1000, i % 1000)`. -/
theorem flat4000_apply (y : S4x1000.Idx → α) (i : Fin 4000) :
    shapeCast S4000 y shapeCasts_S4x1000_S4000 (ix1 i)
      = y (ix2 (⟨i.val / 1000, by have := i.isLt; omega⟩ : Fin 4) (⟨i.val % 1000, Nat.mod_lt _ (by norm_num)⟩ : Fin 1000)) :=
  shapeCast_apply y shapeCasts_S4x1000_S4000 _ _ (by
    rw [Shape.rowMajor_val_two, Shape.rowMajor_val_one]
    show i.val / 1000 * 1000 + i.val % 1000 = i.val
    have := Nat.div_add_mod i.val 1000
    omega)

/-- A vector of 4000 read as a column: entry `(i, 0)` is entry `i`. -/
theorem col4000_apply (z : S4000.Idx → α) (i : Fin 4000) :
    shapeCast S4000x1 z shapeCasts_S4000_S4000x1 (ix2 i 0) = z (ix1 i) :=
  shapeCast_apply z shapeCasts_S4000_S4000x1 _ _ (by
    rw [Shape.rowMajor_val_one, Shape.rowMajor_val_two]
    show i.val = i.val * 1 + 0
    omega)

/-- A vector of 4000 read as a row: entry `(0, j)` is entry `j`. -/
theorem row4000_apply (z : S4000.Idx → α) (j : Fin 4000) :
    shapeCast S1x4000 z shapeCasts_S4000_S1x4000 (ix2 0 j) = z (ix1 j) :=
  shapeCast_a_1a_apply z shapeCasts_S4000_S1x4000 0 j

/-- The 4 × 1000 × 1024 array padded with 24 more rows on its middle axis: inside the first 1000 rows it is the
    operand. -/
theorem padRows3_apply (x : S4x1000x1024.Idx → α) {u : Shape} (v : u.Idx → α) (hu : 0 < u.numel)
    (k : Fin 4) (p : Fin 1024) (d : Fin 1024) (h : p.val < 1000) :
    pad S4x1024x1024 ![0, 0, 0] ![0, 24, 0] ![0, 0, 0] x v pads_S4x1000x1024_S4x1024x1024_000_0240_000 hu (ix3 k p d)
      = x (ix3 k ⟨p.val, h⟩ d) :=
  pad_apply_of_inside _ _ _ x v pads_S4x1000x1024_S4x1024x1024_000_0240_000 hu (ix3 k p d) (ix3 k ⟨p.val, h⟩ d) fun a =>
    match a with
    | ⟨0, _⟩ => by show k.val = 0 + k.val * (0 + 1); omega
    | ⟨1, _⟩ => by show p.val = 0 + p.val * (0 + 1); omega
    | ⟨2, _⟩ => by show d.val = 0 + d.val * (0 + 1); omega

/-- The 4 × 1000 table padded with 24 more columns: inside the first 1000 columns it is the operand. -/
theorem padCols2_apply (y : S4x1000.Idx → α) {u : Shape} (v : u.Idx → α) (hu : 0 < u.numel)
    (k : Fin 4) (p : Fin 1024) (h : p.val < 1000) :
    pad S4x1024 ![0, 0] ![0, 24] ![0, 0] y v pads_S4x1000_S4x1024_000_0240 hu (ix2 k p) = y (ix2 k ⟨p.val, h⟩) :=
  pad_apply_of_inside _ _ _ y v pads_S4x1000_S4x1024_000_0240 hu (ix2 k p) (ix2 k ⟨p.val, h⟩) fun a =>
    match a with
    | ⟨0, _⟩ => by show k.val = 0 + k.val * (0 + 1); omega
    | ⟨1, _⟩ => by show p.val = 0 + p.val * (0 + 1); omega

end AtIndex

/-- Entry `(0, 0)` of a 16 × 128 tile, cut out as a 1 × 1 block and read as a scalar. -/
theorem pick0_apply {α : Type} (x : S16x128.Idx → α) :
    shapeCast S_ (extractStridedSlice S1x1 ![0, 0] x slices_S16x128_S1x1_0_0) shapeCasts_S1x1_S_ ix0
      = x (ix2 (0 : Fin 16) (0 : Fin 128)) :=
  (shapeCast_apply _ shapeCasts_S1x1_S_ ix0 (ix2 (0 : Fin 1) (0 : Fin 1)) (by
    rw [Shape.rowMajor_val_two]
    have h := (S_.rowMajor ix0).isLt
    have h1 : S_.numel = 1 := by decide
    show 0 * 1 + 0 = _
    omega)).trans
  (extractStridedSlice_apply ![0, 0] x slices_S16x128_S1x1_0_0 (ix2 (0 : Fin 1) (0 : Fin 1)) (ix2 (0 : Fin 16) (0 : Fin 128))
    fun a => match a with | ⟨0, _⟩ => rfl | ⟨1, _⟩ => rfl)

/-- Entry `(8, 0)` of a 16 × 128 tile, cut out as a 1 × 1 block and read as a scalar. -/
theorem pick8_apply {α : Type} (x : S16x128.Idx → α) :
    shapeCast S_ (extractStridedSlice S1x1 ![8, 0] x slices_S16x128_S1x1_8_0) shapeCasts_S1x1_S_ ix0
      = x (ix2 (8 : Fin 16) (0 : Fin 128)) :=
  (shapeCast_apply _ shapeCasts_S1x1_S_ ix0 (ix2 (0 : Fin 1) (0 : Fin 1)) (by
    rw [Shape.rowMajor_val_two]
    have h := (S_.rowMajor ix0).isLt
    have h1 : S_.numel = 1 := by decide
    show 0 * 1 + 0 = _
    omega)).trans
  (extractStridedSlice_apply ![8, 0] x slices_S16x128_S1x1_8_0 (ix2 (0 : Fin 1) (0 : Fin 1)) (ix2 (8 : Fin 16) (0 : Fin 128))
    fun a => match a with | ⟨0, _⟩ => rfl | ⟨1, _⟩ => rfl)

/-- The first 1000 columns of a 1024 × 1024 matrix. -/
theorem first1000_apply {α : Type} (x : S1024x1024.Idx → α) (b : Fin 1024) (p : Fin 1000) :
    extractStridedSlice S1024x1000 ![0, 0] x slices_S1024x1024_S1024x1000_0_0 (ix2 b p)
      = x (ix2 b (⟨p.val, by have := p.isLt; omega⟩ : Fin 1024)) :=
  extractStridedSlice_apply ![0, 0] x slices_S1024x1024_S1024x1000_0_0 (ix2 b p) (ix2 b ⟨p.val, by have := p.isLt; omega⟩)
    fun a => match a with
    | ⟨0, _⟩ => by show b.val = 0 + b.val; omega
    | ⟨1, _⟩ => by show p.val = 0 + p.val; omega

/-! ## The epilogue's scalar, for arbitrary tiles -/

/-- The two partial sums a 16 × 128 tile carries, at its entries `(0, 0)` and `(8, 0)`, added. -/
abbrev tilePair (x : S16x128.Idx → EReal) : EReal := x (ix2 (0 : Fin 16) (0 : Fin 128)) + x (ix2 (8 : Fin 16) (0 : Fin 128))

/-- The same as the host computes it: two 1 × 1 slices, each read as a scalar, added. -/
def pairSum (x : FVec Ideal S16x128 .f32) : FVec Ideal S_ .f32 :=
  addf (shapeCast S_ (extractStridedSlice S1x1 ![0, 0] x slices_S16x128_S1x1_0_0) shapeCasts_S1x1_S_)
    (shapeCast S_ (extractStridedSlice S1x1 ![8, 0] x slices_S16x128_S1x1_8_0) shapeCasts_S1x1_S_)

theorem pairSum_apply (x : FVec Ideal S16x128 .f32) : pairSum x ix0 = tilePair x :=
  congrArg₂ (· + ·) (pick0_apply x) (pick8_apply x)

/-- The last column as the host computes it from the two tiles `x0` (sums of distances) and `x1` (sums of squared
    distances): with `s₁`, `s₂` the tiles' pair sums and `μ = δ s₁`, every entry is `1 · (δ · (s₂ − 2 μ s₁ + μ μ n))`. -/
def lastCol (x0 x1 : FVec Ideal S16x128 .f32) : FVec Ideal S1024x1 .f32 :=
  mulf (broadcastInDim S1024x1 ![] bcast_S_S1024x1 (constant (F := Ideal) S_ .f32 0x3F800000#32))
    (broadcastInDim S1024x1 ![] bcast_S_S1024x1
      (mulf (constant (F := Ideal) S_ .f32 0x34064055#32)
        (addf
          (subf (pairSum x1)
            (mulf (mulf (constant (F := Ideal) S_ .f32 0x40000000#32) (mulf (constant (F := Ideal) S_ .f32 0x34064055#32) (pairSum x0))) (pairSum x0)))
          (mulf (mulf (mulf (constant (F := Ideal) S_ .f32 0x34064055#32) (pairSum x0)) (mulf (constant (F := Ideal) S_ .f32 0x34064055#32) (pairSum x0)))
            (constant (F := Ideal) S_ .f32 0x4AF433A0#32)))))

theorem lastCol_apply (x0 x1 : FVec Ideal S16x128 .f32) (b : Fin 1024) :
    lastCol x0 x1 (ix2 b 0)
      = Cert.Spec.one * (Cert.Spec.delta * (tilePair x1 - Cert.Spec.two * (Cert.Spec.delta * tilePair x0) * tilePair x0
          + (Cert.Spec.delta * tilePair x0) * (Cert.Spec.delta * tilePair x0) * Cert.Spec.npairs)) := by
  unfold lastCol
  rw [mulf_apply, broadcastInDim_scalar_apply, broadcastInDim_scalar_apply]
  show Cert.Spec.one * (Cert.Spec.delta * (pairSum x1 ix0 - Cert.Spec.two * (Cert.Spec.delta * pairSum x0 ix0) * pairSum x0 ix0
          + (Cert.Spec.delta * pairSum x0 ix0) * (Cert.Spec.delta * pairSum x0 ix0) * Cert.Spec.npairs)) = _
  rw [pairSum_apply, pairSum_apply]

/-- The centres' squared norms as the host computes them: the squares summed over the last axis, from 0. -/
abbrev sqNorms (x : FVec Ideal S1000x4x1024 .f32) : FVec Ideal S1000x4 .f32 :=
  Host.reduceAdd (F := Ideal) (mulf x x) (constant (F := Ideal) S_ .f32 0x00000000#32) reducesTo_S1000x4x1024_S1000x4_d2 h_S_

/-! ## The arguments -/

variable (m : (ℓ : Loc nD τ sig) → Buf (Elt Ideal) ℓ) (c : Dev nD)

/-- The features at launch. -/
abbrev fArr : Cert.Spec.AF := m ((c.tc : Thread nD τ).loc main_arg0)
/-- The centres at launch. -/
abbrev wArr : Cert.Spec.AW := m ((c.tc : Thread nD τ).loc main_arg1)

/-! ## The contents when region 0 is entered -/

/-- The features in the narrower number format are the features: entry `(b, d)` is `f[b, d]`. -/
theorem pre_v0 (b d : Fin 1024) :
    (V4 m c main_v0 : S1024x1024.Idx → EReal) (ix2 b d) = fArr m c (ix2 b d) := by
  rw [V4_of m c main_v0 (by decide), V3_of m c main_v0 (by decide), V2_of m c main_v0 (by decide)]
  dsimp only [V1, hostOps0]
  after_results
  all_goals rfl

/-- The column of the features' squared norms: entry `(b, 0)` is `|f_b|² = ∑_d f[b, d]²`. -/
theorem pre_v3 (b : Fin 1024) :
    (V4 m c main_v3 : S1024x1.Idx → EReal) (ix2 b 0) = Cert.Spec.fsq (fArr m c) b := by
  rw [V4_of m c main_v3 (by decide), V3_of m c main_v3 (by decide), V2_of m c main_v3 (by decide)]
  dsimp only [V1, hostOps0]
  after_results
  refine (column_apply _ b).trans ?_
  exact rowSumSq_apply (fArr m c) b

/-- The exchanged and padded centres, inside the first 1000 rows of the middle axis: entry `(k, c', d)` is
    `w[c', k, d]`. -/
theorem pre_v13 (k : Fin 4) (c' : Fin 1024) (d : Fin 1024) (h : c'.val < 1000) :
    (V4 m c main_v13 : S4x1024x1024.Idx → EReal) (ix3 k c' d) = wArr m c (ix3 ⟨c'.val, h⟩ k d) := by
  rw [V4_of m c main_v13 (by decide), V3_of m c main_v13 (by decide)]
  dsimp only [V2, hostOps0_1]
  after_results
  refine (padRows3_apply _ _ h_S_ k c' d h).trans ?_
  exact swap01_apply (wArr m c) k ⟨c'.val, h⟩ d

/-- The padded table of the centres' squared norms, inside its first 1000 columns: entry `(k, c')` is `|w_c'k|²`. -/
theorem pre_v14 (k : Fin 4) (c' : Fin 1024) (h : c'.val < 1000) :
    (V4 m c main_v14 : S4x1024.Idx → EReal) (ix2 k c') = Cert.Spec.wsq (wArr m c) ⟨c'.val, h⟩ k := by
  dsimp only [V4, hostOps0_3]
  after_results
  refine (padCols2_apply _ _ h_S_ k c' h).trans ?_
  refine (transpose_ix2_apply (sqNorms (wArr m c)) transposes_S1000x4_S4x1000_1_0 k ⟨c'.val, h⟩).trans ?_
  exact lastSumSq_apply (wArr m c) ⟨c'.val, h⟩ k

/-- The exchanged centres as 4000 rows: row `i = 1000 k + c` is the centre row `(c, k)`. -/
theorem pre_v6 (i : Fin 4000) (d : Fin 1024) :
    (V4 m c main_v6 : S4000x1024.Idx → EReal) (ix2 i d)
      = wArr m c (ix3 (Cert.Spec.rowK i).1 (Cert.Spec.rowK i).2 d) := by
  rw [V4_of m c main_v6 (by decide), V3_of m c main_v6 (by decide), V2_of m c main_v6 (by decide)]
  dsimp only [V1, hostOps0]
  after_results
  refine (rows4000_apply _ i d).trans ?_
  exact swap01_apply (wArr m c) _ _ d

/-- The centres' squared norms as a column, slot-major: entry `(i, 0)` is the squared norm of row `i = 1000 k + c`. -/
theorem pre_v11 (i : Fin 4000) :
    (V4 m c main_v11 : S4000x1.Idx → EReal) (ix2 i 0)
      = Cert.Spec.wsq (wArr m c) (Cert.Spec.rowK i).1 (Cert.Spec.rowK i).2 := by
  rw [V4_of m c main_v11 (by decide), V3_of m c main_v11 (by decide), V2_of m c main_v11 (by decide)]
  dsimp only [V1, hostOps0]
  after_results
  refine (col4000_apply _ i).trans ?_
  refine (flat4000_apply _ i).trans ?_
  refine (transpose_ix2_apply (sqNorms (wArr m c)) transposes_S1000x4_S4x1000_1_0 _ _).trans ?_
  exact lastSumSq_apply (wArr m c) _ _

/-- The centres' squared norms as a row, slot-major: entry `(0, j)` is the squared norm of row `j = 1000 k + c`. -/
theorem pre_v12 (j : Fin 4000) :
    (V4 m c main_v12 : S1x4000.Idx → EReal) (ix2 0 j)
      = Cert.Spec.wsq (wArr m c) (Cert.Spec.rowK j).1 (Cert.Spec.rowK j).2 := by
  rw [V4_of m c main_v12 (by decide), V3_of m c main_v12 (by decide), V2_of m c main_v12 (by decide)]
  dsimp only [V1, hostOps0]
  after_results
  refine (row4000_apply _ j).trans ?_
  refine (flat4000_apply _ j).trans ?_
  refine (transpose_ix2_apply (sqNorms (wArr m c)) transposes_S1000x4_S4x1000_1_0 _ _).trans ?_
  exact lastSumSq_apply (wArr m c) _ _

/-! ## Between the two regions, and after the second: over any valuation -/

variable (W : Valuation τ sig (Elt Ideal))

/-- Between the regions the first 1000 columns of `main_v15` are cut out: entry `(b, c')` is `main_v15[b, c']`. -/
theorem mid_v16 (b : Fin 1024) (c' : Fin 1000) :
    (StableHlo.after hostOps1 W main_v16 : S1024x1000.Idx → EReal) (ix2 b c')
      = (W main_v15 : S1024x1024.Idx → EReal) (ix2 b (⟨c'.val, by have := c'.isLt; omega⟩ : Fin 1024)) := by
  dsimp only [hostOps1]
  after_results
  exact first1000_apply _ b c'

/-- The stretch between the regions writes `main_v16` only. -/
theorem mid_kept (r : Ref sig .tc) (h : r ∉ hostOps1_W) : StableHlo.after hostOps1 W r = W r :=
  StableHlo.after_of_writes_sub hostOps1 _ hostOps1_writes h

/-- In particular the 4000 centre rows and the two layouts of their squared norms are kept. -/
theorem mid_kept_v6 : StableHlo.after hostOps1 W main_v6 = W main_v6 := mid_kept W main_v6 (by decide)
theorem mid_kept_v11 : StableHlo.after hostOps1 W main_v11 = W main_v11 := mid_kept W main_v11 (by decide)
theorem mid_kept_v12 : StableHlo.after hostOps1 W main_v12 = W main_v12 := mid_kept W main_v12 (by decide)

/-- The result: its first 1000 columns are `main_v16`'s; its last column holds, in every row, the scalar
    `1 · (δ · (s₂ − 2 (δ s₁) s₁ + (δ s₁)(δ s₁) n))` of the two tiles' pair sums `s₁` (of `main_v17_0`) and `s₂` (of `main_v17_1`). -/
theorem tail_v39 (b : Fin 1024) (j : Fin 1001) :
    (StableHlo.after hostOps2 W main_v39 : S1024x1001.Idx → EReal) (ix2 b j)
      = if h : j.val < 1000 then (W main_v16 : S1024x1000.Idx → EReal) (ix2 b ⟨j.val, h⟩)
        else Cert.Spec.one * (Cert.Spec.delta * (tilePair (W main_v17_1)
            - Cert.Spec.two * (Cert.Spec.delta * tilePair (W main_v17_0)) * tilePair (W main_v17_0)
            + (Cert.Spec.delta * tilePair (W main_v17_0)) * (Cert.Spec.delta * tilePair (W main_v17_0)) * Cert.Spec.npairs)) := by
  have e : @Eq (S1024x1001.Idx → EReal) (StableHlo.after hostOps2 W main_v39)
      (concatenate S1024x1001 1 [⟨S1024x1000, (W main_v16 : S1024x1000.Idx → EReal)⟩,
        ⟨S1024x1, lastCol (W main_v17_0) (W main_v17_1)⟩] concatenates_S1024x1000_S1024x1_S1024x1001_d1) := by
    dsimp only [hostOps2]
    after_results_simp
    all_goals rfl
  rw [e, Cert.Lib.concatenate_1024x1000_1024x1_apply]
  by_cases h : j.val < 1000
  · rw [dif_pos h, dif_pos h]
  · rw [dif_neg h, dif_neg h]
    exact lastCol_apply (W main_v17_0) (W main_v17_1) b

end Cert.KernelIdeal.HandV

end
-- ==== Proof.KI.Val0Pay.lean ====
/-
  What the distance kernel's arithmetic computes at one entry of its output block, at the extended reals.

  The body reads a block of 256 feature rows f (256 × 1024), the column of their squared norms |f_r|² (256 × 1), and
  for each of four slots a slab of 1024 centre rows (1 × 1024 × 1024) with the row of their squared norms (1 × 1024).
  Per slot it forms the clamped squared distance of feature row r to centre c',
      D = max (|f_r|² + |w_c'|² − 2 · ∑_d f[r, d] · w[c', d]) 0,
  by a matrix product contracted over the last axis of both operands, a column spread over the lanes, a row spread
  over the rows, and pointwise operations; then E = exp ((0 − D) / 10), and the four slots' E are folded by max.
  The lemmas below read each non-pointwise operation at an index (r, c'), then one slot, then the chain of payloads.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«411617_j1520418423399_3_alg».proof.Proof.Spec
import proofs.«411617_j1520418423399_3_alg».proof.Proof.Gen.KernelIdeal.Skeleton

noncomputable section

namespace Cert.KernelIdeal.HandV

open Idealize.ShloMosaic Idealize.ShloMosaic.ValueIdx Cert.KernelIdeal Cert.KernelIdeal.Gen

/-! ## The matrix product of a slot: contracted over the last axis of both operands -/

theorem lhs_dot_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_dot_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_dot_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_dot_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

theorem matmul_at (a : FVec Ideal S256x1024 .bf16) (b : FVec Ideal S1024x1024 .bf16) (r : Fin 256) (c' : Fin 1024) :
    matmul dot_S256x1024_S1024x1024_S256x1024_1_1_0_0_n_n none a b (constant S256x1024 .f32 0x00000000#32) (ix2 r c')
      = ∑ d : Fin 1024, a (ix2 r d) * b (ix2 c' d) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r c') ((ValueIdx.contrEquiv1 dot_S256x1024_S1024x1024_S256x1024_1_1_0_0_n_n 1024 rfl rfl).symm k) = ix2 r k := funext fun x => Fin.ext (by
    match x with
    | ⟨0, _⟩ => exact lhs_dot_0 _ _
    | ⟨1, _⟩ => exact (lhs_dot_1 _ _).trans hk)
  have er : dot_S256x1024_S1024x1024_S256x1024_1_1_0_0_n_n.rhsIdx (ix2 r c') ((ValueIdx.contrEquiv1 dot_S256x1024_S1024x1024_S256x1024_1_1_0_0_n_n 1024 rfl rfl).symm k) = ix2 c' k := funext fun x => Fin.ext (by
    match x with
    | ⟨0, _⟩ => exact rhs_dot_0 _ _
    | ⟨1, _⟩ => exact (rhs_dot_1 _ _).trans hk)
  rw [el, er]

/-! ## The layout operations of one slot, read at an index -/

/-- A column of 256 entries spread over 1024 lanes reads, in row r, the column's entry of row r. -/
theorem column_at (v : FVec Ideal S256x1 .f32) (r : Fin 256) (c' : Fin 1024) :
    broadcastTo S256x1024 v broadcasts_S256x1_S256x1024 (ix2 r c') = v (ix2 r (0 : Fin 1)) := by
  refine broadcastTo_apply v broadcasts_S256x1_S256x1024 (ix2 r c') (ix2 r (0 : Fin 1)) fun ax => ?_
  match ax with
  | ⟨0, _⟩ =>
    show r.val = if (256 : Nat) = 1 then 0 else r.val
    rw [if_neg (by decide)]
  | ⟨1, _⟩ =>
    show 0 = if (1 : Nat) = 1 then 0 else c'.val
    rw [if_pos rfl]

/-- A row of 1024 entries, flattened and restored, then spread over 256 rows, reads its entry of lane c'. -/
theorem row_at (t : Vec Ideal S1x1024 .f32) (r : Fin 256) (c' : Fin 1024) :
    broadcastTo S256x1024 (shapeCast S1x1024 (shapeCast S1024 t shapeCasts_S1x1024_S1024) shapeCasts_S1024_S1x1024)
        broadcasts_S1x1024_S256x1024 (ix2 r c') = t (ix2 (0 : Fin 1) c') := by
  rw [shapeCast_shapeCast]
  exact broadcastTo_1b_ab_apply t broadcasts_S1x1024_S256x1024 r c'

/-- A slab [1, 1024, 1024] viewed as a matrix reads (c', d) at (0, c', d). -/
theorem slab_at (s : Vec Ideal S1x1024x1024 .bf16) (c' d : Fin 1024) :
    shapeCast S1024x1024 s shapeCasts_S1x1024x1024_S1024x1024 (ix2 c' d) = s (ix3 (0 : Fin 1) c' d) :=
  shapeCast_1ab_ab_apply s shapeCasts_S1x1024x1024_S1024x1024 c' d

/-! ## One slot -/

/-- The clamped squared distance of row r of the f block to centre c' of one slot: |f_r|² + |w|² − 2 f_r·w, at least 0. -/
def D (v0 : Vec Ideal S256x1024 .bf16) (v2 : Vec Ideal S256x1 .f32) (s : Vec Ideal S1x1024x1024 .bf16)
    (t : Vec Ideal S1x1024 .f32) (r : Fin 256) (c' : Fin 1024) : EReal :=
  max (v2 (ix2 r 0) + t (ix2 0 c') - Cert.Spec.two * ∑ d : Fin 1024, v0 (ix2 r d) * s (ix3 0 c' d)) 0

/-- exp (−D / 10). -/
def E (v0 : Vec Ideal S256x1024 .bf16) (v2 : Vec Ideal S256x1 .f32) (s : Vec Ideal S1x1024x1024 .bf16)
    (t : Vec Ideal S1x1024 .f32) (r : Fin 256) (c' : Fin 1024) : EReal :=
  Ideal.exp (Ideal.div (0 - D v0 v2 s t r c') Cert.Spec.ten)

/-- The payload of the fourth slot is the clamped squared distance, over any f block and column. -/
theorem pay7_at (v1 : FVec Ideal S256x1024 .bf16) (v3 : FVec Ideal S256x1 .f32) (s : Vec Ideal S1x1024x1024 .bf16)
    (t : Vec Ideal S1x1024 .f32) (r : Fin 256) (c' : Fin 1024) :
    k0_pay7 v1 v3 s t (ix2 r c') = D v1 v3 s t r c' := by
  unfold k0_pay7 D Cert.Spec.two
  show max (broadcastTo S256x1024 v3 broadcasts_S256x1_S256x1024 (ix2 r c')
      + broadcastTo S256x1024 (shapeCast S1x1024 (shapeCast S1024 t shapeCasts_S1x1024_S1024) shapeCasts_S1024_S1x1024)
          broadcasts_S1x1024_S256x1024 (ix2 r c')
      - Ideal.ofBits .f32 0x40000000#32
        * matmul dot_S256x1024_S1024x1024_S256x1024_1_1_0_0_n_n none v1
            (shapeCast S1024x1024 s shapeCasts_S1x1024x1024_S1024x1024) (constant S256x1024 .f32 0x00000000#32) (ix2 r c'))
      (Ideal.ofBits .f32 0x00000000#32) = _
  rw [column_at, row_at, matmul_at, Ideal.ofBits_zero_f32]
  refine congrArg (fun x => max (v3 (ix2 r 0) + t (ix2 0 c') - Ideal.ofBits .f32 0x40000000#32 * x) 0)
    (Finset.sum_congr rfl fun d _ => ?_)
  rw [slab_at]

/-- exp (−x / 10) of a vector, as the payloads write it. -/
def expNeg (x : FVec Ideal S256x1024 .f32) : FVec Ideal S256x1024 .f32 :=
  exp (divf (subf (broadcast S256x1024 (Scalar.ofBits (F := Ideal) .f32 0x00000000#32)) x)
    (broadcast S256x1024 (Scalar.ofBits (F := Ideal) .f32 0x41200000#32)))

theorem expNeg_at (x : FVec Ideal S256x1024 .f32) (i : S256x1024.Idx) :
    expNeg x i = Ideal.exp (Ideal.div (0 - x i) Cert.Spec.ten) := by
  unfold expNeg Cert.Spec.ten
  show Ideal.exp (Ideal.div (Ideal.ofBits .f32 0x00000000#32 - x i) (Ideal.ofBits .f32 0x41200000#32)) = _
  rw [Ideal.ofBits_zero_f32]

/-! ## The payloads as one another -/

theorem pay2_eq (v0 : Vec Ideal S256x1024 .bf16) : k0_pay2 v0 = v0 := by
  unfold k0_pay2
  exact shapeCast_self v0 shapeCasts_S256x1024_S256x1024

theorem pay3_eq (v2 : Vec Ideal S256x1 .f32) : k0_pay3 v2 = v2 := by
  unfold k0_pay3
  exact shapeCast_self v2 shapeCasts_S256x1_S256x1

theorem pay5_eq (v0 : Vec Ideal S256x1024 .bf16) (v2 : Vec Ideal S256x1 .f32) (s : Vec Ideal S1x1024x1024 .bf16)
    (t : Vec Ideal S1x1024 .f32) : k0_pay5 v0 v2 s t = k0_pay7 (k0_pay2 v0) (k0_pay3 v2) s t := rfl

theorem pay4_eq (v0 : Vec Ideal S256x1024 .bf16) (v2 : Vec Ideal S256x1 .f32) (s : Vec Ideal S1x1024x1024 .bf16)
    (t : Vec Ideal S1x1024 .f32) : k0_pay4 v0 v2 s t = expNeg (k0_pay7 (k0_pay2 v0) (k0_pay3 v2) s t) := rfl

theorem pay6_eq (v1 : FVec Ideal S256x1024 .bf16) (v3 : FVec Ideal S256x1 .f32) (v22 v36 : FVec Ideal S256x1024 .f32)
    (s : Vec Ideal S1x1024x1024 .bf16) (t : Vec Ideal S1x1024 .f32) :
    k0_pay6 v1 v3 v22 v36 s t = maximumf (maximumf v22 (expNeg v36)) (expNeg (k0_pay7 v1 v3 s t)) := rfl

theorem pay1_eq (v62 v76 : FVec Ideal S256x1024 .f32) : k0_pay1 v62 v76 = maximumf v62 (expNeg v76) := rfl

/-! ## The chain -/

theorem slot_at (v0 : Vec Ideal S256x1024 .bf16) (v2 : Vec Ideal S256x1 .f32) (s : Vec Ideal S1x1024x1024 .bf16)
    (t : Vec Ideal S1x1024 .f32) (r : Fin 256) (c' : Fin 1024) :
    expNeg (k0_pay7 (k0_pay2 v0) (k0_pay3 v2) s t) (ix2 r c') = E v0 v2 s t r c' := by
  rw [expNeg_at, pay2_eq, pay3_eq, pay7_at]
  rfl

theorem pay_distance (v0 : Vec Ideal S256x1024 .bf16) (v2 : Vec Ideal S256x1 .f32)
    (s0 s1 s2 s3 : Vec Ideal S1x1024x1024 .bf16) (t0 t1 t2 t3 : Vec Ideal S1x1024 .f32) (r : Fin 256) (c' : Fin 1024) :
    k0_pay1 (k0_pay6 (k0_pay2 v0) (k0_pay3 v2) (k0_pay4 v0 v2 s0 t0) (k0_pay5 v0 v2 s1 t1) s2 t2)
        (k0_pay7 (k0_pay2 v0) (k0_pay3 v2) s3 t3) (ix2 r c')
      = max (max (max (E v0 v2 s0 t0 r c') (E v0 v2 s1 t1 r c')) (E v0 v2 s2 t2 r c')) (E v0 v2 s3 t3 r c') := by
  rw [pay1_eq, pay6_eq, pay4_eq, pay5_eq]
  show max (max (max (expNeg (k0_pay7 (k0_pay2 v0) (k0_pay3 v2) s0 t0) (ix2 r c'))
      (expNeg (k0_pay7 (k0_pay2 v0) (k0_pay3 v2) s1 t1) (ix2 r c')))
      (expNeg (k0_pay7 (k0_pay2 v0) (k0_pay3 v2) s2 t2) (ix2 r c')))
      (expNeg (k0_pay7 (k0_pay2 v0) (k0_pay3 v2) s3 t3) (ix2 r c')) = _
  rw [slot_at, slot_at, slot_at, slot_at]

end Cert.KernelIdeal.HandV

end
-- ==== Proof.KI.Val0.lean ====
/-
  The distance kernel's output array after its four grid points, at the extended reals.

  Point t reads rows 256 t … 256 t + 255 of the feature array and of the column of their squared norms, and the whole
  of the two centre arrays (four slabs of 1024 padded centre rows, and the four rows of their squared norms), and
  writes back rows 256 t … 256 t + 255 of the output. At an entry (r, c') of its block the body leaves the largest over
  the four slots k of exp ((0 − D) / 10) with D = max (|f_b|² + |w_k,c'|² − 2 · ∑_d f[b, d] · w[k, c', d]) 0 and
  b = 256 t + r; this depends on the arrays only through row b, so every block written back is a block of ONE function
  G of the four arrays, and since the row b lies in the block of point b / 256 the blocks cover the output, which thus
  ends holding G. Where the four arrays hold the features, their squared norms, the centres and their squared norms
  (lanes below 1000; the other 24 lanes are padding and are not read here), G at (b, c') is the affinity of row b to
  cluster c', by 0 − x = −x.
-/
import Idealize.ShloMosaic.PureOps.Ideal
import Idealize.ShloMosaic.PureOps.Ideal.Laws
import Idealize.ShloMosaic.Lib.ValueIdx
import Idealize.ShloMosaic.Lib.Pipeline.Value
import proofs.«411617_j1520418423399_3_alg».proof.Proof.Spec
import proofs.«411617_j1520418423399_3_alg».proof.Proof.KI.R0
import proofs.«411617_j1520418423399_3_alg».proof.Proof.KI.Val0Pay

noncomputable section

namespace Cert.KernelIdeal.HandV

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

/-! ## The body's result at an entry, from the four input blocks -/

theorem hz2 : (![0, 0] : Fin 2 → Nat) = fun _ => 0 := funext fun a => by fin_cases a <;> rfl

/-- Slab k of a stack of four slabs, read at (0, c', d), is the stack at (k, c', d). -/
theorem ld_slab (X : Vec Ideal S4x1024x1024 .bf16) (k : Fin 4)
    (inb : ∀ a, (![k.val, 0, 0] : Fin 3 → Nat) a + S1x1024x1024.size a ≤ S4x1024x1024.size a) (c' d : Fin 1024) :
    View.ld X (Rect.unit (s := S4x1024x1024) ![k.val, 0, 0] S1x1024x1024.size inb) (ix3 (0 : Fin 1) c' d) = X (ix3 k c' d) :=
  congrArg X (funext fun a => Fin.ext (by
    match a with
    | ⟨0, _⟩ => show k.val + 1 * 0 = k.val; omega
    | ⟨1, _⟩ => show 0 + 1 * c'.val = c'.val; omega
    | ⟨2, _⟩ => show 0 + 1 * d.val = d.val; omega))

/-- Row k of a stack of four rows, read at (0, c'), is the stack at (k, c'). -/
theorem ld_csq (X : Vec Ideal S4x1024 .f32) (k : Fin 4)
    (inb : ∀ a, (![k.val, 0] : Fin 2 → Nat) a + S1x1024.size a ≤ S4x1024.size a) (c' : Fin 1024) :
    View.ld X (Rect.unit (s := S4x1024) ![k.val, 0] S1x1024.size inb) (ix2 (0 : Fin 1) c') = X (ix2 k c') :=
  congrArg X (funext fun a => Fin.ext (by
    match a with
    | ⟨0, _⟩ => show k.val + 1 * 0 = k.val; omega
    | ⟨1, _⟩ => show 0 + 1 * c'.val = c'.val; omega))

/-- exp (−D / 10) of slot k from the four input blocks: feature rows x0, their squared norms x1, the four slabs of
    centre rows x2 and the four rows of their squared norms x3. -/
def Eb (x0 : Vec Ideal S256x1024 .bf16) (x1 : Vec Ideal S256x1 .f32) (x2 : Vec Ideal S4x1024x1024 .bf16)
    (x3 : Vec Ideal S4x1024 .f32) (k : Fin 4) (r : Fin 256) (c' : Fin 1024) : EReal :=
  Ideal.exp (Ideal.div (0 - max (x1 (ix2 r 0) + x3 (ix2 k c') - Cert.Spec.two * ∑ d : Fin 1024, x0 (ix2 r d) * x2 (ix3 k c' d)) 0)
    Cert.Spec.ten)

theorem E_ld (x0 : Vec Ideal S256x1024 .bf16) (x1 : Vec Ideal S256x1 .f32) (x2 : Vec Ideal S4x1024x1024 .bf16)
    (x3 : Vec Ideal S4x1024 .f32) (k : Fin 4)
    (inbC : ∀ a, (![k.val, 0, 0] : Fin 3 → Nat) a + S1x1024x1024.size a ≤ S4x1024x1024.size a)
    (inbD : ∀ a, (![k.val, 0] : Fin 2 → Nat) a + S1x1024.size a ≤ S4x1024.size a) (r : Fin 256) (c' : Fin 1024) :
    E (View.ld x0 rRows) (View.ld x1 rNorm)
        (View.ld x2 (Rect.unit (s := S4x1024x1024) ![k.val, 0, 0] S1x1024x1024.size inbC))
        (View.ld x3 (Rect.unit (s := S4x1024) ![k.val, 0] S1x1024.size inbD)) r c'
      = Eb x0 x1 x2 x3 k r c' := by
  unfold E D Eb
  rw [View.ld_unit_zero (S := S256x1024) hz2, View.ld_unit_zero (S := S256x1) hz2, ld_csq x3 k inbD c']
  refine congrArg (fun s => Ideal.exp (Ideal.div (0 - max (x1 (ix2 r 0) + x3 (ix2 k c') - Cert.Spec.two * s) 0) Cert.Spec.ten))
    (Finset.sum_congr rfl fun d _ => ?_)
  rw [ld_slab x2 k inbC c' d]

/-- What the body leaves in the output block at (r, c'): the largest of the four slots' exp (−D / 10). -/
theorem out_at (x0 : Vec Ideal S256x1024 .bf16) (x1 : Vec Ideal S256x1 .f32) (x2 : Vec Ideal S4x1024x1024 .bf16)
    (x3 : Vec Ideal S4x1024 .f32) (r : Fin 256) (c' : Fin 1024) :
    out0_4 x0 x1 x2 x3 (ix2 r c')
      = max (max (max (Eb x0 x1 x2 x3 0 r c') (Eb x0 x1 x2 x3 1 r c')) (Eb x0 x1 x2 x3 2 r c')) (Eb x0 x1 x2 x3 3 r c') := by
  unfold out0_4
  rw [View.canon_unit_zero hz2]
  unfold stored0
  refine (pay_distance (View.ld x0 rRows) (View.ld x1 rNorm) (View.ld x2 rSlab0) (View.ld x2 rSlab1) (View.ld x2 rSlab2)
    (View.ld x2 rSlab3) (View.ld x3 rCsq0) (View.ld x3 rCsq1) (View.ld x3 rCsq2) (View.ld x3 rCsq3) r c').trans ?_
  have h0 : E (View.ld x0 rRows) (View.ld x1 rNorm) (View.ld x2 rSlab0) (View.ld x3 rCsq0) r c' = Eb x0 x1 x2 x3 0 r c' :=
    E_ld x0 x1 x2 x3 0 _ _ r c'
  have h1 : E (View.ld x0 rRows) (View.ld x1 rNorm) (View.ld x2 rSlab1) (View.ld x3 rCsq1) r c' = Eb x0 x1 x2 x3 1 r c' :=
    E_ld x0 x1 x2 x3 1 _ _ r c'
  have h2 : E (View.ld x0 rRows) (View.ld x1 rNorm) (View.ld x2 rSlab2) (View.ld x3 rCsq2) r c' = Eb x0 x1 x2 x3 2 r c' :=
    E_ld x0 x1 x2 x3 2 _ _ r c'
  have h3 : E (View.ld x0 rRows) (View.ld x1 rNorm) (View.ld x2 rSlab3) (View.ld x3 rCsq3) r c' = Eb x0 x1 x2 x3 3 r c' :=
    E_ld x0 x1 x2 x3 3 _ _ r c'
  rw [h0, h1, h2, h3]

/-! ## The blocks as parts of the arrays the region finds -/

variable (V : (c : Dev nD) → (b : Ref sig .tc) → Buf (Elt Ideal) ((c : Thread nD τ).loc b))

/-- The four arrays the region finds, at their literal types. -/
abbrev a0 (c : Dev nD) : S1024x1024.Idx → EReal := V c main_v0
abbrev a3 (c : Dev nD) : S1024x1.Idx → EReal := V c main_v3
abbrev a13 (c : Dev nD) : S4x1024x1024.Idx → EReal := V c main_v13
abbrev a14 (c : Dev nD) : S4x1024.Idx → EReal := V c main_v14

/-- The block index of every window at every point: windows 0, 1 and 4 move down their arrays by one block of 256 rows
    per point; windows 2 and 3 stay on the whole of theirs. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row r of the feature block at point t is row 256 t + r of the feature array. -/
theorem blk0_at (c : Dev nD) (t : Fin cfg0.N) (r : Fin 256) (d p : Fin 1024) (hp : p.val = 256 * t.val + r.val) :
    (iblk0 V c 0 t : Vec Ideal S256x1024 .bf16) (ix2 r d) = (V c main_v0 : S1024x1024.Idx → EReal) (ix2 p d) := by
  obtain ⟨e0, e1, -⟩ := idx_facts t
  unfold iblk0
  rw [View.read_apply]
  show V c main_v0 (((cfg0.win 0).blk t).view.emb (ix2 r d)) = V c main_v0 (ix2 p d)
  congr 1
  funext a
  apply Fin.ext
  match a with
  | ⟨0, _⟩ => show win0_0.index t (0 : Fin 2) * 256 + 1 * r.val = p.val; rw [e0, hp]; omega
  | ⟨1, _⟩ => show win0_0.index t (1 : Fin 2) * 1024 + 1 * d.val = d.val; rw [e1]; omega

/-- Entry r of the squared-norm block at point t is entry 256 t + r of the squared-norm column. -/
theorem blk1_at (c : Dev nD) (t : Fin cfg0.N) (r : Fin 256) (p : Fin 1024) (hp : p.val = 256 * t.val + r.val) :
    (iblk0 V c 1 t : Vec Ideal S256x1 .f32) (ix2 r (0 : Fin 1)) = (V c main_v3 : S1024x1.Idx → EReal) (ix2 p (0 : Fin 1)) := by
  obtain ⟨-, -, e0, e1, -⟩ := idx_facts t
  unfold iblk0
  rw [View.read_apply]
  show V c main_v3 (((cfg0.win 1).blk t).view.emb (ix2 r (0 : Fin 1))) = V c main_v3 (ix2 p (0 : Fin 1))
  congr 1
  funext a
  apply Fin.ext
  match a with
  | ⟨0, _⟩ => show win0_1.index t (0 : Fin 2) * 256 + 1 * r.val = p.val; rw [e0, hp]; omega
  | ⟨1, _⟩ => show win0_1.index t (1 : Fin 2) * 1 + 1 * 0 = 0; rw [e1]

/-- The centre window is the whole centre array at every point. -/
theorem blk2_at (c : Dev nD) (t : Fin cfg0.N) (k : Fin 4) (c' d : Fin 1024) :
    (iblk0 V c 2 t : Vec Ideal S4x1024x1024 .bf16) (ix3 k c' d) = (V c main_v13 : S4x1024x1024.Idx → EReal) (ix3 k c' d) := by
  obtain ⟨-, -, -, -, e0, e1, e2, -⟩ := idx_facts t
  unfold iblk0
  rw [View.read_apply]
  show V c main_v13 (((cfg0.win 2).blk t).view.emb (ix3 k c' d)) = V c main_v13 (ix3 k c' d)
  congr 1
  funext a
  apply Fin.ext
  match a with
  | ⟨0, _⟩ => show win0_2.index t (0 : Fin 3) * 4 + 1 * k.val = k.val; rw [e0]; omega
  | ⟨1, _⟩ => show win0_2.index t (1 : Fin 3) * 1024 + 1 * c'.val = c'.val; rw [e1]; omega
  | ⟨2, _⟩ => show win0_2.index t (2 : Fin 3) * 1024 + 1 * d.val = d.val; rw [e2]; omega

/-- The window of the centres' squared norms is the whole of its array at every point. -/
theorem blk3_at (c : Dev nD) (t : Fin cfg0.N) (k : Fin 4) (c' : Fin 1024) :
    (iblk0 V c 3 t : Vec Ideal S4x1024 .f32) (ix2 k c') = (V c main_v14 : S4x1024.Idx → EReal) (ix2 k c') := by
  obtain ⟨-, -, -, -, -, -, -, e0, e1, -⟩ := idx_facts t
  unfold iblk0
  rw [View.read_apply]
  show V c main_v14 (((cfg0.win 3).blk t).view.emb (ix2 k c')) = V c main_v14 (ix2 k c')
  congr 1
  funext a
  apply Fin.ext
  match a with
  | ⟨0, _⟩ => show win0_3.index t (0 : Fin 2) * 4 + 1 * k.val = k.val; rw [e0]; omega
  | ⟨1, _⟩ => show win0_3.index t (1 : Fin 2) * 1024 + 1 * c'.val = c'.val; rw [e1]; omega

/-! ## The output array as one function of the four input arrays -/

/-- exp (−D / 10) of slot k for row b and lane c', from the four arrays: features A0, their squared norms A3, the
    padded centres A13 and their squared norms A14. -/
def Earr (A0 : S1024x1024.Idx → EReal) (A3 : S1024x1.Idx → EReal) (A13 : S4x1024x1024.Idx → EReal)
    (A14 : S4x1024.Idx → EReal) (k : Fin 4) (b c' : Fin 1024) : EReal :=
  Ideal.exp (Ideal.div (0 - max (A3 (ix2 b 0) + A14 (ix2 k c') - Cert.Spec.two * ∑ d : Fin 1024, A0 (ix2 b d) * A13 (ix3 k c' d)) 0)
    Cert.Spec.ten)

/-- The largest over the four slots. -/
def Gmax (A0 : S1024x1024.Idx → EReal) (A3 : S1024x1.Idx → EReal) (A13 : S4x1024x1024.Idx → EReal)
    (A14 : S4x1024.Idx → EReal) (b c' : Fin 1024) : EReal :=
  max (max (max (Earr A0 A3 A13 A14 0 b c') (Earr A0 A3 A13 A14 1 b c')) (Earr A0 A3 A13 A14 2 b c')) (Earr A0 A3 A13 A14 3 b c')

/-- What the output array ends holding, all 1024 lanes, the 24 lanes of padding centres included. -/
def G (c : Dev nD) : S1024x1024.Idx → EReal := fun i =>
  Gmax (V c main_v0) (V c main_v3) (V c main_v13) (V c main_v14) ⟨(i 0).val, idx2_lt0 i⟩ ⟨(i 1).val, idx2_lt1 i⟩

/-- The body's result at point t, entry (r, c'), is the array function at row 256 t + r. -/
theorem flushed_at (c : Dev nD) (t : Fin cfg0.N) (r : Fin 256) (c' p : Fin 1024) (hp : p.val = 256 * t.val + r.val) :
    out0_4 (iblk0 V c 0 t) (iblk0 V c 1 t) (iblk0 V c 2 t) (iblk0 V c 3 t) (ix2 r c')
      = Gmax (V c main_v0) (V c main_v3) (V c main_v13) (V c main_v14) p c' := by
  refine (out_at (iblk0 V c 0 t) (iblk0 V c 1 t) (iblk0 V c 2 t) (iblk0 V c 3 t) r c').trans ?_
  have h : ∀ k : Fin 4, Eb (iblk0 V c 0 t) (iblk0 V c 1 t) (iblk0 V c 2 t) (iblk0 V c 3 t) k r c'
      = Earr (V c main_v0) (V c main_v3) (V c main_v13) (V c main_v14) k p c' := fun k => by
    unfold Eb Earr
    rw [blk1_at V c t r p hp, blk3_at V c t k c']
    refine congrArg (fun s : EReal => Ideal.exp (Ideal.div (0 - max (a3 V c (ix2 p 0) + a14 V c (ix2 k c') - Cert.Spec.two * s) 0)
      Cert.Spec.ten)) (Finset.sum_congr rfl fun d _ => ?_)
    rw [blk0_at V c t r d p hp, blk2_at V c t k c' d]
  unfold Gmax
  rw [h 0, h 1, h 2, h 3]

/-- What point t writes back is block t of the array function. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  obtain ⟨-, -, -, -, -, -, -, -, -, e0, e1⟩ := idx_facts t
  have hN : cfg0.N = 4 := N_0
  have ht : t.val < 4 := by have := t.isLt; omega
  funext j
  have hj0 : (j 0).val < 256 := (j 0).isLt
  have hj1 : (j 1).val < 1024 := (j 1).isLt
  show out0_4 (iblk0 V c 0 t) (iblk0 V c 1 t) (iblk0 V c 2 t) (iblk0 V c 3 t) j = G V c (((cfg0.win 4).blk t).view.emb j)
  have hj : (j : S256x1024.Idx) = ix2 (⟨(j 0).val, hj0⟩ : Fin 256) (⟨(j 1).val, hj1⟩ : Fin 1024) :=
    funext fun a => by match a with | ⟨0, _⟩ => rfl | ⟨1, _⟩ => rfl
  refine (congrArg (out0_4 (iblk0 V c 0 t) (iblk0 V c 1 t) (iblk0 V c 2 t) (iblk0 V c 3 t)) hj).trans ?_
  refine (flushed_at V c t ⟨(j 0).val, hj0⟩ ⟨(j 1).val, hj1⟩ ⟨256 * t.val + (j 0).val, by omega⟩ rfl).trans ?_
  unfold G
  congr 1 <;> apply Fin.ext
  · show 256 * t.val + (j 0).val = win0_4.index t (0 : Fin 2) * 256 + 1 * (j 0).val
    rw [e0]; omega
  · show (j 1).val = win0_4.index t (1 : Fin 2) * 1024 + 1 * (j 1).val
    rw [e1]; omega

/-- An index of the array is in point t's block iff each coordinate is in the block's range on its axis. -/
theorem mem_blk (t : Fin cfg0.N) (i : S1024x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v15).slice (win0_4.rect t)).set ↔ _
  rw [View.set_slice_whole, Rect.mem_set_unit]
  exact Iff.rfl

/-- Every row b is in the block of point b / 256. -/
theorem cover (i : S1024x1024.Idx) :
    ∃ t : Fin cfg0.N, (cfg0.win 4).flush t = true ∧ i ∈ ((cfg0.win 4).blk t).view.set := by
  have hN : cfg0.N = 4 := N_0
  have hi0 : (i 0).val < 1024 := (i 0).isLt
  have hi1 : (i 1).val < 1024 := (i 1).isLt
  have hlt : (i 0).val / 256 < cfg0.N := by omega
  obtain ⟨-, -, -, -, -, -, -, -, -, e0, e1⟩ := idx_facts ⟨(i 0).val / 256, hlt⟩
  have e0' : win0_4.index ⟨(i 0).val / 256, hlt⟩ (0 : Fin 2) = (i 0).val / 256 := e0
  refine ⟨⟨(i 0).val / 256, hlt⟩, flush0_4 _, ?_⟩
  rw [mem_blk]
  intro a
  match a with
  | ⟨0, _⟩ =>
    show win0_4.index ⟨(i 0).val / 256, hlt⟩ (0 : Fin 2) * 256 ≤ (i 0).val
      ∧ (i 0).val < win0_4.index ⟨(i 0).val / 256, hlt⟩ (0 : Fin 2) * 256 + 256
    rw [e0']; omega
  | ⟨1, _⟩ =>
    show win0_4.index ⟨(i 0).val / 256, hlt⟩ (1 : Fin 2) * 1024 ≤ (i 1).val
      ∧ (i 1).val < win0_4.index ⟨(i 0).val / 256, hlt⟩ (1 : Fin 2) * 1024 + 1024
    rw [e1]; omega

/-- The output array after the region. -/
theorem final (c : Dev nD) : (dat0 V c).arrAt 4 cfg0.N = G V c :=
  (dat0 V c).arrAt_eq_of_cover 4 (G V c) (fun t _ => flushed_eq V c t) cover

/-! ## The first 1000 lanes are the affinities -/

theorem region0_value (c : Dev nD) (f : Cert.Spec.AF) (w : Cert.Spec.AW)
    (h0 : ∀ b d, (V c main_v0 : S1024x1024.Idx → EReal) (ix2 b d) = f (ix2 b d))
    (h3 : ∀ b, (V c main_v3 : S1024x1.Idx → EReal) (ix2 b 0) = Cert.Spec.fsq f b)
    (h13 : ∀ k c' d (h : c'.val < 1000), (V c main_v13 : S4x1024x1024.Idx → EReal) (ix3 k c' d) = w (ix3 ⟨c'.val, h⟩ k d))
    (h14 : ∀ k c' (h : c'.val < 1000), (V c main_v14 : S4x1024.Idx → EReal) (ix2 k c') = Cert.Spec.wsq w ⟨c'.val, h⟩ k)
    (b : Fin 1024) (c' : Fin 1000) :
    ((dat0 (F := Ideal) V c).arrAt 4 cfg0.N : S1024x1024.Idx → EReal) (ix2 b ⟨c'.val, by omega⟩) = Cert.Spec.dist f w b c' := by
  rw [final V c]
  have hc : c'.val < 1024 := by omega
  have hk : ∀ k : Fin 4, Earr (V c main_v0) (V c main_v3) (V c main_v13) (V c main_v14) k b ⟨c'.val, hc⟩
      = Cert.Spec.dk f w b c' k := fun k => by
    unfold Earr Cert.Spec.dk Cert.Spec.dn Cert.Spec.fw
    rw [zero_sub, h3 b, h14 k ⟨c'.val, hc⟩ c'.isLt]
    refine congrArg (fun s => Ideal.exp (Ideal.div (-(max (Cert.Spec.fsq f b + Cert.Spec.wsq w c' k - Cert.Spec.two * s) 0))
      Cert.Spec.ten)) (Finset.sum_congr rfl fun d _ => ?_)
    rw [h0 b d, h13 k ⟨c'.val, hc⟩ d c'.isLt]
  show Gmax (V c main_v0) (V c main_v3) (V c main_v13) (V c main_v14) b ⟨c'.val, hc⟩ = _
  unfold Gmax Cert.Spec.dist
  rw [hk 0, hk 1, hk 2, hk 3]

end Cert.KernelIdeal.HandV

end
-- ==== Proof.KI.Val1Pay.lean ====
/-
  The regularisation kernel's arithmetic, read entry by entry at the extended reals.

  At a grid point (core, tile) the kernel holds a block of 400 centre rows (global rows 400 · (5 · core + tile) + r)
  and the whole 4000-row array. It forms the 400 × 4000 table of clamped squared distances
  N r j = max (|x_r|² + |y_j|² − 2 x_r·y_j) 0, the two squared norms read from a column and a row prepared outside, masks it
  to the upper triangle of the 4000 × 4000 table (global row ≤ column), and sums the masked table, and the masked table
  of squares, to one number each. Each number is then added to every entry of an 8 × 128 staged block that starts at 0.

  This file proves exactly that, operation by operation: the layout operations (casts and broadcasts) move no value, a
  lane sum is the sum over that axis, the product into a zero accumulator is the inner product over the 1024 features,
  and the signed comparison of the two 32-bit index words is the comparison of the (small) numbers they hold.
-/
import proofs.«411617_j1520418423399_3_alg».proof.Proof.Gen.KernelIdeal.Skeleton
import proofs.«411617_j1520418423399_3_alg».proof.Proof.Spec
import proofs.«411617_j1520418423399_3_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.HandV

open Idealize.ShloMosaic Idealize.ShloMosaic.ValueIdx Cert.KernelIdeal Cert.KernelIdeal.Gen

/-! ## Layout operations of this kernel read at an index -/

section Layout
variable {α : Type}

/-- A column [400,1] broadcast along the lanes to [400,4000] reads, at (r, j), the column at r. -/
theorem bcast_col_apply (v : S400x1.Idx → α) (h : S400x1.Broadcasts S400x4000) (r : Fin 400) (j : Fin 4000) :
    broadcastTo S400x4000 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A row [1,4000] broadcast along the sublanes to [400,4000] reads, at (r, j), the row at j. -/
theorem bcast_row_apply (v : S1x4000.Idx → α) (h : S1x4000.Broadcasts S400x4000) (r : Fin 400) (j : Fin 4000) :
    broadcastTo S400x4000 v h (ix2 r j) = v (ix2 (0 : Fin 1) j) :=
  broadcastTo_1b_ab_apply v h r j

/-- One value [1,1] broadcast to [8,128] reads that value everywhere. -/
theorem bcast_one_apply (v : S1x1.Idx → α) (h : S1x1.Broadcasts S8x128) (a : Fin 8) (l : Fin 128) :
    broadcastTo S8x128 v h (ix2 a l) = v (ix2 (0 : Fin 1) (0 : Fin 1)) := by
  refine broadcastTo_apply v h (ix2 a l) (ix2 (0 : Fin 1) (0 : Fin 1)) fun ax => ?_
  match ax with
  | ⟨0, _⟩ => rfl
  | ⟨1, _⟩ => rfl

/-- A vector [400] viewed as a column [400,1]. -/
theorem cast_col_apply (v : S400.Idx → α) (h : S400.ShapeCasts S400x1) (r : Fin 400) :
    shapeCast S400x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A vector [1] viewed as [1,1]. -/
theorem cast_one_apply (v : S1.Idx → α) (h : S1.ShapeCasts S1x1) :
    shapeCast S1x1 v h (ix2 (0 : Fin 1) (0 : Fin 1)) = v (ix1 (0 : Fin 1)) := by
  refine shapeCast_apply v h (ix2 (0 : Fin 1) (0 : Fin 1)) (ix1 (0 : Fin 1)) ?_
  rw [Shape.rowMajor_val_one, Shape.rowMajor_val_two]
  rfl

end Layout

/-! ## The two lane sums and the product of the two blocks -/

/-- Summing a [400,4000] table along its second axis: at r the sum over the 4000 lanes of row r. -/
theorem rowsum_apply (x : FVec Ideal S400x4000 .f32) (h : S400x4000.Reduces [1] S400) (hφ : FKind.Formats .f32)
    (hacc : (0x00000000#32 : BitVec 32) = FKind.add.neutral .f32 hφ) (r : Fin 400) :
    multiReduction .add [1] S400 x 0x00000000#32 h hφ hacc (ix1 r) = ∑ j : Fin 4000, x (ix2 r j) := by
  refine (Ideal.multiReduction_add_single x 0x00000000#32 h hφ hacc (ix1 r)).trans ?_
  refine Finset.sum_congr rfl fun k _ => congrArg x (funext fun a => Fin.ext ?_)
  match a with
  | ⟨0, _⟩ => rfl
  | ⟨1, _⟩ => rfl

/-- Summing a column [400,1] along its first axis: the sum of its 400 entries. -/
theorem colsum_apply (y : FVec Ideal S400x1 .f32) (h : S400x1.Reduces [0] S1) (hφ : FKind.Formats .f32)
    (hacc : (0x00000000#32 : BitVec 32) = FKind.add.neutral .f32 hφ) :
    multiReduction .add [0] S1 y 0x00000000#32 h hφ hacc (ix1 (0 : Fin 1)) = ∑ r : Fin 400, y (ix2 r (0 : Fin 1)) := by
  refine (Ideal.multiReduction_add_single y 0x00000000#32 h hφ hacc (ix1 (0 : Fin 1))).trans ?_
  refine Finset.sum_congr rfl fun k _ => congrArg y (funext fun a => Fin.ext ?_)
  match a with
  | ⟨0, _⟩ => rfl
  | ⟨1, _⟩ => rfl

/-- The contraction record of the kernel's product: rows of the 400-row block against rows of the 4000-row array,
    contracted over the 1024 features. -/
abbrev DD : DotDims S400x1024 S4000x1024 S400x4000 := dot_S400x1024_S4000x1024_S400x4000_1_1_0_0_n_n

theorem lhs_DD_0 (i : S400x4000.Idx) (q : dot_S400x1024_S4000x1024_S400x4000_1_1_0_0_n_n.contr.Idx) :
    (dot_S400x1024_S4000x1024_S400x4000_1_1_0_0_n_n.lhsIdx i q 0).val = (i 0).val := by
  unfold DotDims.lhsIdx
  rw [dif_neg (show ¬(0 : Fin S400x1024.rank) ∈ dot_S400x1024_S4000x1024_S400x4000_1_1_0_0_n_n.lhsBatch by decide), dif_pos (show (0 : Fin S400x1024.rank) ∈ dot_S400x1024_S4000x1024_S400x4000_1_1_0_0_n_n.lhsNonContracting by decide)]
  rfl
theorem lhs_DD_1 (i : S400x4000.Idx) (q : dot_S400x1024_S4000x1024_S400x4000_1_1_0_0_n_n.contr.Idx) :
    (dot_S400x1024_S4000x1024_S400x4000_1_1_0_0_n_n.lhsIdx i q 1).val = (q ⟨0, by decide⟩).val :=
  dot_S400x1024_S4000x1024_S400x4000_1_1_0_0_n_n.lhsIdx_val_of_single rfl i q
theorem rhs_DD_0 (i : S400x4000.Idx) (q : dot_S400x1024_S4000x1024_S400x4000_1_1_0_0_n_n.contr.Idx) :
    (dot_S400x1024_S4000x1024_S400x4000_1_1_0_0_n_n.rhsIdx i q 0).val = (i 1).val := by
  unfold DotDims.rhsIdx
  rw [dif_neg (show ¬(0 : Fin S4000x1024.rank) ∈ dot_S400x1024_S4000x1024_S400x4000_1_1_0_0_n_n.rhsBatch by decide), dif_pos (show (0 : Fin S4000x1024.rank) ∈ dot_S400x1024_S4000x1024_S400x4000_1_1_0_0_n_n.rhsNonContracting by decide)]
  rfl
theorem rhs_DD_1 (i : S400x4000.Idx) (q : dot_S400x1024_S4000x1024_S400x4000_1_1_0_0_n_n.contr.Idx) :
    (dot_S400x1024_S4000x1024_S400x4000_1_1_0_0_n_n.rhsIdx i q 1).val = (q ⟨0, by decide⟩).val :=
  dot_S400x1024_S4000x1024_S400x4000_1_1_0_0_n_n.rhsIdx_val_of_single rfl i q

/-- The product into a zero accumulator, at (r, j): the inner product of row r of the block with row j of the array. -/
theorem mm_apply (a : FVec Ideal S400x1024 .bf16) (b : FVec Ideal S4000x1024 .bf16) (r : Fin 400) (j : Fin 4000) :
    matmul dot_S400x1024_S4000x1024_S400x4000_1_1_0_0_n_n none a b (constant S400x4000 .f32 0x00000000#32) (ix2 r j)
      = ∑ d : Fin 1024, a (ix2 r d) * b (ix2 j d) := by
  refine (Ideal.matmul_constant_zero_apply dot_S400x1024_S4000x1024_S400x4000_1_1_0_0_n_n none a b (ix2 r j)).trans ?_
  rw [← Equiv.sum_comp (ValueIdx.contrEquiv1 dot_S400x1024_S4000x1024_S400x4000_1_1_0_0_n_n 1024 rfl rfl).symm]
  refine Finset.sum_congr rfl fun k _ => ?_
  have hk := ValueIdx.contrEquiv1_symm_val dot_S400x1024_S4000x1024_S400x4000_1_1_0_0_n_n 1024 rfl rfl k
  have el : dot_S400x1024_S4000x1024_S400x4000_1_1_0_0_n_n.lhsIdx (ix2 r j) ((ValueIdx.contrEquiv1 dot_S400x1024_S4000x1024_S400x4000_1_1_0_0_n_n 1024 rfl rfl).symm k) = ix2 r k := funext fun ax => Fin.ext (by
    match ax with
    | ⟨0, _⟩ => exact lhs_DD_0 _ _
    | ⟨1, _⟩ => exact (lhs_DD_1 _ _).trans hk)
  have er : dot_S400x1024_S4000x1024_S400x4000_1_1_0_0_n_n.rhsIdx (ix2 r j) ((ValueIdx.contrEquiv1 dot_S400x1024_S4000x1024_S400x4000_1_1_0_0_n_n 1024 rfl rfl).symm k) = ix2 j k := funext fun ax => Fin.ext (by
    match ax with
    | ⟨0, _⟩ => exact rhs_DD_0 _ _
    | ⟨1, _⟩ => exact (rhs_DD_1 _ _).trans hk)
  rw [el, er]

/-! ## The payloads at an index -/

section Pay
variable (v2 : Vec Ideal S400x1024 .bf16) (v4 : Vec Ideal S4000x1024 .bf16) (v6 : Vec Ideal S400x1 .f32)
  (v8 : Vec Ideal S1x4000 .f32) (i : grid1.Coords)

/-- The clamped squared distance of row r of the block to row j of the array, by the expansion
    |x|² + |y|² − 2 x·y with the two squared norms read from the column v6 and the row v8. -/
def N (r : Fin 400) (j : Fin 4000) : EReal :=
  max (v6 (ix2 r (0 : Fin 1)) + v8 (ix2 (0 : Fin 1) j) - Cert.Spec.two * ∑ d : Fin 1024, v2 (ix2 r d) * v4 (ix2 j d)) 0

theorem pay5_apply (r : Fin 400) (j : Fin 4000) : k1_pay5 v2 v4 v6 v8 (ix2 r j) = N v2 v4 v6 v8 r j := by
  have e1 : broadcastTo S400x4000 (shapeCast S400x1 v6 shapeCasts_S400x1_S400x1) broadcasts_S400x1_S400x4000 (ix2 r j)
      = v6 (ix2 r (0 : Fin 1)) :=
    (bcast_col_apply _ _ r j).trans (congrFun (shapeCast_self v6 _) _)
  have e2 : broadcastTo S400x4000 (shapeCast S1x4000 v8 shapeCasts_S1x4000_S1x4000) broadcasts_S1x4000_S400x4000 (ix2 r j)
      = v8 (ix2 (0 : Fin 1) j) :=
    (bcast_row_apply _ _ r j).trans (congrFun (shapeCast_self v8 _) _)
  have e3 : matmul (F := Ideal) (φ₁ := .bf16) (φ₂ := .bf16) dot_S400x1024_S4000x1024_S400x4000_1_1_0_0_n_n none (shapeCast S400x1024 v2 shapeCasts_S400x1024_S400x1024)
        (shapeCast S4000x1024 v4 shapeCasts_S4000x1024_S4000x1024) (constant S400x4000 .f32 0x00000000#32) (ix2 r j)
      = ∑ d : Fin 1024, v2 (ix2 r d) * v4 (ix2 j d) := by
    rw [shapeCast_self v2, shapeCast_self v4]
    exact mm_apply v2 v4 r j
  unfold N
  exact congrArg₂ max (congrArg₂ (· - ·) (congrArg₂ (· + ·) e1 e2) (congrArg (Cert.Spec.two * ·) e3)) Cert.Spec.zero_eq

/-- The word the kernel compares: ((g0 · 5 + g1) · 400 + r) computed in 32-bit words is the word of that number. -/
theorem word_eq (g0 g1 r : ℕ) :
    IntOp.addi (Scalar.muli (Scalar.addi (Scalar.muli (BitVec.ofNat 32 g0) 5#32) (BitVec.ofNat 32 g1)) 400#32) (BitVec.ofNat 32 r)
      = BitVec.ofNat 32 ((g0 * 5 + g1) * 400 + r) := by
  show (BitVec.ofNat 32 g0 * 5#32 + BitVec.ofNat 32 g1) * 400#32 + BitVec.ofNat 32 r = _
  simp only [BitVec.ofNat_add, BitVec.ofNat_mul]

/-- The mask: at (r, j) of the block at grid point (i 0, i 1) the bit is set exactly when the global row
    ((i 0) · 5 + (i 1)) · 400 + r is at most the column j: the upper triangle, the diagonal included. -/
theorem pay6_apply (r : Fin 400) (j : Fin 4000) :
    k1_pay6 i (ix2 r j) = if ((i 0).val * 5 + (i 1).val) * 400 + r.val ≤ j.val then 1#1 else 0#1 := by
  have h0 : (i 0).val < 2 := (i 0).isLt
  have h1 : (i 1).val < 5 := (i 1).isLt
  have hr : r.val < 400 := r.isLt
  have hj : j.val < 4000 := j.isLt
  have ea : iota .tc S400x4000 32 [0] iota_S400x4000_d0_w32 (ix2 r j) = BitVec.ofNat 32 r.val :=
    iota_single_apply .tc S400x4000 32 0 _ (ix2 r j)
  have eb : iota .tc S400x4000 32 [1] iota_S400x4000_d1_w32 (ix2 r j) = BitVec.ofNat 32 j.val :=
    iota_single_apply .tc S400x4000 32 1 _ (ix2 r j)
  have e : k1_pay6 i (ix2 r j)
      = IntOp.cmpi .sle (BitVec.ofNat 32 (((i 0).val * 5 + (i 1).val) * 400 + r.val)) (BitVec.ofNat 32 j.val) := by
    unfold k1_pay6
    show IntOp.cmpi .sle (IntOp.addi (Scalar.muli (Scalar.addi (Scalar.muli (BitVec.ofNat 32 (i 0).val) 5#32)
        (BitVec.ofNat 32 (i 1).val)) 400#32) (iota .tc S400x4000 32 [0] iota_S400x4000_d0_w32 (ix2 r j)))
      (iota .tc S400x4000 32 [1] iota_S400x4000_d1_w32 (ix2 r j)) = _
    rw [ea, eb, word_eq]
  rw [e]
  have hiff := StableHlo.Predicate.sle_ofNat_iff (((i 0).val * 5 + (i 1).val) * 400 + r.val) j.val (by omega) (by omega)
  by_cases hle : ((i 0).val * 5 + (i 1).val) * 400 + r.val ≤ j.val
  · rw [if_pos hle]; exact hiff.mpr hle
  · rw [if_neg hle]; exact eq_zero_of_ne_one fun h => hle (hiff.mp h)

/-- A select on the mask bit, at an index: the value where the bit is set, the other elsewhere. -/
theorem masked_apply (x : FVec Ideal S400x4000 .f32) (z : EReal) (r : Fin 400) (j : Fin 4000) :
    Scalar.select (k1_pay6 i (ix2 r j)) (x (ix2 r j)) z
      = if ((i 0).val * 5 + (i 1).val) * 400 + r.val ≤ j.val then x (ix2 r j) else z := by
  rw [pay6_apply]
  by_cases hle : ((i 0).val * 5 + (i 1).val) * 400 + r.val ≤ j.val
  · rw [if_pos hle, if_pos hle]; exact select_one _ _
  · rw [if_neg hle, if_neg hle]; exact select_zero _ _

/-- A masked [400,4000] table summed along the lanes and then along the rows: the double sum of its entries. -/
theorem total_apply (x : FVec Ideal S400x4000 .f32) :
    shapeCast S1x1 (multiReduction .add [0] S1 (shapeCast S400x1 (multiReduction .add [1] S400 x 0x00000000#32
        reduces_S400x4000_S400 (.inl rfl) rfl) shapeCasts_S400_S400x1) 0x00000000#32 reduces_S400x1_S1 (.inl rfl) rfl)
        shapeCasts_S1_S1x1 (ix2 (0 : Fin 1) (0 : Fin 1))
      = ∑ r : Fin 400, ∑ j : Fin 4000, x (ix2 r j) := by
  refine (cast_one_apply _ _).trans ?_
  refine (colsum_apply _ _ _ _).trans ?_
  refine Finset.sum_congr rfl fun r _ => ?_
  refine (cast_col_apply _ _ r).trans ?_
  exact rowsum_apply x _ _ _ r

theorem pay7_apply :
    k1_pay7 i v2 v4 v6 v8 (ix2 (0 : Fin 1) (0 : Fin 1))
      = ∑ r : Fin 400, ∑ j : Fin 4000,
          if ((i 0).val * 5 + (i 1).val) * 400 + r.val ≤ j.val then N v2 v4 v6 v8 r j else 0 := by
  unfold k1_pay7
  refine (total_apply _).trans ?_
  refine Finset.sum_congr rfl fun r _ => Finset.sum_congr rfl fun j _ => ?_
  refine (masked_apply i (k1_pay5 v2 v4 v6 v8) (Ideal.ofBits .f32 0x00000000#32) r j).trans ?_
  rw [pay5_apply, Cert.Spec.zero_eq]

theorem pay8_apply :
    k1_pay8 i v2 v4 v6 v8 (ix2 (0 : Fin 1) (0 : Fin 1))
      = ∑ r : Fin 400, ∑ j : Fin 4000,
          if ((i 0).val * 5 + (i 1).val) * 400 + r.val ≤ j.val then N v2 v4 v6 v8 r j * N v2 v4 v6 v8 r j else 0 := by
  unfold k1_pay8
  refine (total_apply _).trans ?_
  refine Finset.sum_congr rfl fun r _ => Finset.sum_congr rfl fun j _ => ?_
  refine (masked_apply i (mulf (k1_pay5 v2 v4 v6 v8) (k1_pay5 v2 v4 v6 v8)) (Ideal.ofBits .f32 0x00000000#32) r j).trans ?_
  rw [mulf_apply, pay5_apply, Cert.Spec.zero_eq]

end Pay

/-- The accumulation step of the first output: the staged block plus the point's scalar, everywhere. -/
theorem pay3_apply (v30 : FVec Ideal S1x1 .f32) (v41 : Vec Ideal S8x128 .f32) (a : Fin 8) (l : Fin 128) :
    k1_pay3 v30 v41 (ix2 a l) = v41 (ix2 a l) + v30 (ix2 (0 : Fin 1) (0 : Fin 1)) := by
  have e1 : shapeCast S8x128 v41 shapeCasts_S8x128_S8x128 (ix2 a l) = v41 (ix2 a l) := congrFun (shapeCast_self v41 _) _
  have e2 : broadcastTo S8x128 (shapeCast S1x1 v30 shapeCasts_S1x1_S1x1) broadcasts_S1x1_S8x128 (ix2 a l)
      = v30 (ix2 (0 : Fin 1) (0 : Fin 1)) :=
    (bcast_one_apply _ _ a l).trans (congrFun (shapeCast_self v30 _) _)
  exact congrArg₂ (· + ·) e1 e2

/-- The accumulation step of the second output. -/
theorem pay4_apply (v37 : FVec Ideal S1x1 .f32) (v47 : Vec Ideal S8x128 .f32) (a : Fin 8) (l : Fin 128) :
    k1_pay4 v37 v47 (ix2 a l) = v47 (ix2 a l) + v37 (ix2 (0 : Fin 1) (0 : Fin 1)) := by
  have e1 : shapeCast S8x128 v47 shapeCasts_S8x128_S8x128 (ix2 a l) = v47 (ix2 a l) := congrFun (shapeCast_self v47 _) _
  have e2 : broadcastTo S8x128 (shapeCast S1x1 v37 shapeCasts_S1x1_S1x1) broadcasts_S1x1_S8x128 (ix2 a l)
      = v37 (ix2 (0 : Fin 1) (0 : Fin 1)) :=
    (bcast_one_apply _ _ a l).trans (congrFun (shapeCast_self v37 _) _)
  exact congrArg₂ (· + ·) e1 e2

/-- The reset value of the first output's staged block: zero everywhere. -/
theorem pay1_apply (a : Fin 8) (l : Fin 128) : (k1_pay1 (F := Ideal)) (ix2 a l) = 0 := Cert.Spec.zero_eq

/-- The reset value of the second output's staged block: zero everywhere. -/
theorem pay2_apply (a : Fin 8) (l : Fin 128) : (k1_pay2 (F := Ideal)) (ix2 a l) = 0 := Cert.Spec.zero_eq

end Cert.KernelIdeal.HandV

end
-- ==== Proof.KI.Val1.lean ====
/-
  What the regularisation kernel leaves in its two output arrays, in terms of the cluster centres.

  The kernel runs on a grid of 2 cores × 5 tiles; point t = 5 · core + tile holds the 400 centre rows 400 t … 400 t + 399
  (slot-major numbering) beside the whole 4000-row array, and forms one number p_t: the sum, over its 400 rows i and all
  4000 columns j with i ≤ j, of the clamped squared distance wn(i, j) = max (|w_i|² + |w_j|² − 2 w_i·w_j) 0 (and a second
  number, the same sum of wn²). Each core keeps an 8 × 128 block that is set to 0 at the core's first tile and to which every
  tile adds its number in every entry; after the core's last tile the block, now 0 + p_{5k} + … + p_{5k+4} everywhere, is
  written to rows 8 k … 8 k + 7 of a 16 × 128 array. Entry (0, 0) is therefore core 0's total and entry (8, 0) core 1's, and
  their sum is ∑_t p_t, the sum over the 4000 rows cut into ten tiles of 400: the triangle sum of the specification.

  The steps: the windows' blocks read at an index (tile t of the array, or the whole array); the running block after each
  point by induction on the point; the array after the run, read where the two written blocks lie; each p_t rewritten by
  what the arrays hold (the centres, and their squared norms as a column and as a row); and a sum over a · b consecutive
  indices cut into a blocks of b.
-/
import proofs.«411617_j1520418423399_3_alg».proof.Proof.KI.R1
import proofs.«411617_j1520418423399_3_alg».proof.Proof.KI.Val1Pay
import Mathlib.Algebra.BigOperators.Fin
import Mathlib.Logic.Equiv.Fin.Basic

noncomputable section

namespace Cert.KernelIdeal.HandV

open Idealize.ShloMosaic Idealize.ShloMosaic.ValueIdx Idealize.ShloMosaic.TcCoe Idealize.SL.Sem
open Cert.KernelIdeal Cert.KernelIdeal.Gen Cert.KernelIdeal.Hand
open Idealize.ShloMosaic.Pipeline (Dat)

/-! ## Sums cut into blocks -/

theorem mul_add_lt {a b p q : ℕ} (hp : p < a) (hq : q < b) : p * b + q < a * b :=
  calc p * b + q < p * b + b := Nat.add_lt_add_left hq _
    _ = (p + 1) * b := (Nat.succ_mul p b).symm
    _ ≤ a * b := Nat.mul_le_mul_right b hp

/-- A sum over a · b consecutive indices is the sum over a blocks of the sums over the b indices of each block. -/
theorem sum_fin_mul {M : Type*} [AddCommMonoid M] (a b : ℕ) (g : Fin (a * b) → M) :
    ∑ i : Fin (a * b), g i = ∑ p : Fin a, ∑ q : Fin b, g ⟨p.val * b + q.val, mul_add_lt p.isLt q.isLt⟩ := by
  rw [← Equiv.sum_comp finProdFinEquiv g, Fintype.sum_prod_type]
  refine Finset.sum_congr rfl fun p _ => Finset.sum_congr rfl fun q _ => congrArg g (Fin.ext ?_)
  show q.val + b * p.val = p.val * b + q.val
  rw [Nat.mul_comm, Nat.add_comm]

/-- The 4000 centre rows as ten tiles of 400. -/
theorem sum_rows (g : Fin 4000 → EReal) :
    ∑ i : Fin 4000, g i
      = ∑ t : Fin 10, ∑ r : Fin 400, g ⟨400 * t.val + r.val, by have := t.isLt; have := r.isLt; omega⟩ :=
  (sum_fin_mul 10 400 g).trans (Finset.sum_congr rfl fun t _ => Finset.sum_congr rfl fun r _ =>
    congrArg g (Fin.ext (by show t.val * 400 + r.val = 400 * t.val + r.val; omega)))

variable (V : (c : Dev nD) → (b : Ref sig .tc) → Buf (Elt Ideal) ((c : Thread nD τ).loc b))
variable (c : Dev nD)

/-! ## The windows' blocks read at an index -/

/-- The printed index maps of the second kernel's windows, decided over its ten grid points: window 0 and 1 take tile t,
    windows 2 and 3 the whole array, the output windows the block of the point's core; and a point's two grid coordinates
    give back its number. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 5 ∧ win1_4.index t (1 : Fin 2) = 0
    ∧ win1_5.index t (0 : Fin 2) = t.val / 5 ∧ win1_5.index t (1 : Fin 2) = 0
    ∧ (grid1.coords t 0).val * 5 + (grid1.coords t 1).val = t.val :=
  (by decide +kernel : ∀ t : Fin grid1.N, _)

/-- The arrays the four input windows read, at their literal types. -/
abbrev arrW : Vec Ideal S4000x1024 .bf16 := V c main_v6
abbrev arrSqCol : Vec Ideal S4000x1 .f32 := V c main_v11
abbrev arrSqRow : Vec Ideal S1x4000 .f32 := V c main_v12

/-- The four input blocks at a point, at their literal types. -/
abbrev blkRows (t : Fin cfg1.N) : Vec Ideal S400x1024 .bf16 := iblk1 V c 0 t
abbrev blkSqCol (t : Fin cfg1.N) : Vec Ideal S400x1 .f32 := iblk1 V c 1 t
abbrev blkAll (t : Fin cfg1.N) : Vec Ideal S4000x1024 .bf16 := iblk1 V c 2 t
abbrev blkSqRow (t : Fin cfg1.N) : Vec Ideal S1x4000 .f32 := iblk1 V c 3 t

/-- Row r of the tile at point t is row 400 t + r of the array. -/
theorem blkRows_apply (t : Fin cfg1.N) (r : Fin 400) (d : Fin 1024) (g : Fin 4000) (hg : g.val = 400 * t.val + r.val) :
    blkRows V c t (ix2 r d) = arrW V c (ix2 g d) := by
  obtain ⟨e0, e1, -⟩ := idx_facts1 t
  show arrW V c (((cfg1.win 0).blk t).view.emb (ix2 r d)) = _
  refine congrArg (arrW V c) (funext fun a => Fin.ext ?_)
  match a with
  | ⟨0, _⟩ => show win1_0.index t (0 : Fin 2) * 400 + 1 * r.val = g.val; omega
  | ⟨1, _⟩ => show win1_0.index t (1 : Fin 2) * 1024 + 1 * d.val = d.val; omega

theorem blkSqCol_apply (t : Fin cfg1.N) (r : Fin 400) (g : Fin 4000) (hg : g.val = 400 * t.val + r.val) :
    blkSqCol V c t (ix2 r (0 : Fin 1)) = arrSqCol V c (ix2 g (0 : Fin 1)) := by
  obtain ⟨-, -, e0, e1, -⟩ := idx_facts1 t
  show arrSqCol V c (((cfg1.win 1).blk t).view.emb (ix2 r (0 : Fin 1))) = _
  refine congrArg (arrSqCol V c) (funext fun a => Fin.ext ?_)
  match a with
  | ⟨0, _⟩ => show win1_1.index t (0 : Fin 2) * 400 + 1 * r.val = g.val; omega
  | ⟨1, _⟩ => show win1_1.index t (1 : Fin 2) * 1 + 1 * 0 = 0; omega

/-- The third window's block is the whole array. -/
theorem blkAll_apply (t : Fin cfg1.N) (j : Fin 4000) (d : Fin 1024) :
    blkAll V c t (ix2 j d) = arrW V c (ix2 j d) := by
  obtain ⟨-, -, -, -, e0, e1, -⟩ := idx_facts1 t
  show arrW V c (((cfg1.win 2).blk t).view.emb (ix2 j d)) = _
  refine congrArg (arrW V c) (funext fun a => Fin.ext ?_)
  match a with
  | ⟨0, _⟩ => show win1_2.index t (0 : Fin 2) * 4000 + 1 * j.val = j.val; omega
  | ⟨1, _⟩ => show win1_2.index t (1 : Fin 2) * 1024 + 1 * d.val = d.val; omega

theorem blkSqRow_apply (t : Fin cfg1.N) (j : Fin 4000) :
    blkSqRow V c t (ix2 (0 : Fin 1) j) = arrSqRow V c (ix2 (0 : Fin 1) j) := by
  obtain ⟨-, -, -, -, -, -, e0, e1, -⟩ := idx_facts1 t
  show arrSqRow V c (((cfg1.win 3).blk t).view.emb (ix2 (0 : Fin 1) j)) = _
  refine congrArg (arrSqRow V c) (funext fun a => Fin.ext ?_)
  match a with
  | ⟨0, _⟩ => show win1_3.index t (0 : Fin 2) * 1 + 1 * 0 = 0; omega
  | ⟨1, _⟩ => show win1_3.index t (1 : Fin 2) * 4000 + 1 * j.val = j.val; omega

/-! ## The point's two partial sums, as numbers -/

/-- The first partial sum of point n; zero past the grid. -/
def part4 (n : ℕ) : EReal :=
  if h : n < cfg1.N then
    k1_pay7 (grid1.coords ⟨n, h⟩) (blkRows V c ⟨n, h⟩) (blkAll V c ⟨n, h⟩) (blkSqCol V c ⟨n, h⟩) (blkSqRow V c ⟨n, h⟩)
      (ix2 (0 : Fin 1) (0 : Fin 1))
  else 0

/-- The second partial sum of point n; zero past the grid. -/
def part5 (n : ℕ) : EReal :=
  if h : n < cfg1.N then
    k1_pay8 (grid1.coords ⟨n, h⟩) (blkRows V c ⟨n, h⟩) (blkAll V c ⟨n, h⟩) (blkSqCol V c ⟨n, h⟩) (blkSqRow V c ⟨n, h⟩)
      (ix2 (0 : Fin 1) (0 : Fin 1))
  else 0

theorem part4_of_lt (n : ℕ) (h : n < cfg1.N) :
    part4 V c n = k1_pay7 (grid1.coords ⟨n, h⟩) (blkRows V c ⟨n, h⟩) (blkAll V c ⟨n, h⟩) (blkSqCol V c ⟨n, h⟩)
      (blkSqRow V c ⟨n, h⟩) (ix2 (0 : Fin 1) (0 : Fin 1)) := by
  unfold part4; exact dif_pos h

theorem part5_of_lt (n : ℕ) (h : n < cfg1.N) :
    part5 V c n = k1_pay8 (grid1.coords ⟨n, h⟩) (blkRows V c ⟨n, h⟩) (blkAll V c ⟨n, h⟩) (blkSqCol V c ⟨n, h⟩)
      (blkSqRow V c ⟨n, h⟩) (ix2 (0 : Fin 1) (0 : Fin 1)) := by
  unfold part5; exact dif_pos h

/-- What the first output's staged block holds after point n, everywhere: the partial sums of its core's points up to
    n, in order (0 + p₀ + … ): by induction on the point, the reset at the first point of each core starting from 0. -/
theorem acc4_apply : ∀ (n : ℕ) (h : n < cfg1.N) (a : Fin 8) (l : Fin 128),
    (acc1_4 V c n h : Vec Ideal S8x128 .f32) (ix2 a l) = ∑ s ∈ Finset.range (n % 5 + 1), part4 V c (n - n % 5 + s) := by
  intro n
  induction n with
  | zero =>
    intro h a l
    rw [acc1_4_reset V c 0 h rfl]
    refine (pay3_apply _ _ a l).trans ?_
    rw [pay1_apply, zero_add]
    show _ = ∑ s ∈ Finset.range 1, part4 V c (0 + s)
    rw [Finset.sum_range_one, Nat.add_zero]
    exact (part4_of_lt V c 0 h).symm
  | succ n ih =>
    intro h a l
    by_cases h0 : (n + 1) % 5 = 0
    · rw [acc1_4_reset V c (n + 1) h h0]
      refine (pay3_apply _ _ a l).trans ?_
      rw [pay1_apply, zero_add, h0]
      show _ = ∑ s ∈ Finset.range 1, part4 V c (n + 1 - 0 + s)
      rw [Finset.sum_range_one]
      exact (part4_of_lt V c (n + 1) h).symm
    · rw [acc1_4_step V c (n + 1) h h0]
      refine (pay3_apply _ _ a l).trans ?_
      have e : (acc1_4 V c (n + 1 - 1) (by omega) : Vec Ideal S8x128 .f32) (ix2 a l)
          = ∑ s ∈ Finset.range (n % 5 + 1), part4 V c (n - n % 5 + s) := ih (Nat.lt_of_succ_lt h) a l
      refine (congrArg (· + _) e).trans ?_
      have hm : (n + 1) % 5 = n % 5 + 1 := by omega
      have hb : n + 1 - (n + 1) % 5 = n - n % 5 := by omega
      rw [hb, hm, Finset.sum_range_succ _ (n % 5 + 1)]
      refine congrArg (_ + ·) ?_
      have hn : n - n % 5 + (n % 5 + 1) = n + 1 := by omega
      rw [hn]
      exact (part4_of_lt V c (n + 1) h).symm

theorem acc5_apply : ∀ (n : ℕ) (h : n < cfg1.N) (a : Fin 8) (l : Fin 128),
    (acc1_5 V c n h : Vec Ideal S8x128 .f32) (ix2 a l) = ∑ s ∈ Finset.range (n % 5 + 1), part5 V c (n - n % 5 + s) := by
  intro n
  induction n with
  | zero =>
    intro h a l
    rw [acc1_5_reset V c 0 h rfl]
    refine (pay4_apply _ _ a l).trans ?_
    rw [pay2_apply, zero_add]
    show _ = ∑ s ∈ Finset.range 1, part5 V c (0 + s)
    rw [Finset.sum_range_one, Nat.add_zero]
    exact (part5_of_lt V c 0 h).symm
  | succ n ih =>
    intro h a l
    by_cases h0 : (n + 1) % 5 = 0
    · rw [acc1_5_reset V c (n + 1) h h0]
      refine (pay4_apply _ _ a l).trans ?_
      rw [pay2_apply, zero_add, h0]
      show _ = ∑ s ∈ Finset.range 1, part5 V c (n + 1 - 0 + s)
      rw [Finset.sum_range_one]
      exact (part5_of_lt V c (n + 1) h).symm
    · rw [acc1_5_step V c (n + 1) h h0]
      refine (pay4_apply _ _ a l).trans ?_
      have e : (acc1_5 V c (n + 1 - 1) (by omega) : Vec Ideal S8x128 .f32) (ix2 a l)
          = ∑ s ∈ Finset.range (n % 5 + 1), part5 V c (n - n % 5 + s) := ih (Nat.lt_of_succ_lt h) a l
      refine (congrArg (· + _) e).trans ?_
      have hm : (n + 1) % 5 = n % 5 + 1 := by omega
      have hb : n + 1 - (n + 1) % 5 = n - n % 5 := by omega
      rw [hb, hm, Finset.sum_range_succ _ (n % 5 + 1)]
      refine congrArg (_ + ·) ?_
      have hn : n - n % 5 + (n % 5 + 1) = n + 1 := by omega
      rw [hn]
      exact (part5_of_lt V c (n + 1) h).symm

open Idealize.SL Idealize.SL.RA

variable (q0 q2 : PosShare TreeShare)

/-! ## The two output arrays after the run -/

/-- A core's total of the first partial sums: its five points'. -/
def tot4 (k : ℕ) : EReal := ∑ s ∈ Finset.range 5, part4 V c (5 * k + s)
/-- A core's total of the second partial sums. -/
def tot5 (k : ℕ) : EReal := ∑ s ∈ Finset.range 5, part5 V c (5 * k + s)

/-- What the first output array ends holding: rows 8 k … 8 k + 7 hold core k's total in every lane. -/
abbrev G4 : Vec Ideal S16x128 .f32 := fun i => tot4 V c ((i 0).val / 8)
/-- What the second output array ends holding. -/
abbrev G5 : Vec Ideal S16x128 .f32 := fun i => tot5 V c ((i 0).val / 8)

/-- An index of the first output array is in point t's block iff each coordinate is in the block's range on its axis. -/
theorem mem_blk4 (t : Fin cfg1.N) (i : S16x128.Idx) :
    i ∈ ((cfg1.win 4).blk t).view.set ↔ ∀ a : Fin 2, win1_4.index t a * S8x128.size a ≤ (i a).val
      ∧ (i a).val < win1_4.index t a * S8x128.size a + S8x128.size a := by
  show i ∈ ((View.whole main_v17_0).slice (win1_4.rect t)).set ↔ _
  rw [View.set_slice_whole, Rect.mem_set_unit]
  exact Iff.rfl

theorem mem_blk5 (t : Fin cfg1.N) (i : S16x128.Idx) :
    i ∈ ((cfg1.win 5).blk t).view.set ↔ ∀ a : Fin 2, win1_5.index t a * S8x128.size a ≤ (i a).val
      ∧ (i a).val < win1_5.index t a * S8x128.size a + S8x128.size a := by
  show i ∈ ((View.whole main_v17_1).slice (win1_5.rect t)).set ↔ _
  rw [View.set_slice_whole, Rect.mem_set_unit]
  exact Iff.rfl

/-- What a writing-back point (the last of its core's five) writes back is its block of that array: the staged block
    holds the core's five partial sums added up. -/
theorem flushed4_eq (t : Fin cfg1.N) (hf : (cfg1.win 4).flush t = true) :
    (dat1 V c q0 q2).flushed 4 t = ((cfg1.win 4).blk t).view.read (Elt Ideal) (G4 V c) := by
  show (cfg1.win 4).cut (grid1.coords t) ((dat1 V c q0 q2).after 4 t) = _
  rw [after1_4]
  have h4 : t.val % 5 = 4 := (flush1_4 t).mp hf
  obtain ⟨-, -, -, -, -, -, -, -, e0, e1, -⟩ := idx_facts1 t
  have key : ∀ y : S8x128.Idx, (acc1_4 V c t.val t.isLt : Vec Ideal S8x128 .f32) y
      = G4 V c (((cfg1.win 4).blk t).view.emb y) := by
    intro y
    obtain ⟨a, l, rfl⟩ : ∃ (a : Fin 8) (l : Fin 128), y = ix2 a l := ⟨y 0, y 1, eq_ix2 y⟩
    have c0 : G4 V c (((cfg1.win 4).blk t).view.emb (ix2 a l))
        = tot4 V c ((win1_4.index t (0 : Fin 2) * 8 + 1 * a.val) / 8) := rfl
    rw [acc4_apply V c t.val t.isLt a l, h4, c0, e0]
    have ha : a.val < 8 := a.isLt
    unfold tot4
    refine Finset.sum_congr rfl fun s _ => congrArg (part4 V c) ?_
    omega
  exact funext key

theorem flushed5_eq (t : Fin cfg1.N) (hf : (cfg1.win 5).flush t = true) :
    (dat1 V c q0 q2).flushed 5 t = ((cfg1.win 5).blk t).view.read (Elt Ideal) (G5 V c) := by
  show (cfg1.win 5).cut (grid1.coords t) ((dat1 V c q0 q2).after 5 t) = _
  rw [after1_5]
  have h4 : t.val % 5 = 4 := (flush1_5 t).mp hf
  obtain ⟨-, -, -, -, -, -, -, -, -, -, e0, e1, -⟩ := idx_facts1 t
  have key : ∀ y : S8x128.Idx, (acc1_5 V c t.val t.isLt : Vec Ideal S8x128 .f32) y
      = G5 V c (((cfg1.win 5).blk t).view.emb y) := by
    intro y
    obtain ⟨a, l, rfl⟩ : ∃ (a : Fin 8) (l : Fin 128), y = ix2 a l := ⟨y 0, y 1, eq_ix2 y⟩
    have c0 : G5 V c (((cfg1.win 5).blk t).view.emb (ix2 a l))
        = tot5 V c ((win1_5.index t (0 : Fin 2) * 8 + 1 * a.val) / 8) := rfl
    rw [acc5_apply V c t.val t.isLt a l, h4, c0, e0]
    have ha : a.val < 8 := a.isLt
    unfold tot5
    refine Finset.sum_congr rfl fun s _ => congrArg (part5 V c) ?_
    omega
  exact funext key

/-- The two output arrays after the run, at their literal type. -/
abbrev out4 : Vec Ideal S16x128 .f32 := (dat1 (F := Ideal) V c q0 q2).arrAt 4 cfg1.N
abbrev out5 : Vec Ideal S16x128 .f32 := (dat1 (F := Ideal) V c q0 q2).arrAt 5 cfg1.N

/-- Entry (0, 0) is under the block written at point 4, entry (8, 0) under the one written at point 9. -/
theorem arr4_0 : out4 V c q0 q2 (ix2 (0 : Fin 16) (0 : Fin 128)) = tot4 V c 0 := by
  refine ((dat1 V c q0 q2).arrAt_apply_of_mem 4 (G4 V c) (flushed4_eq V c q0 q2) cfg1.N t1_4
    (ix2 (0 : Fin 16) (0 : Fin 128)) t1_4.isLt ((flush1_4 t1_4).mpr rfl) ((mem_blk4 t1_4 _).mpr ?_)).trans rfl
  obtain ⟨-, -, -, -, -, -, -, -, e0, e1, -⟩ := idx_facts1 t1_4
  have hv : t1_4.val = 4 := rfl
  intro a
  match a with
  | ⟨0, _⟩ => show win1_4.index t1_4 (0 : Fin 2) * 8 ≤ 0 ∧ 0 < win1_4.index t1_4 (0 : Fin 2) * 8 + 8; omega
  | ⟨1, _⟩ => show win1_4.index t1_4 (1 : Fin 2) * 128 ≤ 0 ∧ 0 < win1_4.index t1_4 (1 : Fin 2) * 128 + 128; omega

theorem arr4_8 : out4 V c q0 q2 (ix2 (8 : Fin 16) (0 : Fin 128)) = tot4 V c 1 := by
  refine ((dat1 V c q0 q2).arrAt_apply_of_mem 4 (G4 V c) (flushed4_eq V c q0 q2) cfg1.N t1_9
    (ix2 (8 : Fin 16) (0 : Fin 128)) t1_9.isLt ((flush1_4 t1_9).mpr rfl) ((mem_blk4 t1_9 _).mpr ?_)).trans rfl
  obtain ⟨-, -, -, -, -, -, -, -, e0, e1, -⟩ := idx_facts1 t1_9
  have hv : t1_9.val = 9 := rfl
  intro a
  match a with
  | ⟨0, _⟩ => show win1_4.index t1_9 (0 : Fin 2) * 8 ≤ 8 ∧ 8 < win1_4.index t1_9 (0 : Fin 2) * 8 + 8; omega
  | ⟨1, _⟩ => show win1_4.index t1_9 (1 : Fin 2) * 128 ≤ 0 ∧ 0 < win1_4.index t1_9 (1 : Fin 2) * 128 + 128; omega

theorem arr5_0 : out5 V c q0 q2 (ix2 (0 : Fin 16) (0 : Fin 128)) = tot5 V c 0 := by
  refine ((dat1 V c q0 q2).arrAt_apply_of_mem 5 (G5 V c) (flushed5_eq V c q0 q2) cfg1.N t1_4
    (ix2 (0 : Fin 16) (0 : Fin 128)) t1_4.isLt ((flush1_5 t1_4).mpr rfl) ((mem_blk5 t1_4 _).mpr ?_)).trans rfl
  obtain ⟨-, -, -, -, -, -, -, -, -, -, e0, e1, -⟩ := idx_facts1 t1_4
  have hv : t1_4.val = 4 := rfl
  intro a
  match a with
  | ⟨0, _⟩ => show win1_5.index t1_4 (0 : Fin 2) * 8 ≤ 0 ∧ 0 < win1_5.index t1_4 (0 : Fin 2) * 8 + 8; omega
  | ⟨1, _⟩ => show win1_5.index t1_4 (1 : Fin 2) * 128 ≤ 0 ∧ 0 < win1_5.index t1_4 (1 : Fin 2) * 128 + 128; omega

theorem arr5_8 : out5 V c q0 q2 (ix2 (8 : Fin 16) (0 : Fin 128)) = tot5 V c 1 := by
  refine ((dat1 V c q0 q2).arrAt_apply_of_mem 5 (G5 V c) (flushed5_eq V c q0 q2) cfg1.N t1_9
    (ix2 (8 : Fin 16) (0 : Fin 128)) t1_9.isLt ((flush1_5 t1_9).mpr rfl) ((mem_blk5 t1_9 _).mpr ?_)).trans rfl
  obtain ⟨-, -, -, -, -, -, -, -, -, -, e0, e1, -⟩ := idx_facts1 t1_9
  have hv : t1_9.val = 9 := rfl
  intro a
  match a with
  | ⟨0, _⟩ => show win1_5.index t1_9 (0 : Fin 2) * 8 ≤ 8 ∧ 8 < win1_5.index t1_9 (0 : Fin 2) * 8 + 8; omega
  | ⟨1, _⟩ => show win1_5.index t1_9 (1 : Fin 2) * 128 ≤ 0 ∧ 0 < win1_5.index t1_9 (1 : Fin 2) * 128 + 128; omega

/-- The two cores' totals together are the ten points' partial sums. -/
theorem tot4_add : tot4 V c 0 + tot4 V c 1 = ∑ t : Fin 10, part4 V c t.val := by
  unfold tot4
  rw [← Finset.sum_range (fun n => part4 V c n), show (10 : ℕ) = 5 + 5 from rfl, Finset.sum_range_add]
  refine congrArg₂ (· + ·) (Finset.sum_congr rfl fun s _ => congrArg (part4 V c) (by omega))
    (Finset.sum_congr rfl fun s _ => congrArg (part4 V c) (by omega))

theorem tot5_add : tot5 V c 0 + tot5 V c 1 = ∑ t : Fin 10, part5 V c t.val := by
  unfold tot5
  rw [← Finset.sum_range (fun n => part5 V c n), show (10 : ℕ) = 5 + 5 from rfl, Finset.sum_range_add]
  refine congrArg₂ (· + ·) (Finset.sum_congr rfl fun s _ => congrArg (part5 V c) (by omega))
    (Finset.sum_congr rfl fun s _ => congrArg (part5 V c) (by omega))

/-! ## The partial sums in terms of the centres -/

section Spec
open Cert.Spec

variable (w : Cert.Spec.AW)
  (h6 : ∀ (i : Fin 4000) (d : Fin 1024), (V c main_v6 : S4000x1024.Idx → EReal) (ix2 i d) = w (ix3 (rowK i).1 (rowK i).2 d))
  (h11 : ∀ i : Fin 4000, (V c main_v11 : S4000x1.Idx → EReal) (ix2 i (0 : Fin 1)) = wsq w (rowK i).1 (rowK i).2)
  (h12 : ∀ j : Fin 4000, (V c main_v12 : S1x4000.Idx → EReal) (ix2 (0 : Fin 1) j) = wsq w (rowK j).1 (rowK j).2)

include h6 h11 h12

/-- The clamped squared distance the kernel forms at row r of tile t against row j is the specification's, between
    centre rows 400 t + r and j in the slot-major numbering. -/
theorem N_eq (t : Fin cfg1.N) (r : Fin 400) (j g : Fin 4000) (hg : g.val = 400 * t.val + r.val) :
    N (blkRows V c t) (blkAll V c t) (blkSqCol V c t) (blkSqRow V c t) r j = wn w (rowK g) (rowK j) := by
  have e1 : blkSqCol V c t (ix2 r (0 : Fin 1)) = wsq w (rowK g).1 (rowK g).2 :=
    (blkSqCol_apply V c t r g hg).trans (h11 g)
  have e2 : blkSqRow V c t (ix2 (0 : Fin 1) j) = wsq w (rowK j).1 (rowK j).2 :=
    (blkSqRow_apply V c t j).trans (h12 j)
  have e3 : ∑ d : Fin 1024, blkRows V c t (ix2 r d) * blkAll V c t (ix2 j d) = ww w (rowK g) (rowK j) :=
    Finset.sum_congr rfl fun d _ =>
      congrArg₂ (· * ·) ((blkRows_apply V c t r d g hg).trans (h6 g d)) ((blkAll_apply V c t j d).trans (h6 j d))
  unfold N wn
  rw [e1, e2, e3]

/-- Point t's first partial sum: the triangle sum's rows 400 t … 400 t + 399. -/
theorem part4_eq (t : Fin 10) :
    part4 V c t.val = ∑ r : Fin 400, ∑ j : Fin 4000,
      if (⟨400 * t.val + r.val, by have := t.isLt; have := r.isLt; omega⟩ : Fin 4000) ≤ j then
        wn w (rowK ⟨400 * t.val + r.val, by have := t.isLt; have := r.isLt; omega⟩) (rowK j) else 0 := by
  have hN : t.val < cfg1.N := lt_of_lt_of_eq t.isLt (show (10 : ℕ) = cfg1.N from N_1.symm)
  obtain ⟨-, -, -, -, -, -, -, -, -, -, -, -, ec⟩ := idx_facts1 ⟨t.val, hN⟩
  rw [part4_of_lt V c t.val hN]
  refine (pay7_apply _ _ _ _ _).trans ?_
  refine Finset.sum_congr rfl fun r _ => Finset.sum_congr rfl fun j _ => ?_
  rw [ec]
  refine if_congr ?_ (N_eq V c w h6 h11 h12 ⟨t.val, hN⟩ r j (⟨400 * t.val + r.val, by have := t.isLt; have := r.isLt; omega⟩ : Fin 4000) rfl) rfl
  show t.val * 400 + r.val ≤ j.val ↔ 400 * t.val + r.val ≤ j.val
  omega

theorem part5_eq (t : Fin 10) :
    part5 V c t.val = ∑ r : Fin 400, ∑ j : Fin 4000,
      if (⟨400 * t.val + r.val, by have := t.isLt; have := r.isLt; omega⟩ : Fin 4000) ≤ j then
        wn w (rowK ⟨400 * t.val + r.val, by have := t.isLt; have := r.isLt; omega⟩) (rowK j)
          * wn w (rowK ⟨400 * t.val + r.val, by have := t.isLt; have := r.isLt; omega⟩) (rowK j) else 0 := by
  have hN : t.val < cfg1.N := lt_of_lt_of_eq t.isLt (show (10 : ℕ) = cfg1.N from N_1.symm)
  obtain ⟨-, -, -, -, -, -, -, -, -, -, -, -, ec⟩ := idx_facts1 ⟨t.val, hN⟩
  rw [part5_of_lt V c t.val hN]
  refine (pay8_apply _ _ _ _ _).trans ?_
  refine Finset.sum_congr rfl fun r _ => Finset.sum_congr rfl fun j _ => ?_
  rw [ec, N_eq V c w h6 h11 h12 ⟨t.val, hN⟩ r j (⟨400 * t.val + r.val, by have := t.isLt; have := r.isLt; omega⟩ : Fin 4000) rfl]
  refine if_congr ?_ rfl rfl
  show t.val * 400 + r.val ≤ j.val ↔ 400 * t.val + r.val ≤ j.val
  omega

/-- THE FIRST OUTPUT: the two entries the host adds are together the sum of the clamped squared distances over the upper
    triangle of the 4000 × 4000 table, in the slot-major numbering. -/
theorem region1_S1 :
    out4 V c q0 q2 (ix2 (0 : Fin 16) (0 : Fin 128)) + out4 V c q0 q2 (ix2 (8 : Fin 16) (0 : Fin 128)) = S1K w := by
  refine (congrArg₂ (· + ·) (arr4_0 V c q0 q2) (arr4_8 V c q0 q2)).trans ?_
  rw [tot4_add]
  unfold S1K triSum
  rw [sum_rows]
  exact Finset.sum_congr rfl fun t _ => part4_eq V c w h6 h11 h12 t

/-- THE SECOND OUTPUT: likewise the sum of their squares. -/
theorem region1_S2 :
    out5 V c q0 q2 (ix2 (0 : Fin 16) (0 : Fin 128)) + out5 V c q0 q2 (ix2 (8 : Fin 16) (0 : Fin 128)) = S2K w := by
  refine (congrArg₂ (· + ·) (arr5_0 V c q0 q2) (arr5_8 V c q0 q2)).trans ?_
  rw [tot5_add]
  unfold S2K triSum
  rw [sum_rows]
  exact Finset.sum_congr rfl fun t _ => part5_eq V c w h6 h11 h12 t

end Spec

end Cert.KernelIdeal.HandV

end
-- ==== Proof.KI.KValue.lean ====
/-
  The kernel-side program's result array as one function of its two arguments. Column j < 1000 of row b comes from the
  first kernel's output through the slice: the affinity of b to cluster j. The last column is the scalar the host
  operations after the second kernel compute from its two output arrays: each array holds, at rows 0 and 8, the partial
  triangle sums of the two halves of the centre rows; their sums are the triangle sums of d and d² in slot-major
  numbering, and the scalar is the expanded form δ · (T d² − 2 μ T d + μ² n), μ = δ · T d.
-/
import proofs.«411617_j1520418423399_3_alg».proof.Proof.KI.Run
import proofs.«411617_j1520418423399_3_alg».proof.Proof.KI.HostGlue
import proofs.«411617_j1520418423399_3_alg».proof.Proof.KI.Val0
import proofs.«411617_j1520418423399_3_alg».proof.Proof.KI.Val1
import proofs.«411617_j1520418423399_3_alg».proof.Proof.Spec

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- The second kernel finds the re-laid centres and their squared norms as the first did: the first kernel and the slice
    write neither. -/
theorem e1_v6 : (E1 m c main_v6 : S4000x1024.Idx → EReal) = (V4 m c main_v6 : S4000x1024.Idx → EReal) :=
  (mid_kept_v6 (X5 m c)).trans (X5_of m c main_v6 (by decide))
theorem e1_v11 : (E1 m c main_v11 : S4000x1.Idx → EReal) = (V4 m c main_v11 : S4000x1.Idx → EReal) :=
  (mid_kept_v11 (X5 m c)).trans (X5_of m c main_v11 (by decide))
theorem e1_v12 : (E1 m c main_v12 : S1x4000.Idx → EReal) = (V4 m c main_v12 : S1x4000.Idx → EReal) :=
  (mid_kept_v12 (X5 m c)).trans (X5_of m c main_v12 (by decide))

/-- The two partial sums of the first output array of the second kernel add up to the triangle sum of d. -/
theorem pair_S1 : tilePair (X7 m c main_v17_0) = Cert.Spec.S1K (wArr m c) := by
  refine (congrArg tilePair (show (X7 m c main_v17_0 : S16x128.Idx → EReal) = out4 (E1 m) c qL qR from X7_out0 m c)).trans ?_
  exact region1_S1 (E1 m) c qL qR (wArr m c)
    (fun i d => (congrFun (e1_v6 m c) (ix2 i d)).trans (pre_v6 m c i d))
    (fun i => (congrFun (e1_v11 m c) (ix2 i 0)).trans (pre_v11 m c i))
    (fun j => (congrFun (e1_v12 m c) (ix2 0 j)).trans (pre_v12 m c j))

/-- Those of the second output array add up to the triangle sum of d². -/
theorem pair_S2 : tilePair (X7 m c main_v17_1) = Cert.Spec.S2K (wArr m c) := by
  refine (congrArg tilePair (show (X7 m c main_v17_1 : S16x128.Idx → EReal) = out5 (E1 m) c qL qR from X7_out1 m c)).trans ?_
  exact region1_S2 (E1 m) c qL qR (wArr m c)
    (fun i d => (congrFun (e1_v6 m c) (ix2 i d)).trans (pre_v6 m c i d))
    (fun i => (congrFun (e1_v11 m c) (ix2 i 0)).trans (pre_v11 m c i))
    (fun j => (congrFun (e1_v12 m c) (ix2 0 j)).trans (pre_v12 m c j))

/-- The result array. -/
theorem kernel_value : X8 (F := Ideal) m c main_v39
    = Cert.Spec.GK (m ((c.tc : Thread nD τ).loc main_arg0)) (m ((c.tc : Thread nD τ).loc main_arg1)) := by
  funext j
  obtain ⟨b, j', rfl⟩ : ∃ (b : Fin 1024) (j' : Fin 1001), j = ix2 b j' := ⟨j 0, j 1, eq_ix2 j⟩
  refine (tail_v39 (X7 m c) b j').trans ?_
  unfold Cert.Spec.GK
  by_cases h : j'.val < 1000
  · rw [dif_pos h, dif_pos (show ((ix2 b j' : (⟨2, ![1024, 1001]⟩ : Shape).Idx) 1).val < 1000 from h)]
    have e16 : (X7 m c main_v16 : S1024x1000.Idx → EReal) = (StableHlo.after hostOps1 (X5 m c) main_v16 : S1024x1000.Idx → EReal) :=
      X7_of m c main_v16 (by decide) (by decide)
    refine (congrFun e16 _).trans ?_
    refine (mid_v16 (X5 m c) b ⟨j'.val, h⟩).trans ?_
    have e15 : (X5 m c main_v15 : S1024x1024.Idx → EReal) = ((dat0 (F := Ideal) (E0 m) c).arrAt 4 cfg0.N : S1024x1024.Idx → EReal) := X5_out m c
    refine (congrFun e15 _).trans ?_
    exact region0_value (E0 m) c (fArr m c) (wArr m c) (pre_v0 m c) (pre_v3 m c) (pre_v13 m c) (pre_v14 m c) b ⟨j'.val, h⟩
  · rw [dif_neg h, dif_neg (show ¬ ((ix2 b j' : (⟨2, ![1024, 1001]⟩ : Shape).Idx) 1).val < 1000 from h)]
    rw [pair_S1, pair_S2]
    rfl

end Cert.KernelIdeal.HandV

end
-- ==== Proof.RefDist.lean ====
/-
  The first 1000 columns of the reference, read at an index.

  Column c of row b is the largest over the four slots k of exp (−dn b c k / 10), where
  dn b c k = max (|f_b|² + |w_ck|² − 2 f_b·w_ck) 0. The reference flattens the centres to 4000 rows, row 4 c + k being
  centre (c, k); it forms the three sums over the 1024 coordinates (each from the initial value 0), clamps, negates,
  divides by 10 and exponentiates at every (b, 4 c + k); it regroups the 4000 columns as 1000 × 4 and takes the
  maximum over the last axis starting from −∞, which is the maximum of the four entries.
-/
import proofs.«411617_j1520418423399_3_alg».proof.Proof.RefReadP
import proofs.«411617_j1520418423399_3_alg».proof.Proof.Spec
import Idealize.ShloMosaic.PureOps.Reduce
import Idealize.ShloMosaic.PureOps.Ideal.Laws
import Idealize.ShloMosaic.Lib.ValueIdx

noncomputable section

namespace Cert.RefValue

open Cert.ReferenceIdeal Cert.ReferenceIdeal.Gen Cert.ReferenceIdeal.ReadP Idealize.ShloMosaic Idealize.ShloMosaic.ValueIdx

/-- The centre-major number of centre row (c, k): 4 c + k. -/
def row (c : Fin 1000) (k : Fin 4) : Fin 4000 := ⟨4 * c.val + k.val, by have := c.isLt; have := k.isLt; omega⟩

variable (x0 : (⟨S1024x1024, .f32⟩ : BufTy).Contents (Elt Ideal)) (x1 : (⟨S1000x4x1024, .f32⟩ : BufTy).Contents (Elt Ideal))

/-- Row 4 c + k of the flattened centres is the centre (c, k). -/
theorem flat_row (c : Fin 1000) (k : Fin 4) (d : Fin 1024) :
    val_main_v0 (F := Ideal) x1 (ix2 (row c k) d) = x1 (ix3 c k d) := by
  rw [val_main_v0_apply]
  refine congrArg x1 (funext fun a => Fin.ext ?_)
  have hc := c.isLt; have hk := k.isLt; have hd := d.isLt
  match a with
  | ⟨0, _⟩ => show ((4 * c.val + k.val) * 1024 + d.val) / 4096 = c.val; omega
  | ⟨1, _⟩ => show ((4 * c.val + k.val) * 1024 + d.val) / 1024 % 4 = k.val; omega
  | ⟨2, _⟩ => show ((4 * c.val + k.val) * 1024 + d.val) % 1024 = d.val; omega

/-- The squared length of feature row b. -/
theorem fsq_at (b : Fin 1024) : val_main_v2 (F := Ideal) x0 (ix1 b) = Cert.Spec.fsq x0 b := by
  rw [val_main_v2_apply, val_main_cst_apply]
  simp only [val_main_v1_apply, Ideal.ofBits_def, Ideal.mulf_def]
  rw [Ideal.ofBits_zero_f32, zero_add]
  unfold Cert.Spec.fsq
  refine Finset.sum_congr rfl fun d _ => ?_
  have e : idx_main_v2 (ix1 b) d = ix2 b d := funext fun a => Fin.ext (by match a with | ⟨0, _⟩ => rfl | ⟨1, _⟩ => rfl)
  rw [e]

/-- The squared length of centre (c, k), read at its centre-major row. -/
theorem wsq_at (c : Fin 1000) (k : Fin 4) : val_main_v5 (F := Ideal) x1 (ix1 (row c k)) = Cert.Spec.wsq x1 c k := by
  rw [val_main_v5_apply, val_main_cst_0_apply]
  simp only [val_main_v4_apply, Ideal.ofBits_def, Ideal.mulf_def]
  rw [Ideal.ofBits_zero_f32, zero_add]
  unfold Cert.Spec.wsq
  refine Finset.sum_congr rfl fun d _ => ?_
  have e : idx_main_v5 (ix1 (row c k)) d = ix2 (row c k) d := funext fun a => Fin.ext (by match a with | ⟨0, _⟩ => rfl | ⟨1, _⟩ => rfl)
  rw [e, flat_row]

/-- The product of feature row b with centre (c, k). -/
theorem fw_at (b : Fin 1024) (c : Fin 1000) (k : Fin 4) :
    val_main_v7 (F := Ideal) x0 x1 (ix2 b (row c k)) = Cert.Spec.fw x0 x1 b c k := by
  rw [val_main_v7_apply]
  unfold Cert.Spec.fw
  refine Finset.sum_congr rfl fun d _ => ?_
  have el : lidx_main_v7 (ix2 b (row c k)) d = ix2 b d := funext fun a => Fin.ext (by match a with | ⟨0, _⟩ => rfl | ⟨1, _⟩ => rfl)
  have er : idx_main_v6 (ridx_main_v7 (ix2 b (row c k)) d) = ix2 (row c k) d := funext fun a => Fin.ext (by match a with | ⟨0, _⟩ => rfl | ⟨1, _⟩ => rfl)
  rw [val_main_v6_apply, el, er, flat_row]

/-- The clamped squared distance of feature row b to centre (c, k), at column 4 c + k. -/
theorem ref_norm (b : Fin 1024) (c : Fin 1000) (k : Fin 4) :
    val_main_v16 (F := Ideal) x0 x1 (ix2 b (row c k)) = Cert.Spec.dn x0 x1 b c k := by
  have e1 : idx_main_v3 (idx_main_v9 (ix2 b (row c k))) = ix1 b := funext fun a => Fin.ext (by match a with | ⟨0, _⟩ => rfl)
  have e2 : idx_main_v8 (idx_main_v10 (ix2 b (row c k))) = ix1 (row c k) := funext fun a => Fin.ext (by match a with | ⟨0, _⟩ => rfl)
  rw [val_main_v16_apply, val_main_v14_apply, val_main_v11_apply, val_main_v9_apply, val_main_v3_apply, e1, fsq_at,
    val_main_v10_apply, val_main_v8_apply, e2, wsq_at, val_main_v13_apply, val_main_v12_apply, val_main_cst_1_apply, fw_at,
    val_main_v15_apply, val_main_cst_2_apply]
  simp only [Ideal.maximumf_def, Ideal.subf_def, Ideal.addf_def, Ideal.mulf_def, Ideal.ofBits_def]
  rw [Ideal.ofBits_zero_f32]
  rfl

/-- exp (−dn / 10) at column 4 c + k. -/
theorem ref_kernel (b : Fin 1024) (c : Fin 1000) (k : Fin 4) :
    val_main_v20 (F := Ideal) x0 x1 (ix2 b (row c k)) = Cert.Spec.dk x0 x1 b c k := by
  rw [val_main_v20_apply, val_main_v19_apply, val_main_v17_apply, ref_norm, val_main_v18_apply, val_main_cst_3_apply]
  simp only [Ideal.hostUnary_exp_def, Ideal.hostDivf_def, Ideal.hostNegf_def, Ideal.negf_def, Ideal.ofBits_def]
  rfl

/-- Entry (b, c, k) of the regrouped table is column 4 c + k of row b. -/
theorem ref_slot (b : Fin 1024) (c : Fin 1000) (k : Fin 4) :
    val_main_v21 (F := Ideal) x0 x1 (ix3 b c k) = Cert.Spec.dk x0 x1 b c k := by
  rw [val_main_v21_apply]
  have e : idx_main_v21 (ix3 b c k) = ix2 b (row c k) := funext fun a => Fin.ext (by
    have hb := b.isLt; have hc := c.isLt; have hk := k.isLt
    match a with
    | ⟨0, _⟩ => show ((b.val * 1000 + c.val) * 4 + k.val) / 4000 = b.val; omega
    | ⟨1, _⟩ => show ((b.val * 1000 + c.val) * 4 + k.val) % 4000 = 4 * c.val + k.val; omega)
  rw [e, ref_kernel]

/-- The largest of four extended reals, started from −∞. -/
theorem fold_max_four (g : Fin 4 → EReal) :
    (Finset.univ : Finset (Fin 4)).fold max (⊥ : EReal) g = max (max (max (g 0) (g 1)) (g 2)) (g 3) := by
  simp only [Fin.univ_succ, Finset.fold_cons, Finset.fold_map, Finset.univ_unique, Finset.fold_singleton]
  show max (g 0) (max (g 1) (max (g 2) (max (g 3) ⊥))) = _
  rw [max_bot_right, max_assoc, max_assoc]

/-- The word 0xFF800000 is −∞. -/
theorem ofBits_neg_inf : Ideal.ofBits .f32 0xFF800000#32 = (⊥ : EReal) := by
  simp [Ideal.ofBits, Ideal.ieee]

/-- The reduced index (b, c) with slot k put back is (b, c, k). -/
theorem lift_slot (h : S1024x1000x4.Reduces [2] S1024x1000) (b : Fin 1024) (c : Fin 1000) (k : Fin (S1024x1000x4.size 2)) :
    h.lift (ix2 b c) k = ix3 b c (⟨k.val, k.isLt⟩ : Fin 4) := by
  funext a; apply Fin.ext
  fin_cases a <;> rfl

/-- The first 1000 columns of the reference: the largest of the four slots' affinities. -/
theorem ref_dist (b : Fin 1024) (c : Fin 1000) :
    val_main_v22 (F := Ideal) x0 x1 (ix2 b c) = Cert.Spec.dist x0 x1 b c := by
  have hr : S1024x1000x4.Reduces [2] S1024x1000 := by decide
  unfold val_main_v22
  rw [Host.reduce_eq_fold_single FloatOps.maximumf _ _ reducesTo_S1024x1000x4_S1024x1000_d2 hr h_S_, val_main_cst_4_apply,
    Ideal.ofBits_def, ofBits_neg_inf]
  have hf : (val_main_v21 (F := Ideal) x0 x1 ∘ hr.lift (ix2 b c)) = fun k : Fin 4 => Cert.Spec.dk x0 x1 b c k :=
    funext fun k => (congrArg (val_main_v21 (F := Ideal) x0 x1) (lift_slot hr b c k)).trans (ref_slot x0 x1 b c ⟨k.val, k.isLt⟩)
  refine Eq.trans (congrArg (fun f => Finset.fold max (⊥ : EReal) f (Finset.univ : Finset (Fin 4))) hf) ?_
  exact fold_max_four _

end Cert.RefValue

end
-- ==== Proof.RefReg.lean ====
/-
  The reference program's last column, read as mathematics.

  The reference flattens the centres w[c, k, d] to 4000 rows numbered centre-major, row i = 4 c + k, forms the table of
  clamped squared distances wn between rows, keeps its upper triangle (diagonal included), and from the triangle's sum
  takes the mean μ = δ · ∑_{i ≤ j} wn and then the scalar δ · ∑_{i ≤ j} (wn − μ)², which it writes, times the literal
  one, into every row of the last column.
-/
import proofs.«411617_j1520418423399_3_alg».proof.Proof.RefReadP
import proofs.«411617_j1520418423399_3_alg».proof.Proof.Spec

noncomputable section

namespace Cert.RefValue

open Idealize.ShloMosaic Idealize.ShloMosaic.ValueIdx Cert.ReferenceIdeal Cert.ReferenceIdeal.ReadP Cert.Spec

/-! ## The flattened centres -/

/-- Row i = 4 c + k of the flattened centres is centre (c, k): the flat offset 1024 i + d of entry (i, d) splits as
    4096 c + 1024 k + d. -/
theorem Reg.flat_at (x1 : (⟨S1000x4x1024, .f32⟩ : BufTy).Contents (Elt Ideal)) (i : Fin 4000) (d : Fin 1024) :
    val_main_v0 (F := Ideal) x1 (ix2 i d) = x1 (ix3 (rowR i).1 (rowR i).2 d) := by
  rw [val_main_v0_apply]
  refine congrArg x1 (funext fun a => Fin.ext ?_)
  have hi := i.isLt
  have hd := d.isLt
  match a with
  | ⟨0, _⟩ => show (i.val * 1024 + d.val) / 4096 = i.val / 4; omega
  | ⟨1, _⟩ => show (i.val * 1024 + d.val) / 1024 % 4 = i.val % 4; omega
  | ⟨2, _⟩ => show (i.val * 1024 + d.val) % 1024 = d.val; omega

/-- The squared norm of row i. -/
theorem Reg.sq_at (x1 : (⟨S1000x4x1024, .f32⟩ : BufTy).Contents (Elt Ideal)) (i : Fin 4000) :
    val_main_v5 (F := Ideal) x1 (ix1 i) = wsq x1 (rowR i).1 (rowR i).2 := by
  rw [val_main_v5_apply, val_main_cst_0_apply]
  simp only [Ideal.ofBits_def, Ideal.ofBits_zero_f32, zero_add]
  unfold Cert.Spec.wsq
  refine Finset.sum_congr rfl fun d _ => ?_
  have e : idx_main_v5 (ix1 i) d = ix2 i d :=
    funext fun a => Fin.ext (by match a with | ⟨0, _⟩ => rfl | ⟨1, _⟩ => rfl)
  rw [e, val_main_v4_apply, Reg.flat_at, Ideal.mulf_def]

/-- The inner product of rows i and j. -/
theorem Reg.dot_at (x1 : (⟨S1000x4x1024, .f32⟩ : BufTy).Contents (Elt Ideal)) (i j : Fin 4000) :
    val_main_v24 (F := Ideal) x1 (ix2 i j) = ww x1 (rowR i) (rowR j) := by
  rw [val_main_v24_apply]
  unfold Cert.Spec.ww
  refine Finset.sum_congr rfl fun d _ => ?_
  have el : lidx_main_v24 (ix2 i j) d = ix2 i d :=
    funext fun a => Fin.ext (by match a with | ⟨0, _⟩ => rfl | ⟨1, _⟩ => rfl)
  have er : ridx_main_v24 (ix2 i j) d = ix2 d j :=
    funext fun a => Fin.ext (by match a with | ⟨0, _⟩ => rfl | ⟨1, _⟩ => rfl)
  have et : idx_main_v23 (ix2 d j) = ix2 j d :=
    funext fun a => Fin.ext (by match a with | ⟨0, _⟩ => rfl | ⟨1, _⟩ => rfl)
  rw [el, er, val_main_v23_apply, et, Reg.flat_at, Reg.flat_at]

/-! ## The table of clamped squared distances -/

theorem ref_wn (x1 : (⟨S1000x4x1024, .f32⟩ : BufTy).Contents (Elt Ideal)) (i j : Fin 4000) :
    val_main_v34 (F := Ideal) x1 (ix2 i j) = wn x1 (rowR i) (rowR j) := by
  have ea : idx_main_v25 (idx_main_v27 (ix2 i j)) = ix1 i :=
    funext fun a => Fin.ext (by match a with | ⟨0, _⟩ => rfl)
  have eb : idx_main_v26 (idx_main_v28 (ix2 i j)) = ix1 j :=
    funext fun a => Fin.ext (by match a with | ⟨0, _⟩ => rfl)
  rw [val_main_v34_apply, val_main_v32_apply, val_main_v29_apply, val_main_v27_apply, val_main_v25_apply, ea,
    val_main_v28_apply, val_main_v26_apply, eb, val_main_v31_apply, val_main_v30_apply, val_main_cst_5_apply,
    val_main_v33_apply, val_main_cst_6_apply, Reg.sq_at, Reg.sq_at, Reg.dot_at]
  simp only [Ideal.maximumf_def, Ideal.subf_def, Ideal.addf_def, Ideal.mulf_def, Ideal.ofBits_def, Ideal.ofBits_zero_f32]
  rfl

/-! ## The upper triangle -/

/-- A one-bit word made from a truth value is 1 exactly when the value is true. -/
theorem Reg.bit_one_iff (b : Bool) : BitVec.ofBool b = 1#1 ↔ b = true := by cases b <;> decide

/-- A number below 4000, as a 32-bit word read as a signed integer, is itself. -/
theorem Reg.toInt_small (n : ℕ) (hn : n < 4000) : (BitVec.ofNat 32 n).toInt = (n : ℤ) := by
  have h1 : n < 2 ^ 32 := by omega
  have h2 : 2 * n < 2 ^ 32 := by omega
  rw [BitVec.toInt_eq_toNat_cond, BitVec.toNat_ofNat, Nat.mod_eq_of_lt h1, if_pos h2]

/-- Adding the all-ones word, the word of −1, to the word of k + 1 gives the word of k. -/
theorem Reg.pred_word (k : ℕ) : BitVec.ofNat 32 (k + 1) + 4294967295#32 = BitVec.ofNat 32 k := by
  have e : (4294967295#32 : BitVec 32) = -1#32 := by decide
  rw [e, ← BitVec.sub_eq_add_neg, BitVec.ofNat_add, BitVec.add_sub_cancel]

/-- Adding it to the zero word leaves it: −1 as a signed integer. -/
theorem Reg.ones_toInt : (BitVec.ofNat 32 0 + 4294967295#32).toInt = -1 := by decide

/-- The mask's bit: as signed 32-bit words, (i − 1) ≥ j exactly when j < i. For i = 0 the word of i − 1 is the all-ones
    word, −1 as a signed integer, below every j ≥ 0; for i = k + 1 it is the word of k. -/
theorem Reg.below_bit (i j : Fin 4000) :
    IntOp.cmpi .sge (IntOp.addi (BitVec.ofNat 32 i.val) 4294967295#32) (BitVec.ofNat 32 j.val) = 1#1 ↔ j < i := by
  obtain ⟨i, hi⟩ := i
  obtain ⟨j, hj⟩ := j
  show BitVec.ofBool ((BitVec.ofNat 32 j).sle (BitVec.ofNat 32 i + 4294967295#32)) = 1#1 ↔ _
  rw [Fin.mk_lt_mk, Reg.bit_one_iff, BitVec.sle, decide_eq_true_eq, Reg.toInt_small j hj]
  cases i with
  | zero => rw [Reg.ones_toInt]; omega
  | succ k => rw [Reg.pred_word k, Reg.toInt_small k (Nat.lt_of_succ_lt hi)]; omega

/-- Selecting 0 where the bit is set and a elsewhere keeps a exactly on the upper triangle i ≤ j. -/
theorem Reg.keep_upper (i j : Fin 4000) (a : EReal) :
    Scalar.select (IntOp.cmpi .sge (IntOp.addi (BitVec.ofNat 32 i.val) 4294967295#32) (BitVec.ofNat 32 j.val)) (0 : EReal) a
      = if i ≤ j then a else 0 := by
  by_cases h : i ≤ j
  · rw [if_pos h, eq_zero_of_ne_one (fun hb => absurd ((Reg.below_bit i j).mp hb) (not_lt.mpr h)), select_zero]
  · rw [if_neg h, (Reg.below_bit i j).mpr (not_le.mp h), select_one]

theorem ref_triu (x1 : (⟨S1000x4x1024, .f32⟩ : BufTy).Contents (Elt Ideal)) (i j : Fin 4000) :
    val_main_v35 (F := Ideal) x1 (ix2 i j) = if i ≤ j then wn x1 (rowR i) (rowR j) else 0 := by
  rw [val_main_v35_apply, val_main_call0_v4_apply, val_main_call0_v2_apply, val_main_call0_v0_apply,
    val_main_call0_v1_apply, val_main_call0_c_apply, val_main_call0_v3_apply, val_main_call0_v5_apply,
    val_main_call0_cst_apply, ref_wn, Ideal.ofBits_def, Ideal.ofBits_zero_f32]
  exact Reg.keep_upper i j _

/-! ## The triangle's sum, the mean, the sum of squared deviations -/

/-- The sum over the whole table of the masked distances is the triangle sum of wn (every index). -/
theorem Reg.ref_S1_at (x1 : (⟨S1000x4x1024, .f32⟩ : BufTy).Contents (Elt Ideal)) (i : S_.Idx) : val_main_v36 (F := Ideal) x1 i = S1R x1 := by
  rw [val_main_v36_apply, val_main_cst_7_apply, Ideal.ofBits_def, Ideal.ofBits_zero_f32, zero_add, sum_idx2]
  unfold Cert.Spec.S1R Cert.Spec.triSum
  exact Finset.sum_congr rfl fun a _ => Finset.sum_congr rfl fun b _ => ref_triu x1 a b

theorem ref_S1 (x1 : (⟨S1000x4x1024, .f32⟩ : BufTy).Contents (Elt Ideal)) : val_main_v36 (F := Ideal) x1 ix0 = S1R x1 := Reg.ref_S1_at x1 ix0

/-- The mean: δ times the triangle sum. -/
theorem Reg.ref_mu_at (x1 : (⟨S1000x4x1024, .f32⟩ : BufTy).Contents (Elt Ideal)) (i : S_.Idx) : val_main_v37 (F := Ideal) x1 i = muR x1 := by
  rw [val_main_v37_apply, val_main_cst_8_apply, Reg.ref_S1_at, Ideal.ofBits_def, Ideal.mulf_def]
  rfl

/-- The masked squared deviation at (i, j): on the triangle the table entry is wn itself, so the deviation is wn − μ. -/
theorem Reg.dev_at (x1 : (⟨S1000x4x1024, .f32⟩ : BufTy).Contents (Elt Ideal)) (i j : Fin 4000) :
    val_main_v41 (F := Ideal) x1 (ix2 i j)
      = if i ≤ j then (wn x1 (rowR i) (rowR j) - muR x1) * (wn x1 (rowR i) (rowR j) - muR x1) else 0 := by
  rw [val_main_v41_apply, val_main_call1_v4_apply, val_main_call1_v2_apply, val_main_call1_v0_apply,
    val_main_call1_v1_apply, val_main_call1_c_apply, val_main_call1_v3_apply, val_main_call1_v5_apply,
    val_main_call1_cst_apply, Ideal.ofBits_def, Ideal.ofBits_zero_f32, Reg.keep_upper]
  by_cases h : i ≤ j
  · rw [if_pos h, if_pos h, val_main_v40_apply, val_main_v39_apply, val_main_v38_apply, Reg.ref_mu_at, ref_triu, if_pos h,
      Ideal.mulf_def, Ideal.subf_def]
  · rw [if_neg h, if_neg h]

theorem Reg.ref_rw_at (x1 : (⟨S1000x4x1024, .f32⟩ : BufTy).Contents (Elt Ideal)) (i : S_.Idx) : val_main_v43 (F := Ideal) x1 i = rwR x1 := by
  rw [val_main_v43_apply, val_main_cst_10_apply, val_main_v42_apply, val_main_cst_9_apply, Ideal.ofBits_def, Ideal.ofBits_def,
    Ideal.ofBits_zero_f32, zero_add, sum_idx2, Ideal.mulf_def]
  unfold Cert.Spec.rwR Cert.Spec.triSum
  refine congrArg (delta * ·) ?_
  exact Finset.sum_congr rfl fun a _ => Finset.sum_congr rfl fun b _ => Reg.dev_at x1 a b

theorem ref_rw (x1 : (⟨S1000x4x1024, .f32⟩ : BufTy).Contents (Elt Ideal)) : val_main_v43 (F := Ideal) x1 ix0 = rwR x1 := Reg.ref_rw_at x1 ix0

/-! ## The last column -/

theorem ref_last (x1 : (⟨S1000x4x1024, .f32⟩ : BufTy).Contents (Elt Ideal)) (b : Fin 1024) :
    val_main_v46 (F := Ideal) x1 (ix2 b (0 : Fin 1)) = one * rwR x1 := by
  rw [val_main_v46_apply, val_main_v44_apply, val_main_cst_11_apply, val_main_v45_apply, Reg.ref_rw_at, Ideal.ofBits_def,
    Ideal.mulf_def]
  rfl

end Cert.RefValue

end
-- ==== Proof.RefValue.lean ====
/-
  The reference's result, read as one function of its two arguments: its first 1000 columns are the affinities, its
  last column the regularisation scalar as a sum of squared deviations over the upper triangle.
-/
import proofs.«411617_j1520418423399_3_alg».proof.Proof.RefReadP
import proofs.«411617_j1520418423399_3_alg».proof.Proof.RefDist
import proofs.«411617_j1520418423399_3_alg».proof.Proof.RefReg
import proofs.«411617_j1520418423399_3_alg».proof.Proof.LibConcatCols
import proofs.«411617_j1520418423399_3_alg».proof.Proof.Spec

noncomputable section

namespace Cert.RefValue

open Idealize.ShloMosaic Idealize.ShloMosaic.ValueIdx Cert.ReferenceIdeal Cert.ReferenceIdeal.ReadP

/-- The last stage of the reference is the result array: column j < 1000 of row b the affinity of b to cluster j,
    column 1000 the scalar. -/
theorem ref_value (x0 : (⟨S1024x1024, .f32⟩ : BufTy).Contents (Elt Ideal)) (x1 : (⟨S1000x4x1024, .f32⟩ : BufTy).Contents (Elt Ideal)) :
    val_main_v47 (F := Ideal) x0 x1 = Cert.Spec.GR x0 x1 := by
  funext j
  obtain ⟨b, j', rfl⟩ : ∃ (b : Fin 1024) (j' : Fin 1001), j = ix2 b j' := ⟨j 0, j 1, eq_ix2 j⟩
  unfold val_main_v47
  refine (Cert.Lib.concatenate_1024x1000_1024x1_apply _ _ _ b j').trans ?_
  unfold Cert.Spec.GR
  by_cases h : j'.val < 1000
  · rw [dif_pos h, dif_pos (show ((ix2 b j' : (⟨2, ![1024, 1001]⟩ : Shape).Idx) 1).val < 1000 from h)]
    exact ref_dist x0 x1 b ⟨j'.val, h⟩
  · rw [dif_neg h, dif_neg (show ¬ ((ix2 b j' : (⟨2, ![1024, 1001]⟩ : Shape).Idx) 1).val < 1000 from h)]
    exact ref_last x1 b

end Cert.RefValue

end
-- ==== Proof.Algebra.lean ====
/-
  The two forms of the last-column scalar agree over real centres.

  1. The clamped squared distance `wn` is symmetric in its two rows.
  2. The slot-major row `i` is the centre-major row `σ i`, `σ i = 4 (i mod 1000) + i / 1000` a permutation
     of the 4000 row numbers.
  3. Over any commutative additive monoid, the upper-triangle sum (diagonal included) of a symmetric n × n
     table does not change when both indices are renumbered by a permutation: the diagonal is re-indexed, and
     the strictly upper pairs are mapped onto themselves by (i, j) ↦ (min (σ i) (σ j), max (σ i) (σ j)).
     So both triangle sums of `wn` and of `wn²` are the same in the two numberings.
  4. Over real centres every `wn` is a real number, so every quantity is the embedding of a real one.
  5. In the reals, ∑ (x − μ)² = ∑ x² − 2 μ ∑ x + μ² · N over a set of N terms, and the upper triangle of an
     n × n table has n (n + 1) / 2 pairs: 8002000 for n = 4000.
-/
import proofs.«411617_j1520418423399_3_alg».proof.Proof.Spec
import Mathlib.Algebra.BigOperators.Group.Finset.Basic
import Mathlib.Algebra.BigOperators.Group.Finset.Sigma
import Mathlib.Algebra.BigOperators.Group.Finset.Piecewise
import Mathlib.Algebra.BigOperators.Ring.Finset
import Mathlib.Data.EReal.Operations
import Mathlib.Order.Interval.Finset.Fin
import Mathlib.Tactic.Ring
import Mathlib.Tactic.Linarith
import Mathlib.Tactic.NormNum

noncomputable section

namespace Cert.Spec

open Finset
open Idealize.ShloMosaic Idealize.ShloMosaic.ValueIdx

section Triangle

variable {n : ℕ} {M : Type*} [AddCommMonoid M]

/-- The sum of an n × n table over its upper triangle, the diagonal included. -/
def tri (g : Fin n → Fin n → M) : M := ∑ i : Fin n, ∑ j : Fin n, if i ≤ j then g i j else 0

/-- The strictly upper pairs. -/
def upper (n : ℕ) : Finset (Fin n × Fin n) := univ.filter fun p => p.1 < p.2

/-- The upper pairs, the diagonal included. -/
def upperEq (n : ℕ) : Finset (Fin n × Fin n) := univ.filter fun p => p.1 ≤ p.2

theorem tri_eq_sum_upperEq (g : Fin n → Fin n → M) : tri g = ∑ p ∈ upperEq n, g p.1 p.2 := by
  unfold tri upperEq
  rw [sum_filter, ← univ_product_univ, sum_product]

/-- The triangle sum is the diagonal sum plus the sum over the strictly upper pairs. -/
theorem tri_eq_diag_add_upper (g : Fin n → Fin n → M) :
    tri g = ∑ i, g i i + ∑ p ∈ upper n, g p.1 p.2 := by
  unfold tri upper
  have h : ∀ i j : Fin n, (if i ≤ j then g i j else 0)
      = (if i = j then g i j else 0) + (if i < j then g i j else 0) := by
    intro i j
    rcases lt_trichotomy i j with h | h | h
    · simp [h, h.le, h.ne]
    · subst h; simp
    · simp [not_le.2 h, h.ne', not_lt.2 h.le]
  simp_rw [h, sum_add_distrib]
  congr 1
  · refine sum_congr rfl fun i _ => ?_
    simp
  · rw [sum_filter, ← univ_product_univ, sum_product]

/-- A permutation of the indices maps the strictly upper pairs onto themselves when each image pair is put
in order; so it does not change the sum of a symmetric table over them. -/
theorem upper_perm (g : Fin n → Fin n → M) (hg : ∀ i j, g i j = g j i) (σ : Equiv.Perm (Fin n)) :
    ∑ p ∈ upper n, g (σ p.1) (σ p.2) = ∑ p ∈ upper n, g p.1 p.2 := by
  unfold upper
  refine sum_nbij' (fun p => (min (σ p.1) (σ p.2), max (σ p.1) (σ p.2)))
    (fun p => (min (σ.symm p.1) (σ.symm p.2), max (σ.symm p.1) (σ.symm p.2))) ?_ ?_ ?_ ?_ ?_
  · intro p hp
    simp only [mem_filter, mem_univ, true_and] at hp ⊢
    exact min_lt_max.2 fun h => hp.ne (σ.injective h)
  · intro p hp
    simp only [mem_filter, mem_univ, true_and] at hp ⊢
    exact min_lt_max.2 fun h => hp.ne (σ.symm.injective h)
  · rintro ⟨i, j⟩ hp
    simp only [mem_filter, mem_univ, true_and] at hp
    rcases le_total (σ i) (σ j) with h | h
    · simp [min_eq_left h, max_eq_right h, hp.le]
    · simp [min_eq_right h, max_eq_left h, hp.le]
  · rintro ⟨i, j⟩ hp
    simp only [mem_filter, mem_univ, true_and] at hp
    rcases le_total (σ.symm i) (σ.symm j) with h | h
    · simp [min_eq_left h, max_eq_right h, hp.le]
    · simp [min_eq_right h, max_eq_left h, hp.le]
  · rintro ⟨i, j⟩ _
    rcases le_total (σ i) (σ j) with h | h
    · simp [min_eq_left h, max_eq_right h]
    · simp only [min_eq_right h, max_eq_left h]
      exact hg _ _

/-- The triangle sum of a symmetric table does not change under a permutation of the indices. -/
theorem tri_perm (g : Fin n → Fin n → M) (hg : ∀ i j, g i j = g j i) (σ : Equiv.Perm (Fin n)) :
    tri (fun i j => g (σ i) (σ j)) = tri g := by
  rw [tri_eq_diag_add_upper, tri_eq_diag_add_upper, upper_perm g hg σ,
    Equiv.sum_comp σ fun i => g i i]

end Triangle

section Count

/-- Twice the number of pairs i ≤ j of an n × n table is n (n + 1): the pairs i ≤ j and the pairs j < i
fill the table, the latter are as many as the pairs i < j, and the pairs i ≤ j are the diagonal and the
pairs i < j. -/
theorem two_mul_card_upperEq (n : ℕ) : 2 * (upperEq n).card = n * (n + 1) := by
  have h1 : (upperEq n).card = n + (upper n).card := by
    have h := tri_eq_diag_add_upper (n := n) (fun _ _ => (1 : ℕ))
    rw [tri_eq_sum_upperEq] at h
    simpa using h
  have h2 : (upperEq n).card + (upper n).card = n * n := by
    have h := card_filter_add_card_filter_not (s := (univ : Finset (Fin n × Fin n)))
      (fun p => p.1 ≤ p.2)
    have h3 : ((univ : Finset (Fin n × Fin n)).filter fun p => ¬ p.1 ≤ p.2).card
        = (upper n).card := by
      refine card_equiv (Equiv.prodComm _ _) ?_
      intro p
      simp [upper]
    rw [h3] at h
    simpa [upperEq] using h
  have h3 : n * (n + 1) = n * n + n := by ring
  omega

theorem card_upperEq_4000 : (upperEq 4000).card = 8002000 := by
  have h := two_mul_card_upperEq 4000
  omega

/-- The sum of squared deviations from μ over the upper triangle, expanded. -/
theorem tri_sq_dev {n : ℕ} (x : Fin n → Fin n → ℝ) (μ : ℝ) :
    tri (fun i j => (x i j - μ) * (x i j - μ))
      = tri (fun i j => x i j * x i j) - 2 * μ * tri x + μ * μ * ((upperEq n).card : ℝ) := by
  simp only [tri_eq_sum_upperEq]
  have h : ∀ p : Fin n × Fin n, (x p.1 p.2 - μ) * (x p.1 p.2 - μ)
      = x p.1 p.2 * x p.1 p.2 - 2 * μ * x p.1 p.2 + μ * μ := fun p => by ring
  simp_rw [h, sum_add_distrib, sum_sub_distrib, ← mul_sum, sum_const, nsmul_eq_mul]
  ring

end Count

section Coe

/-- The embedding of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

theorem coe_max (a b : ℝ) : ((max a b : ℝ) : EReal) = max (a : EReal) (b : EReal) :=
  EReal.coe_strictMono.monotone.map_max

theorem coe_tri {n : ℕ} (x : Fin n → Fin n → ℝ) :
    ((tri x : ℝ) : EReal) = tri (fun i j => (x i j : EReal)) := by
  simp only [tri_eq_sum_upperEq, coe_sum]

end Coe

section Centres

variable (w : AW)

theorem ww_comm (p q : Row) : ww w p q = ww w q p := by
  unfold ww
  exact sum_congr rfl fun d _ => mul_comm _ _

/-- The clamped squared distance is symmetric. -/
theorem wn_comm (p q : Row) : wn w p q = wn w q p := by
  unfold wn
  rw [ww_comm w p q, add_comm]

/-- Over real centres every clamped squared distance is a real number. -/
theorem wn_real (hw : Finite3 w) (h2 : two = ((2 : ℝ) : EReal)) (p q : Row) :
    ∃ r : ℝ, wn w p q = (r : EReal) := by
  choose wr hwr using hw
  refine ⟨max ((∑ d : Fin 1024, wr (ix3 p.1 p.2 d) * wr (ix3 p.1 p.2 d))
    + (∑ d : Fin 1024, wr (ix3 q.1 q.2 d) * wr (ix3 q.1 q.2 d))
    - 2 * ∑ d : Fin 1024, wr (ix3 p.1 p.2 d) * wr (ix3 q.1 q.2 d)) 0, ?_⟩
  unfold wn wsq ww
  simp only [hwr, h2, ← EReal.coe_mul, ← coe_sum, ← EReal.coe_add, ← EReal.coe_sub]
  rw [← EReal.coe_zero, ← coe_max]

/-- The renumbering i = 1000 k + c ↦ 4 c + k of the 4000 centre rows. -/
def sigma : Equiv.Perm (Fin 4000) where
  toFun i := ⟨4 * (i.val % 1000) + i.val / 1000, by have := i.isLt; omega⟩
  invFun j := ⟨1000 * (j.val % 4) + j.val / 4, by have := j.isLt; omega⟩
  left_inv i := by
    apply Fin.ext
    have := i.isLt
    simp only []
    omega
  right_inv j := by
    apply Fin.ext
    have := j.isLt
    simp only []
    omega

theorem rowK_eq (i : Fin 4000) : rowK i = rowR (sigma i) := by
  have := i.isLt
  apply Prod.ext <;> apply Fin.ext <;> simp only [rowK, rowR, sigma, Equiv.coe_fn_mk] <;> omega

theorem triSum_eq_tri (g : Fin 4000 → Fin 4000 → EReal) : triSum g = tri g := rfl

theorem S1K_eq : S1K w = S1R w := by
  unfold S1K S1R
  simp only [triSum_eq_tri, rowK_eq]
  exact tri_perm (fun a b => wn w (rowR a) (rowR b)) (fun a b => wn_comm w _ _) sigma

theorem S2K_eq : S2K w = triSum fun i j => wn w (rowR i) (rowR j) * wn w (rowR i) (rowR j) := by
  unfold S2K
  simp only [triSum_eq_tri, rowK_eq]
  exact tri_perm (fun a b => wn w (rowR a) (rowR b) * wn w (rowR a) (rowR b))
    (fun a b => by rw [wn_comm w (rowR a) (rowR b)]) sigma

end Centres

theorem rwK_eq_rwR (w : AW) (hw : Finite3 w) (h2 : two = ((2 : ℝ) : EReal))
    (hn : npairs = ((8002000 : ℝ) : EReal)) (hd : ∃ r : ℝ, delta = (r : EReal)) :
    rwK w = rwR w := by
  obtain ⟨dr, hdr⟩ := hd
  have hx : ∀ i j : Fin 4000, ∃ r : ℝ, wn w (rowR i) (rowR j) = (r : EReal) :=
    fun i j => wn_real w hw h2 _ _
  choose x hx using hx
  have hS1R : S1R w = ((tri x : ℝ) : EReal) := by
    unfold S1R
    rw [coe_tri]
    simp only [hx, triSum_eq_tri]
  have hS1K : S1K w = ((tri x : ℝ) : EReal) := by rw [S1K_eq, hS1R]
  have hS2K : S2K w = ((tri (fun i j => x i j * x i j) : ℝ) : EReal) := by
    rw [S2K_eq, coe_tri]
    simp only [hx, EReal.coe_mul, triSum_eq_tri]
  have hmuR : muR w = ((dr * tri x : ℝ) : EReal) := by
    unfold muR
    rw [hdr, hS1R, EReal.coe_mul]
  have hmuK : muK w = ((dr * tri x : ℝ) : EReal) := by
    unfold muK
    rw [hdr, hS1K, EReal.coe_mul]
  have hR : rwR w
      = ((dr * tri (fun i j => (x i j - dr * tri x) * (x i j - dr * tri x)) : ℝ) : EReal) := by
    unfold rwR
    rw [hmuR, hdr, EReal.coe_mul dr (tri fun i j => (x i j - dr * tri x) * (x i j - dr * tri x)),
      coe_tri fun i j => (x i j - dr * tri x) * (x i j - dr * tri x)]
    simp only [hx, EReal.coe_mul, EReal.coe_sub, triSum_eq_tri]
  have hK : rwK w = ((dr * (tri (fun i j => x i j * x i j) - 2 * (dr * tri x) * tri x
      + (dr * tri x) * (dr * tri x) * 8002000) : ℝ) : EReal) := by
    unfold rwK
    rw [hmuK, hS2K, hS1K, hdr, h2, hn]
    simp only [EReal.coe_mul, EReal.coe_sub, EReal.coe_add]
  rw [hR, hK, tri_sq_dev, card_upperEq_4000]
  norm_num

theorem GK_eq_GR (f : AF) (w : AW) (hw : Finite3 w) (h2 : two = ((2 : ℝ) : EReal))
    (hn : npairs = ((8002000 : ℝ) : EReal)) (hd : ∃ r : ℝ, delta = (r : EReal)) :
    GK f w = GR f w := by
  funext j
  unfold GK GR
  split_ifs with h
  · rfl
  · rw [rwK_eq_rwR w hw h2 hn hd]

end Cert.Spec

end
-- ==== Proof.Finite.lean ====
import proofs.«411617_j1520418423399_3_alg».proof.Defs
import proofs.«411617_j1520418423399_3_alg».proof.Proof.Gen.Pre_finite_inputs
import proofs.«411617_j1520418423399_3_alg».proof.Proof.Spec
import Idealize.ShloMosaic.Lib.ReduceAll

/-!
  The precondition, read back: both input arrays hold real numbers only.

  The printed predicate is `all (|f| < +∞) ∧ all (|w| < +∞)`, a one-bit word that the claim's hypothesis says is 1.
  A conjunction of two bits is 1 only when both are; a reduction by `and` over all axes is 1 only when every
  element is; and an extended real `x` with `max x (-x) < ⊤` is neither `⊤` nor `⊥`, so it is a real number.
-/

noncomputable section

namespace Cert.Proof.Fin

open Idealize.ShloMosaic Idealize.SL.Sem

/-- The rank-0 shape has exactly one index. -/
instance : Subsingleton Cert.Pre_finite_inputs.S_.Idx := ⟨fun a b => funext fun d => d.elim0⟩

/-- An extended real whose absolute value `max x (-x)` lies below `⊤` is a real number:
    at `⊤` the maximum is `⊤`, at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the predicate. The word `0x7F800000` denotes `⊤`, and the ordered comparison
    `|x| < ⊤` answering 1 says the inequality holds. -/
theorem real_of_cmp (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  apply real_of_abs_lt_top
  by_contra hn
  simp [Ideal.cmp, hn] at h

/-- The predicate being 1 on a pair of arrays makes every entry of both a real number. -/
theorem finite_of_fn [hF : Cert.Pre_finite_inputs.Facts]
    (x0 : FVec Ideal Cert.Pre_finite_inputs.S1024x1024 .f32)
    (x1 : FVec Ideal Cert.Pre_finite_inputs.S1000x4x1024 .f32)
    (h : Cert.Pre_finite_inputs.fn (F := Ideal) x0 x1 = (fun _ => 1#1)) :
    Cert.Spec.Finite2 x0 ∧ Cert.Spec.Finite3 x1 := by
  -- the one entry of the rank-0 result
  have h0 := congrFun h ValueIdx.ix0
  dsimp only [Cert.Pre_finite_inputs.fn, andi] at h0
  -- both conjuncts are 1
  obtain ⟨ha, hb⟩ := IntOp.andi_eq_one.1 h0
  refine ⟨fun i => ?_, fun i => ?_⟩
  · -- every element of the first reduction is 1; its element at i is the comparison |x0 i| < +∞
    exact real_of_cmp _ (Host.reduce_andi_all _ _ _ _ _ ha i)
  · exact real_of_cmp _ (Host.reduce_andi_all _ _ _ _ _ hb i)

/-- The claim's precondition on a memory: on every device the two argument arrays hold real numbers only. -/
theorem finite_of_pre [hF : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.Finite2 (m ((c.tc : Thread Cert.KernelIdeal.nD Cert.KernelIdeal.τ).loc Cert.KernelIdeal.main_arg0))
    ∧ Cert.Spec.Finite3 (m ((c.tc : Thread Cert.KernelIdeal.nD Cert.KernelIdeal.τ).loc Cert.KernelIdeal.main_arg1)) :=
  finite_of_fn _ _ (hpre c)

end Cert.Proof.Fin

end
-- ==== Proof.lean ====
/-
  The certificate. Both programs compute, from the features f (1024 × 1024) and the cluster centres w
  (1000 × 4 × 1024), the 1024 × 1001 array whose entry (b, c), c < 1000, is max_k exp (−max (|f_b − w_ck|², 0) / 10) with
  the squared distance expanded as |f_b|² + |w_ck|² − 2 f_b·w_ck, and whose last column is one scalar: with
  d(p, q) = max (|w_p|² + |w_q|² − 2 w_p·w_q, 0) over the 4000 centre rows, T the sum over the upper triangle i ≤ j,
  μ = δ · T d, it is δ · T ((d − μ)²).

  The kernel-side program pads the clusters to 1024 columns and slices the padding away, numbers the centre rows
  slot-major where the reference numbers them centre-major, accumulates the two triangle sums T d and T d² tile by tile
  in two halves, and expands the square: δ · (T d² − 2 μ T d + μ² n), n = 4000 · 4001 / 2 the number of pairs. Over the
  extended reals the two agree because d is symmetric (so T d and T d² do not depend on the numbering of the rows),
  because n is exactly the word the program carries, and because under the precondition every entry is a real
  number, where the expansion of the square is an identity.

  The frames: each kernel-side program runs as eight stretches (host operations, the first kernel, a slice, the second
  kernel, host operations), every buffer at a known array between two stretches; no stretch writes an argument. The
  reference is a straight line of host operations.
-/
import proofs.«411617_j1520418423399_3_alg».proof.Defs
import proofs.«411617_j1520418423399_3_alg».proof.Proof.Gen.Kernel
import proofs.«411617_j1520418423399_3_alg».proof.Proof.Gen.KernelIdeal
import proofs.«411617_j1520418423399_3_alg».proof.Proof.Gen.ReferenceIdeal
import proofs.«411617_j1520418423399_3_alg».proof.Proof.Gen.Pre_finite_inputs
import proofs.«411617_j1520418423399_3_alg».proof.Proof.K.Run
import proofs.«411617_j1520418423399_3_alg».proof.Proof.KI.Run
import proofs.«411617_j1520418423399_3_alg».proof.Proof.KI.KValue
import proofs.«411617_j1520418423399_3_alg».proof.Proof.RefRunP
import proofs.«411617_j1520418423399_3_alg».proof.Proof.RefReadP
import proofs.«411617_j1520418423399_3_alg».proof.Proof.RefValue
import proofs.«411617_j1520418423399_3_alg».proof.Proof.Algebra
import proofs.«411617_j1520418423399_3_alg».proof.Proof.Consts
import proofs.«411617_j1520418423399_3_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the same result array: the kernel side's is the
    expanded form, the reference's the sum of squared deviations, and under the precondition the two are one array. -/
theorem algebraic : Cert.algebraic_KernelIdeal_ReferenceIdeal := by
  intro m ρ m' ρ' hpre hagree
  refine ⟨fun c => Cert.Spec.GK (m ((c.tc : Thread _ _).loc Cert.KernelIdeal.main_arg0)) (m ((c.tc : Thread _ _).loc Cert.KernelIdeal.main_arg1)), ?_, ?_⟩
  · exact (θ_run Cert.KernelIdeal.defs _ _).mono
      (fun _ h c => ⟨(h c).1.trans (Cert.KernelIdeal.HandV.kernel_value m c), (h c).2.1, (h c).2.2⟩)
      (Cert.KernelIdeal.Hand.run_value (F := Ideal) m ρ)
  · refine (θ_run Cert.ReferenceIdeal.defs _ _).mono (fun _ h c => ⟨(h c).1.trans ?_, (h c).2.1, (h c).2.2⟩)
      (Cert.ReferenceIdeal.ValueP.run (F := Ideal) m' ρ')
    have hfin := Cert.Proof.Fin.finite_of_pre m hpre c
    rw [Cert.ReferenceIdeal.ReadP.val_main_v47_eq, Cert.RefValue.ref_value, (hagree c).1, (hagree c).2]
    exact (Cert.Spec.GK_eq_GR _ _ hfin.2 Cert.Spec.two_eq Cert.Spec.npairs_eq Cert.Spec.delta_real).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
